-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x4096x256 : Shape := ⟨3, ![16, 4096, 256]⟩
abbrev S16x1024x512 : Shape := ⟨3, ![16, 1024, 512]⟩
abbrev S16x1024x256 : Shape := ⟨3, ![16, 1024, 256]⟩
abbrev S16x1024 : Shape := ⟨2, ![16, 1024]⟩
abbrev S512x256 : Shape := ⟨2, ![512, 256]⟩
abbrev S512 : Shape := ⟨1, ![512]⟩
abbrev S16 : Shape := ⟨1, ![16]⟩
abbrev S65536 : Shape := ⟨1, ![65536]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x4096x256 : S_.BroadcastsInDim S16x4096x256 (![] : Fin 0 → Fin S16x4096x256.rank)
  reducesTo_S16x4096x256_S_d0_1_2 : S16x4096x256.ReducesTo [0, 1, 2] S_
  bcast_S_S16x1024x512 : S_.BroadcastsInDim S16x1024x512 (![] : Fin 0 → Fin S16x1024x512.rank)
  reducesTo_S16x1024x512_S_d0_1_2 : S16x1024x512.ReducesTo [0, 1, 2] S_
  bcast_S_S16x1024x256 : S_.BroadcastsInDim S16x1024x256 (![] : Fin 0 → Fin S16x1024x256.rank)
  reducesTo_S16x1024x256_S_d0_1_2 : S16x1024x256.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S16 : S_.BroadcastsInDim S16 (![] : Fin 0 → Fin S16.rank)
  reducesTo_S16_S_d0 : S16.ReducesTo [0] S_
  bcast_S_S65536 : S_.BroadcastsInDim S65536 (![] : Fin 0 → Fin S65536.rank)
  reducesTo_S65536_S_d0 : S65536.ReducesTo [0] S_

variable [Facts]

def fn_part3 {F : FTy → Type} [FloatOps F] (main_arg10 : IVec S65536 32) (main_v50 : IVec S_ 1) : IVec S_ 1 :=
  let main_c_19 : IVec S_ 32 := constantI S_ 32 0#32
  let main_v51 : IVec S65536 32 := broadcastInDim S65536 ![] bcast_S_S65536 main_c_19
  let main_v52 : IVec S65536 1 := cmpi .sge main_arg10 main_v51
  let main_c_20 : IVec S_ 32 := constantI S_ 32 512#32
  let main_v53 : IVec S65536 32 := broadcastInDim S65536 ![] bcast_S_S65536 main_c_20
  let main_v54 : IVec S65536 1 := cmpi .slt main_arg10 main_v53
  let main_v55 : IVec S65536 1 := andi main_v52 main_v54
  let main_c_21 : IVec S_ 1 := constantI S_ 1 1#1
  let main_v56 : IVec S_ 1 := (fun x v => Host.reduce IntOp.andi x v reducesTo_S65536_S_d0 h_S_) main_v55 main_c_21
  let main_v57 : IVec S_ 1 := andi main_v50 main_v56
  main_v57

def fn_part2 {F : FTy → Type} [FloatOps F] (main_arg7 : FVec F S512x256 .f32) (main_arg8 : FVec F S512 .f32) (main_arg9 : IVec S16 32) (main_arg10 : IVec S65536 32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_c_16 : IVec S_ 32 := constantI S_ 32 0#32
  let main_v44 : IVec S16 32 := broadcastInDim S16 ![] bcast_S_S16 main_c_16
  let main_v45 : IVec S16 1 := cmpi .sge main_arg9 main_v44
  let main_c_17 : IVec S_ 32 := constantI S_ 32 16#32
  let main_v46 : IVec S16 32 := broadcastInDim S16 ![] bcast_S_S16 main_c_17
  let main_v47 : IVec S16 1 := cmpi .slt main_arg9 main_v46
  let main_v48 : IVec S16 1 := andi main_v45 main_v47
  let main_c_18 : IVec S_ 1 := constantI S_ 1 1#1
  let main_v49 : IVec S_ 1 := (fun x v => Host.reduce IntOp.andi x v reducesTo_S16_S_d0 h_S_) main_v48 main_c_18
  let main_v50 : IVec S_ 1 := andi main_v43 main_v49
  fn_part3 (F := F) main_arg10 main_v50

def fn_part1 {F : FTy → Type} [FloatOps F] (main_arg4 : FVec F S16x1024x256 .f32) (main_arg5 : FVec F S16x1024 .f32) (main_arg6 : FVec F S16x1024 .f32) (main_arg7 : FVec F S512x256 .f32) (main_arg8 : FVec F S512 .f32) (main_arg9 : IVec S16 32) (main_arg10 : IVec S65536 32) (main_v13 : IVec S_ 1) (main_v16 : IVec S16x1024x512 1) : IVec S_ 1 :=
  let main_c_5 : IVec S_ 1 := constantI S_ 1 1#1
  let main_v17 : IVec S_ 1 := (fun x v => Host.reduce IntOp.andi x v reducesTo_S16x1024x512_S_d0_1_2 h_S_) main_v16 main_c_5
  let main_v18 : IVec S_ 1 := andi main_v13 main_v17
  let main_v19 : FVec F S16x1024x256 .f32 := Host.absf main_arg4
  let main_cst_6 : FVec F S_ .f32 := constant S_ .f32 0x7F800000#32
  let main_v20 : FVec F S16x1024x256 .f32 := broadcastInDim S16x1024x256 ![] bcast_S_S16x1024x256 main_cst_6
  let main_v21 : IVec S16x1024x256 1 := cmpf .olt main_v19 main_v20
  let main_c_7 : IVec S_ 1 := constantI S_ 1 1#1
  let main_v22 : IVec S_ 1 := (fun x v => Host.reduce IntOp.andi x v reducesTo_S16x1024x256_S_d0_1_2 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S16x1024 .f32 := Host.absf main_arg6
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16x4096x512 .f32) (main_arg1 : FVec F S16x4096x256 .f32) (main_arg2 : FVec F S16x4096x256 .f32) (main_arg3 : FVec F S16x1024x512 .f32) (main_arg4 : FVec F S16x1024x256 .f32) (main_arg5 : FVec F S16x1024 .f32) (main_arg6 : FVec F S16x1024 .f32) (main_arg7 : FVec F S512x256 .f32) (main_arg8 : FVec F S512 .f32) (main_arg9 : IVec S16 32) (main_arg10 : IVec S65536 32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S16x1024x512 .f32 := Host.absf main_arg3
  let main_cst_4 : FVec F S_ .f32 := constant S_ .f32 0x7F800000#32
  let main_v15 : FVec F S16x1024x512 .f32 := broadcastInDim S16x1024x512 ![] bcast_S_S16x1024x512 main_cst_4
  let main_v16 : IVec S16x1024x512 1 := cmpf .olt main_v14 main_v15
  fn_part1 (F := F) main_arg4 main_arg5 main_arg6 main_arg7 main_arg8 main_arg9 main_arg10 main_v13 main_v16
-- ==== Kernel.lean ====
abbrev S16x4096x512 : Shape := ⟨3, ![16, 4096, 512]⟩
abbrev S16x4096x256 : Shape := ⟨3, ![16, 4096, 256]⟩
abbrev S16x1024x512 : Shape := ⟨3, ![16, 1024, 512]⟩
abbrev S16x1024x256 : Shape := ⟨3, ![16, 1024, 256]⟩
abbrev S16x1024 : Shape := ⟨2, ![16, 1024]⟩
abbrev S512x256 : Shape := ⟨2, ![512, 256]⟩
abbrev S512 : Shape := ⟨1, ![512]⟩
abbrev S16 : Shape := ⟨1, ![16]⟩
abbrev S65536 : Shape := ⟨1, ![65536]⟩
abbrev S16x1x1024 : Shape := ⟨3, ![16, 1, 1024]⟩
abbrev S16x4096x1 : Shape := ⟨3, ![16, 4096, 1]⟩
abbrev S16x1x4096 : Shape := ⟨3, ![16, 1, 4096]⟩
abbrev S1x1024x512 : Shape := ⟨3, ![1, 1024, 512]⟩
abbrev S1 : Shape := ⟨1, ![1]⟩
abbrev S1x1024x256 : Shape := ⟨3, ![1, 1024, 256]⟩
abbrev S1x1x1024 : Shape := ⟨3, ![1, 1, 1024]⟩
abbrev S1x1024x1 : Shape := ⟨3, ![1, 1024, 1]⟩
abbrev S1024x512 : Shape := ⟨2, ![1024, 512]⟩
abbrev S1024x256 : Shape := ⟨2, ![1024, 256]⟩
abbrev S1024 : Shape := ⟨1, ![1024]⟩
abbrev S1024x1024 : Shape := ⟨2, ![1024, 1024]⟩
abbrev S1x1024 : Shape := ⟨2, ![1, 1024]⟩
abbrev S1x512 : Shape := ⟨2, ![1, 512]⟩
abbrev S1024x1 : Shape := ⟨2, ![1024, 1]⟩
abbrev S65536x256 : Shape := ⟨2, ![65536, 256]⟩

abbrev nBuf : Space → Nat
  | .hbm => 19
  | .vmem => 22
  | .smem => 1
  | _ => 0

abbrev bufTy : (tb : Table) → Fin (tcTables nBuf tb) → BufTy
  | .hbm, ⟨0, _⟩ => ⟨S16x4096x512, .f32⟩
  | .hbm, ⟨1, _⟩ => ⟨S16x4096x256, .f32⟩
  | .hbm, ⟨2, _⟩ => ⟨S16x4096x256, .f32⟩
  | .hbm, ⟨3, _⟩ => ⟨S16x1024x512, .f32⟩
  | .hbm, ⟨4, _⟩ => ⟨S16x1024x256, .f32⟩
  | .hbm, ⟨5, _⟩ => ⟨S16x1024, .f32⟩
  | .hbm, ⟨6, _⟩ => ⟨S16x1024, .f32⟩
  | .hbm, ⟨7, _⟩ => ⟨S512x256, .f32⟩
  | .hbm, ⟨8, _⟩ => ⟨S512, .f32⟩
  | .hbm, ⟨9, _⟩ => ⟨S65536, .i32⟩
  | .hbm, ⟨10, _⟩ => ⟨S16x1024, .f32⟩
  | .hbm, ⟨11, _⟩ => ⟨S16x1x1024, .f32⟩
  | .hbm, ⟨12, _⟩ => ⟨S16x4096x1, .i32⟩
  | .hbm, ⟨13, _⟩ => ⟨S16x4096x256, .f32⟩
  | .hbm, ⟨14, _⟩ => ⟨S16x4096x256, .f32⟩
  | .hbm, ⟨15, _⟩ => ⟨S16x1x4096, .f32⟩
  | .hbm, ⟨16, _⟩ => ⟨S65536x256, .f32⟩
  | .hbm, ⟨17, _⟩ => ⟨S65536x256, .f32⟩
  | .hbm, ⟨18, _⟩ => ⟨S65536, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x256, .f32⟩
  | .local _ .vmem, ⟨9, _⟩ => ⟨S1x1024x256, .f32⟩
  | .local _ .vmem, ⟨10, _⟩ => ⟨S1x1x1024, .f32⟩
  | .local _ .vmem, ⟨11, _⟩ => ⟨S1x1x1024, .f32⟩
  | .local _ .vmem, ⟨12, _⟩ => ⟨S512x256, .f32⟩
  | .local _ .vmem, ⟨13, _⟩ => ⟨S512, .f32⟩
  | .local _ .vmem, ⟨14, _⟩ => ⟨S1x1024x1, .i32⟩
  | .local _ .vmem, ⟨15, _⟩ => ⟨S1x1024x1, .i32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1x1024, .f32⟩
  | .local _ .vmem, ⟨21, _⟩ => ⟨S1x1x1024, .f32⟩
  | .local _ .smem, ⟨0, _⟩ => ⟨S16, .i32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S16x1024_S16x1x1024 : S16x1024.ShapeCasts S16x1x1024
  shapeCasts_S65536_S16x4096x1 : S65536.ShapeCasts S16x4096x1
  numel1_S1 : S1.numel = 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  shapeCasts_S1024x256_S1x1024x256 : S1024x256.ShapeCasts S1x1024x256
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x512_d1_w32 : S1024x512.Iotas .tc 32 [1]
  shapeCasts_S1024_S1x1x1024 : S1024.ShapeCasts S1x1x1024
  shapeCasts_S16x4096x256_S65536x256 : S16x4096x256.ShapeCasts S65536x256
  shapeCasts_S16x1x4096_S65536 : S16x1x4096.ShapeCasts S65536
  dot_S1024x512_S1024x512_S1024x1024_1_1_0_0_n_n_wf : DotDims.WF S1024x512 S1024x512 S1024x1024 [1] [1] [0] [0] [] []
  dot_S1024x256_S1024x256_S1024x1024_1_1_0_0_n_n_wf : DotDims.WF S1024x256 S1024x256 S1024x1024 [1] [1] [0] [0] [] []
  dot_S1024x256_S512x256_S1024x512_1_1_0_0_n_n_wf : DotDims.WF S1024x256 S512x256 S1024x512 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1.size a ≤ S16x4096x1.size a
  hwx0_8 : ∀ i : grid0.Coords, EltTy.bits .i32 = 32 ∨ (Rect.block (s := S16x4096x1) S1x1024x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S16x4096x256.size a
  hwx0_9 : ∀ i : grid0.Coords, EltTy.bits .f32 = 32 ∨ (Rect.block (s := S16x4096x256) S1x1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x256.size a ≤ S16x4096x256.size a
  hwx0_10 : ∀ i : grid0.Coords, EltTy.bits .f32 = 32 ∨ (Rect.block (s := S16x4096x256) S1x1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1024.size a ≤ S16x1x4096.size a
  hwx0_11 : ∀ i : grid0.Coords, EltTy.bits .f32 = 32 ∨ (Rect.block (s := S16x1x4096) S1x1x1024.size (cc0_transform_11 i) (hinb0_11 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev spec0_0 : Pipeline.WinSpec sig grid0.rank :=
  Pipeline.WinSpec.ofSpec (Memref.whole main_arg0) S1x1024x512.size reads0_0 false false 2 stage0_0 sem0_0 nbuf0_0 hstage0_0

abbrev spec0_1 : Pipeline.WinSpec sig grid0.rank :=
  Pipeline.WinSpec.ofSpec (Memref.whole main_arg1) S1x1024x256.size reads0_1 false false 2 stage0_1 sem0_1 nbuf0_1 hstage0_1

abbrev spec0_2 : Pipeline.WinSpec sig grid0.rank :=
  Pipeline.WinSpec.ofSpec (Memref.whole main_arg2) S1x1024x256.size reads0_2 false false 2 stage0_2 sem0_2 nbuf0_2 hstage0_2

abbrev spec0_3 : Pipeline.WinSpec sig grid0.rank :=
  Pipeline.WinSpec.ofSpec (Memref.whole main_arg3) S1x1024x512.size reads0_3 false false 2 stage0_3 sem0_3 nbuf0_3 hstage0_3

abbrev spec0_4 : Pipeline.WinSpec sig grid0.rank :=
  Pipeline.WinSpec.ofSpec (Memref.whole main_arg4) S1x1024x256.size reads0_4 false false 2 stage0_4 sem0_4 nbuf0_4 hstage0_4

abbrev spec0_5 : Pipeline.WinSpec sig grid0.rank :=
  Pipeline.WinSpec.ofSpec (Memref.whole main_v1) S1x1x1024.size reads0_5 false false 2 stage0_5 sem0_5 nbuf0_5 hstage0_5

abbrev spec0_6 : Pipeline.WinSpec sig grid0.rank :=
  Pipeline.WinSpec.ofSpec (Memref.whole main_arg7) S512x256.size reads0_6 false true 1 stage0_6 sem0_6 nbuf0_6 hstage0_6

abbrev spec0_7 : Pipeline.WinSpec sig grid0.rank :=
  Pipeline.WinSpec.ofSpec (Memref.whole main_arg8) S512.size reads0_7 false true 1 stage0_7 sem0_7 nbuf0_7 hstage0_7

abbrev spec0_8 : Pipeline.WinSpec sig grid0.rank :=
  Pipeline.WinSpec.ofSpec (Memref.whole main_v2) S1x1024x1.size reads0_8 false false 2 stage0_8 sem0_8 nbuf0_8 hstage0_8

abbrev spec0_9 : Pipeline.WinSpec sig grid0.rank :=
  Pipeline.WinSpec.ofSpec (Memref.whole main_v3_0) S1x1024x256.size reads0_9 true false 2 stage0_9 sem0_9 nbuf0_9 hstage0_9

abbrev spec0_10 : Pipeline.WinSpec sig grid0.rank :=
  Pipeline.WinSpec.ofSpec (Memref.whole main_v3_1) S1x1024x256.size reads0_10 true false 2 stage0_10 sem0_10 nbuf0_10 hstage0_10

abbrev spec0_11 : Pipeline.WinSpec sig grid0.rank :=
  Pipeline.WinSpec.ofSpec (Memref.whole main_v3_2) S1x1x1024.size reads0_11 true false 2 stage0_11 sem0_11 nbuf0_11 hstage0_11

abbrev spec0 : Fin 12 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | ⟨_ + 12, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | ⟨_ + 12, h⟩ => absurd h (Nat.not_lt.2 (Nat.le_add_left _ _))
abbrev ix0 (pf : pre0.Contents (Elt F)) : (w : Fin 12) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 | 7 => cc0_transform_7 | 8 => cc0_transform_8 | 9 => cc0_transform_9 | 10 => cc0_transform_10 | 11 => cc0_transform_11 | ⟨_ + 12, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 | 7 => hreads0_7 | 8 => hreads0_8 | 9 => hreads0_9 | 10 => hreads0_10 | 11 => hreads0_11 | ⟨_ + 12, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x512.size a ≤ S16x4096x512.size a), EltTy.bits .f32 = 32 ∨ (Rect.block (s := S16x4096x512) S1x1024x512.size (cc0_transform_0 k0_off1_inb numel1_S1 pf i) h).WholeWords (EltTy.packing .f32)) ∧
  (∀ i : grid0.Coords, ∃ h : (∀ a, (cc0_transform_1 k0_off1_inb numel1_S1 pf i a + 1) * S1x1024x256.size a ≤ S16x4096x256.size a), EltTy.bits .f32 = 32 ∨ (Rect.block (s := S16x4096x256) S1x1024x256.size (cc0_transform_1 k0_off1_inb numel1_S1 pf i) h).WholeWords (EltTy.packing .f32)) ∧
  (∀ i : grid0.Coords, ∃ h : (∀ a, (cc0_transform_2 k0_off1_inb numel1_S1 pf i a + 1) * S1x1024x256.size a ≤ S16x4096x256.size a), EltTy.bits .f32 = 32 ∨ (Rect.block (s := S16x4096x256) S1x1024x256.size (cc0_transform_2 k0_off1_inb numel1_S1 pf i) h).WholeWords (EltTy.packing .f32)) ∧
  (∀ i : grid0.Coords, ∃ h : (∀ a, (cc0_transform_3 k0_off1_inb numel1_S1 pf i a + 1) * S1x1024x512.size a ≤ S16x1024x512.size a), EltTy.bits .f32 = 32 ∨ (Rect.block (s := S16x1024x512) S1x1024x512.size (cc0_transform_3 k0_off1_inb numel1_S1 pf i) h).WholeWords (EltTy.packing .f32)) ∧
  (∀ i : grid0.Coords, ∃ h : (∀ a, (cc0_transform_4 k0_off1_inb numel1_S1 pf i a + 1) * S1x1024x256.size a ≤ S16x1024x256.size a), EltTy.bits .f32 = 32 ∨ (Rect.block (s := S16x1024x256) S1x1024x256.size (cc0_transform_4 k0_off1_inb numel1_S1 pf i) h).WholeWords (EltTy.packing .f32)) ∧
  (∀ i : grid0.Coords, ∃ h : (∀ a, (cc0_transform_5 k0_off1_inb numel1_S1 pf i a + 1) * S1x1x1024.size a ≤ S16x1x1024.size a), EltTy.bits .f32 = 32 ∨ (Rect.block (s := S16x1x1024) S1x1x1024.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | 6 => hinb0_6 | 7 => hinb0_7 | 8 => hinb0_8 | 9 => hinb0_9 | 10 => hinb0_10 | 11 => hinb0_11 | ⟨_ + 12, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | 6 => hwx0_6 | 7 => hwx0_7 | 8 => hwx0_8 | 9 => hwx0_9 | 10 => hwx0_10 | 11 => hwx0_11 | ⟨_ + 12, h⟩ => absurd h (Nat.not_lt.2 (Nat.le_add_left _ _))

class Facts : Prop extends Facts₀ where
  harr0 : ∀ w, (spec0 w).arr.IsWhole

variable [Facts]
-- ==== ReferenceIdeal.lean ====
abbrev S16x4096x512 : Shape := ⟨3, ![16, 4096, 512]⟩
abbrev S16x4096x256 : Shape := ⟨3, ![16, 4096, 256]⟩
abbrev S16x1024x512 : Shape := ⟨3, ![16, 1024, 512]⟩
abbrev S16x1024x256 : Shape := ⟨3, ![16, 1024, 256]⟩
abbrev S16x1024 : Shape := ⟨2, ![16, 1024]⟩
abbrev S512x256 : Shape := ⟨2, ![512, 256]⟩
abbrev S512 : Shape := ⟨1, ![512]⟩
abbrev S16 : Shape := ⟨1, ![16]⟩
abbrev S65536 : Shape := ⟨1, ![65536]⟩
abbrev S_ : Shape := ⟨0, ![]⟩
abbrev S16x1 : Shape := ⟨2, ![16, 1]⟩
abbrev S16x4096x1024 : Shape := ⟨3, ![16, 4096, 1024]⟩
abbrev S16x1x1024 : Shape := ⟨3, ![16, 1, 1024]⟩
abbrev S65536x256 : Shape := ⟨2, ![65536, 256]⟩
abbrev S256x512 : Shape := ⟨2, ![256, 512]⟩
abbrev S65536x512 : Shape := ⟨2, ![65536, 512]⟩
abbrev S1x512 : Shape := ⟨2, ![1, 512]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 164
  | .vmem => 0
  | .smem => 0
  | _ => 0

abbrev hbmTy0_0 (i : Nat) : BufTy := match i % 128 with
  | 0 => ⟨S16x4096x512, .f32⟩
  | 1 => ⟨S16x4096x256, .f32⟩
  | 2 => ⟨S16x4096x256, .f32⟩
  | 3 => ⟨S16x1024x512, .f32⟩
  | 4 => ⟨S16x1024x256, .f32⟩
  | 5 => ⟨S16x1024, .f32⟩
  | 6 => ⟨S16x1024, .f32⟩
  | 7 => ⟨S512x256, .f32⟩
  | 8 => ⟨S512, .f32⟩
  | 9 => ⟨S16, .i32⟩
  | 10 => ⟨S65536, .i32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S16x4096x512, .f32⟩
  | 20 => ⟨S_, .i32⟩
  | 21 => ⟨S16, .i32⟩
  | 22 => ⟨S16, .i1⟩
  | 23 => ⟨S_, .i32⟩
  | 24 => ⟨S16, .i32⟩
  | 25 => ⟨S16, .i32⟩
  | 26 => ⟨S16, .i32⟩
  | 27 => ⟨S16x1, .i32⟩
  | 28 => ⟨S16x4096x256, .f32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S16x1, .i32⟩
  | 37 => ⟨S16x4096x256, .f32⟩
  | 38 => ⟨S_, .i32⟩
  | 39 => ⟨S16, .i32⟩
  | 40 => ⟨S16, .i1⟩
  | 41 => ⟨S_, .i32⟩
  | 42 => ⟨S16, .i32⟩
  | 43 => ⟨S16, .i32⟩
  | 44 => ⟨S16, .i32⟩
  | 45 => ⟨S16x1, .i32⟩
  | 46 => ⟨S16x1024x512, .f32⟩
  | 47 => ⟨S_, .i32⟩
  | 48 => ⟨S16, .i32⟩
  | 49 => ⟨S16, .i1⟩
  | 50 => ⟨S_, .i32⟩
  | 51 => ⟨S16, .i32⟩
  | 52 => ⟨S16, .i32⟩
  | 53 => ⟨S16, .i32⟩
  | 54 => ⟨S16x1, .i32⟩
  | 55 => ⟨S16x1024x256, .f32⟩
  | 56 => ⟨S_, .i32⟩
  | 57 => ⟨S16, .i32⟩
  | 58 => ⟨S16, .i1⟩
  | 59 => ⟨S_, .i32⟩
  | 60 => ⟨S16, .i32⟩
  | 61 => ⟨S16, .i32⟩
  | 62 => ⟨S16, .i32⟩
  | 63 => ⟨S16x1, .i32⟩
  | 64 => ⟨S16x1024, .f32⟩
  | 65 => ⟨S_, .i32⟩
  | 66 => ⟨S16, .i32⟩
  | 67 => ⟨S16, .i1⟩
  | 68 => ⟨S_, .i32⟩
  | 69 => ⟨S16, .i32⟩
  | 70 => ⟨S16, .i32⟩
  | 71 => ⟨S16, .i32⟩
  | 72 => ⟨S16x1, .i32⟩
  | 73 => ⟨S16x1024, .f32⟩
  | 74 => ⟨S16x4096x1024, .f32⟩
  | 75 => ⟨S16x4096x1024, .f32⟩
  | 76 => ⟨S16x4096x1024, .f32⟩
  | 77 => ⟨S16x1x1024, .f32⟩
  | 78 => ⟨S16x4096x1024, .f32⟩
  | 79 => ⟨S16x4096x1024, .f32⟩
  | 80 => ⟨S16x1x1024, .f32⟩
  | 81 => ⟨S16x4096x1024, .f32⟩
  | 82 => ⟨S16x4096x1024, .f32⟩
  | 83 => ⟨S16x4096x256, .f32⟩
  | 84 => ⟨S16x4096x256, .f32⟩
  | 85 => ⟨S16x4096x256, .f32⟩
  | 86 => ⟨S16x4096x256, .f32⟩
  | 87 => ⟨S16x4096x256, .f32⟩
  | 88 => ⟨S16x4096x256, .f32⟩
  | 89 => ⟨S_, .f32⟩
  | 90 => ⟨S16x4096x256, .f32⟩
  | 91 => ⟨S16x4096x256, .f32⟩
  | 92 => ⟨S_, .f32⟩
  | 93 => ⟨S16x4096x256, .f32⟩
  | 94 => ⟨S16x4096x256, .f32⟩
  | 95 => ⟨S16x4096x256, .f32⟩
  | 96 => ⟨S16x4096x256, .f32⟩
  | 97 => ⟨S16x4096x256, .f32⟩
  | 98 => ⟨S_, .f32⟩
  | 99 => ⟨S16x4096x256, .f32⟩
  | 100 => ⟨S16x4096x256, .f32⟩
  | 101 => ⟨S_, .f32⟩
  | 102 => ⟨S16x4096x256, .f32⟩
  | 103 => ⟨S16x4096x256, .f32⟩
  | 104 => ⟨S16x4096x256, .f32⟩
  | 105 => ⟨S16x4096x256, .f32⟩
  | 106 => ⟨S16x4096x256, .f32⟩
  | 107 => ⟨S16x4096x256, .f32⟩
  | 108 => ⟨S16x4096x256, .f32⟩
  | 109 => ⟨S_, .f32⟩
  | 110 => ⟨S16x4096x256, .f32⟩
  | 111 => ⟨S16x4096x256, .f32⟩
  | 112 => ⟨S_, .f32⟩
  | 113 => ⟨S16x4096x256, .f32⟩
  | 114 => ⟨S16x4096x256, .f32⟩
  | 115 => ⟨S16x4096x256, .f32⟩
  | 116 => ⟨S16x4096x256, .f32⟩
  | 117 => ⟨S65536x256, .f32⟩
  | 118 => ⟨S65536x256, .f32⟩
  | 119 => ⟨S256x512, .f32⟩
  | 120 => ⟨S65536x512, .f32⟩
  | 121 => ⟨S1x512, .f32⟩
  | 122 => ⟨S65536x512, .f32⟩
  | 123 => ⟨S65536x512, .f32⟩
  | 124 => ⟨S_, .f32⟩
  | 125 => ⟨S65536, .f32⟩
  | 126 => ⟨S_, .f32⟩
  | 127 => ⟨S65536, .f32⟩
  | _ => ⟨S16x4096x512, .f32⟩

abbrev hbmTy0_1 (i : Nat) : BufTy := match i % 128 with
  | 0 => ⟨S65536, .f32⟩
  | 1 => ⟨S65536x1, .f32⟩
  | 2 => ⟨S65536x512, .f32⟩
  | 3 => ⟨S65536x512, .f32⟩
  | 4 => ⟨S65536x512, .f32⟩
  | 5 => ⟨S_, .f32⟩
  | 6 => ⟨S65536, .f32⟩
  | 7 => ⟨S65536x1, .f32⟩
  | 8 => ⟨S65536x1, .f32⟩
  | 9 => ⟨S65536x512, .f32⟩
  | 10 => ⟨S65536x512, .f32⟩
  | 11 => ⟨S65536x1, .i32⟩
  | 12 => ⟨S_, .i32⟩
  | 13 => ⟨S65536x1, .i32⟩
  | 14 => ⟨S65536x1, .i1⟩
  | 15 => ⟨S_, .i32⟩
  | 16 => ⟨S65536x1, .i32⟩
  | 17 => ⟨S65536x1, .i32⟩
  | 18 => ⟨S65536x1, .i32⟩
  | 19 => ⟨S65536x1x1, .i32⟩
  | 20 => ⟨S1, .i32⟩
  | 21 => ⟨S_, .i32⟩
  | 22 => ⟨S65536x1x1, .i32⟩
  | 23 => ⟨S65536x1x1, .i1⟩
  | 24 => ⟨S1x1x1, .i32⟩
  | 25 => ⟨S65536x1x1, .i32⟩
  | 26 => ⟨S65536x1x1, .i1⟩
  | 27 => ⟨S65536x1x1, .i1⟩
  | 28 => ⟨S_, .i1⟩
  | 29 => ⟨S65536x1, .i1⟩
  | 30 => ⟨S65536x1, .f32⟩
  | 31 => ⟨S_, .f32⟩
  | 32 => ⟨S65536x1, .f32⟩
  | 33 => ⟨S65536x1, .f32⟩
  | 34 => ⟨S65536, .f32⟩
  | 35 => ⟨S65536, .f32⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call0_cst : Ref sig .tc := ⟨.hbm, 124, rfl⟩
abbrev main_call0_v0 : Ref sig .tc := ⟨.hbm, 125, rfl⟩
abbrev main_call0_cst_0 : Ref sig .tc := ⟨.hbm, 126, rfl⟩
abbrev main_call0_v1 : Ref sig .tc := ⟨.hbm, 127, rfl⟩
abbrev main_call0_v2 : Ref sig .tc := ⟨.hbm, 128, rfl⟩
abbrev main_call0_v3 : Ref sig .tc := ⟨.hbm, 129, rfl⟩
abbrev main_call0_v4 : Ref sig .tc := ⟨.hbm, 130, rfl⟩
abbrev main_call0_v5 : Ref sig .tc := ⟨.hbm, 131, rfl⟩
abbrev main_call0_v6 : Ref sig .tc := ⟨.hbm, 132, rfl⟩
abbrev main_call0_cst_1 : Ref sig .tc := ⟨.hbm, 133, rfl⟩
abbrev main_call0_v7 : Ref sig .tc := ⟨.hbm, 134, rfl⟩
abbrev main_call0_v8 : Ref sig .tc := ⟨.hbm, 135, rfl⟩
abbrev main_call0_v9 : Ref sig .tc := ⟨.hbm, 136, rfl⟩
abbrev main_call0_v10 : Ref sig .tc := ⟨.hbm, 137, rfl⟩
abbrev main_v93 : Ref sig .tc := ⟨.hbm, 138, rfl⟩
abbrev main_v94 : Ref sig .tc := ⟨.hbm, 139, rfl⟩
abbrev main_call1_c : Ref sig .tc := ⟨.hbm, 140, rfl⟩
abbrev main_call1_v0 : Ref sig .tc := ⟨.hbm, 141, rfl⟩
abbrev main_call1_v1 : Ref sig .tc := ⟨.hbm, 142, rfl⟩
abbrev main_call1_c_0 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_c_1 : Ref sig .tc := ⟨.hbm, 148, rfl⟩
abbrev main_call1_c_2 : Ref sig .tc := ⟨.hbm, 149, rfl⟩
abbrev main_call1_v6 : Ref sig .tc := ⟨.hbm, 150, rfl⟩
abbrev main_call1_v7 : Ref sig .tc := ⟨.hbm, 151, rfl⟩
abbrev main_call1_v8 : Ref sig .tc := ⟨.hbm, 152, rfl⟩
abbrev main_call1_v9 : Ref sig .tc := ⟨.hbm, 153, rfl⟩
abbrev main_call1_v10 : Ref sig .tc := ⟨.hbm, 154, rfl⟩
abbrev main_call1_v11 : Ref sig .tc := ⟨.hbm, 155, rfl⟩
abbrev main_call1_c_3 : Ref sig .tc := ⟨.hbm, 156, rfl⟩
abbrev main_call1_v12 : Ref sig .tc := ⟨.hbm, 157, rfl⟩
abbrev main_call1_v13 : Ref sig .tc := ⟨.hbm, 158, rfl⟩
abbrev main_call1_cst : Ref sig .tc := ⟨.hbm, 159, rfl⟩
abbrev main_call1_v14 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)
  slices_S16x4096x1024_S16x4096x256_0_0_0 : S16x4096x1024.Slices ![0, 0, 0] S16x4096x256
  slices_S16x4096x1024_S16x4096x256_0_0_256 : S16x4096x1024.Slices ![0, 0, 256] S16x4096x256
  slices_S16x4096x1024_S16x4096x256_0_0_512 : S16x4096x1024.Slices ![0, 0, 512] S16x4096x256
  slices_S16x4096x1024_S16x4096x256_0_0_768 : S16x4096x1024.Slices ![0, 0, 768] S16x4096x256
  bcast_S_S16x4096x256 : S_.BroadcastsInDim S16x4096x256 (![] : Fin 0 → Fin S16x4096x256.rank)
  shapeCasts_S16x4096x256_S65536x256 : S16x4096x256.ShapeCasts S65536x256
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  gather_S16x4096x512_S16x1_S16x4096x512_12_0_n_n_0_1_14096512_wf : GatherDims.WF S16x4096x512 S16x1 S16x4096x512 [1, 2] [0] [] [0] [] 1 ![1, 4096, 512]
  gather_S16x4096x256_S16x1_S16x4096x256_12_0_n_n_0_1_14096256_wf : GatherDims.WF S16x4096x256 S16x1 S16x4096x256 [1, 2] [0] [] [0] [] 1 ![1, 4096, 256]
  gather_S16x1024x512_S16x1_S16x1024x512_12_0_n_n_0_1_11024512_wf : GatherDims.WF S16x1024x512 S16x1 S16x1024x512 [1, 2] [0] [] [0] [] 1 ![1, 1024, 512]
  gather_S16x1024x256_S16x1_S16x1024x256_12_0_n_n_0_1_11024256_wf : GatherDims.WF S16x1024x256 S16x1 S16x1024x256 [1, 2] [0] [] [0] [] 1 ![1, 1024, 256]
  gather_S16x1024_S16x1_S16x1024_1_0_n_n_0_1_11024_wf : GatherDims.WF S16x1024 S16x1 S16x1024 [1] [0] [] [0] [] 1 ![1, 1024]
  dot_S16x4096x512_S16x1024x512_S16x4096x1024_2_2_1_1_0_0_wf : DotDims.WF S16x4096x512 S16x1024x512 S16x4096x1024 [2] [2] [1] [1] [0] [0]
  dot_S16x4096x256_S16x1024x256_S16x4096x1024_2_2_1_1_0_0_wf : DotDims.WF S16x4096x256 S16x1024x256 S16x4096x1024 [2] [2] [1] [1] [0] [0]
  dot_S65536x256_S256x512_S65536x512_1_0_0_1_n_n_wf : DotDims.WF S65536x256 S256x512 S65536x512 [1] [0] [0] [1] [] []
  gather_S65536x512_S65536x1x1_S65536x1_n_1_0_0_1_2_11_wf : GatherDims.WF S65536x512 S65536x1x1 S65536x1 [] [1] [0] [1] [0] 2 ![1, 1]

variable [Facts₀]

def gather_S16x4096x512_S16x1_S16x4096x512_12_0_n_n_0_1_14096512 : GatherDims S16x4096x512 S16x1 S16x4096x512 where
  offsetDims := [1, 2]
  collapsedSliceDims := [0]
  operandBatchingDims := []
  startIndicesBatchingDims := []
  startIndexMap := [0]
  indexVectorDim := 1
  sliceSizes := ![1, 4096, 512]
  wf := gather_S16x4096x512_S16x1_S16x4096x512_12_0_n_n_0_1_14096512_wf
def gather_S16x4096x256_S16x1_S16x4096x256_12_0_n_n_0_1_14096256 : GatherDims S16x4096x256 S16x1 S16x4096x256 where
  offsetDims := [1, 2]
  collapsedSliceDims := [0]
  operandBatchingDims := []
  startIndicesBatchingDims := []
  startIndexMap := [0]
  indexVectorDim := 1
  sliceSizes := ![1, 4096, 256]
  wf := gather_S16x4096x256_S16x1_S16x4096x256_12_0_n_n_0_1_14096256_wf
def gather_S16x1024x512_S16x1_S16x1024x512_12_0_n_n_0_1_11024512 : GatherDims S16x1024x512 S16x1 S16x1024x512 where
  offsetDims := [1, 2]
  collapsedSliceDims := [0]
  operandBatchingDims := []
  startIndicesBatchingDims := []
  startIndexMap := [0]
  indexVectorDim := 1
  sliceSizes := ![1, 1024, 512]
  wf := gather_S16x1024x512_S16x1_S16x1024x512_12_0_n_n_0_1_11024512_wf
def gather_S16x1024x256_S16x1_S16x1024x256_12_0_n_n_0_1_11024256 : GatherDims S16x1024x256 S16x1 S16x1024x256 where
  offsetDims := [1, 2]
  collapsedSliceDims := [0]
  operandBatchingDims := []
  startIndicesBatchingDims := []
  startIndexMap := [0]
  indexVectorDim := 1
  sliceSizes := ![1, 1024, 256]
  wf := gather_S16x1024x256_S16x1_S16x1024x256_12_0_n_n_0_1_11024256_wf
def gather_S16x1024_S16x1_S16x1024_1_0_n_n_0_1_11024 : GatherDims S16x1024 S16x1 S16x1024 where
  offsetDims := [1]
  collapsedSliceDims := [0]
  operandBatchingDims := []
  startIndicesBatchingDims := []
  startIndexMap := [0]
  indexVectorDim := 1
  sliceSizes := ![1, 1024]
  wf := gather_S16x1024_S16x1_S16x1024_1_0_n_n_0_1_11024_wf
def dot_S16x4096x512_S16x1024x512_S16x4096x1024_2_2_1_1_0_0 : DotDims S16x4096x512 S16x1024x512 S16x4096x1024 where
  lhsContracting := [2]
  rhsContracting := [2]
  lhsNonContracting := [1]
  rhsNonContracting := [1]
  lhsBatch := [0]
  rhsBatch := [0]
  wf := dot_S16x4096x512_S16x1024x512_S16x4096x1024_2_2_1_1_0_0_wf
def dot_S16x4096x256_S16x1024x256_S16x4096x1024_2_2_1_1_0_0 : DotDims S16x4096x256 S16x1024x256 S16x4096x1024 where
  lhsContracting := [2]
  rhsContracting := [2]
  lhsNonContracting := [1]
  rhsNonContracting := [1]
  lhsBatch := [0]
  rhsBatch := [0]
  wf := dot_S16x4096x256_S16x1024x256_S16x4096x1024_2_2_1_1_0_0_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def gather_S65536x512_S65536x1x1_S65536x1_n_1_0_0_1_2_11 : GatherDims S65536x512 S65536x1x1 S65536x1 where
  offsetDims := []
  collapsedSliceDims := [1]
  operandBatchingDims := [0]
  startIndicesBatchingDims := [0]
  startIndexMap := [1]
  indexVectorDim := 2
  sliceSizes := ![1, 1]
  wf := gather_S65536x512_S65536x1x1_S65536x1_n_1_0_0_1_2_11_wf

class Facts : Prop extends Facts₀ where

variable [Facts]
-- ==== Proof.PreDecode.lean ====
/-
  The precondition, read back at the two integer inputs.

  The precondition is a conjunction of eleven `all`s; the last two say that every `child_index` word `w` has
  `0 ≤ w < 16` and every `true_value` word has `0 ≤ w < 512`, compared as signed integers. A word that is at least 0
  as a signed integer has its top bit clear, so its signed value is its unsigned one: the words are below 16 and
  below 512 as natural numbers. The nine conjuncts on the float inputs are not opened.
-/
import proofs.«430817_j73091753443795_3_alg».proof.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- A scalar has one index. -/
instance : Subsingleton S_.Idx := ⟨fun _ _ => funext fun d => d.elim0⟩

/-- A word in `[0, n)` as a signed integer is below `n` as a natural number. -/
theorem toNat_lt_of_signed (w : BitVec 32) (n : Nat) (hn : n < 2 ^ 31)
    (h0 : (0#32 : BitVec 32).toInt ≤ w.toInt) (h1 : w.toInt < (BitVec.ofNat 32 n).toInt) : w.toNat < n := by
  have hw := w.isLt
  have hz : (0#32 : BitVec 32).toInt = 0 := by decide
  rw [hz] at h0
  rw [StableHlo.Predicate.toInt_ofNat_small n hn] at h1
  rw [BitVec.toInt_eq_msb_cond] at h0 h1
  cases hm : w.msb <;> simp only [hm, if_true, if_false, Bool.false_eq_true] at h0 h1 <;> omega

variable {F : FTy → Type} [FloatOps F] [Cert.Pre_finite_inputs.Facts]

/-- Under the precondition every `child_index` word is below 16 and every `true_value` word below 512. -/
theorem ranges (a0 : FVec F S16x4096x512 .f32) (a1 a2 : FVec F S16x4096x256 .f32) (a3 : FVec F S16x1024x512 .f32)
    (a4 : FVec F S16x1024x256 .f32) (a5 a6 : FVec F S16x1024 .f32) (a7 : FVec F S512x256 .f32) (a8 : FVec F S512 .f32)
    (a9 : IVec S16 32) (a10 : IVec S65536 32)
    (h : fn (F := F) a0 a1 a2 a3 a4 a5 a6 a7 a8 a9 a10 = fun _ => 1#1) :
    (∀ k : Fin 16, (a9 (ix1 k)).toNat < 16) ∧ (∀ p : Fin 65536, (a10 (ix1 p)).toNat < 512) := by
  have e := congrFun h ix0
  unfold fn fn_part1 fn_part2 fn_part3 at e
  dsimp only at e
  -- the outermost conjunction: (… ∧ child_index in range) ∧ true_value in range
  obtain ⟨e1, e10⟩ := IntOp.andi_eq_one.1 (show IntOp.andi _ _ = 1#1 from e)
  obtain ⟨-, e9⟩ := IntOp.andi_eq_one.1 (show IntOp.andi _ _ = 1#1 from e1)
  refine ⟨fun k => ?_, fun p => ?_⟩
  · have ek := Host.reduce_andi_all _ _ _ _ _ e9 (ix1 k)
    obtain ⟨g0, g1⟩ := IntOp.andi_eq_one.1 (show IntOp.andi _ _ = 1#1 from ek)
    exact toNat_lt_of_signed _ 16 (by decide) (IntOp.cmpi_sge.1 g0) (IntOp.cmpi_slt.1 g1)
  · have ep := Host.reduce_andi_all _ _ _ _ _ e10 (ix1 p)
    obtain ⟨g0, g1⟩ := IntOp.andi_eq_one.1 (show IntOp.andi _ _ = 1#1 from ep)
    exact toNat_lt_of_signed _ 512 (by decide) (IntOp.cmpi_sge.1 g0) (IntOp.cmpi_slt.1 g1)

end Cert.PreDecode

end
-- ==== Proof.OkKernel.lean ====
/-
  The pipeline's side condition, from the precondition.

  Six windows — the blocks of `x`, `h`, `c`, the two weight matrices and the summed bias — take the first coordinate of
  their block index from the position table: at grid point `(k, b)` it is the word `child_index[k]`, read as a natural
  number. The block lies inside its array exactly when that number is below 16 (the other coordinates are `b < 4`
  blocks of 1024 rows out of 4096, or 0), which is what the precondition says of every word.
-/
import proofs.«430817_j73091753443795_3_alg».proof.Defs
import proofs.«430817_j73091753443795_3_alg».proof.Proof.Gen.Kernel.Frame
import proofs.«430817_j73091753443795_3_alg».proof.Proof.Gen.Pre_finite_inputs
import proofs.«430817_j73091753443795_3_alg».proof.Proof.PreDecode

set_option maxRecDepth 16384

noncomputable section

namespace Cert.Kernel.OkOfPre

open Cert.Kernel Cert.Kernel.Gen
open Idealize.ShloMosaic Idealize.ShloMosaic.TcCoe Idealize.SL.Sem Idealize.ShloMosaic.ValueIdx

variable {F : FTy → Type} [FloatOps F]

/-- The second grid coordinate, as the word the index maps see it, is below 4. -/
theorem blk_lt (i : grid0.Coords) : (BitVec.ofNat 32 (i 1).val).toNat < 4 := by
  have h4 : (i 1).val < 4 := (i 1).isLt
  rw [BitVec.toNat_ofNat]
  omega

/-- With every table word below 16, every table-indexed block lies inside its array. The table's contents are a
    variable here: nothing about them is computed. -/
theorem ok0_of_lt (pf : pre0.Contents (Elt F)) (hpf : ∀ x, (pf 0 x).toNat < 16) : ok0 (F := F) pf := by
  refine ⟨fun i => ?_, fun i => ?_, fun i => ?_, fun i => ?_, fun i => ?_, fun i => ?_⟩
  · obtain ⟨w, hw, e⟩ : ∃ w : BitVec 32, w.toNat < 16 ∧ cc0_transform_0 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x512, S16x4096x512] <;> omega
  · obtain ⟨w, hw, e⟩ : ∃ w : BitVec 32, w.toNat < 16 ∧ cc0_transform_1 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x256, S16x4096x256] <;> omega
  · obtain ⟨w, hw, e⟩ : ∃ w : BitVec 32, w.toNat < 16 ∧ cc0_transform_2 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x256, S16x4096x256] <;> omega
  · obtain ⟨w, hw, e⟩ : ∃ w : BitVec 32, w.toNat < 16 ∧ cc0_transform_3 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1024x512, S16x1024x512] <;> omega
  · obtain ⟨w, hw, e⟩ : ∃ w : BitVec 32, w.toNat < 16 ∧ cc0_transform_4 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1024x256, S16x1024x256] <;> omega
  · obtain ⟨w, hw, e⟩ : ∃ w : BitVec 32, w.toNat < 16 ∧ cc0_transform_5 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1x1024, S16x1x1024] <;> omega

variable (m : (ℓ : Loc nD τ sig) → Buf (Elt Bits) ℓ)

/-- The table the region reads is the `child_index` argument as the launch memory holds it. -/
theorem tbl_eq : tbl m 0 = m (((0 : Dev nD) : Thread nD τ).loc main_arg9) := V_main_arg9 m 0

/-- Under the precondition every word of the table is below 16. -/
theorem tbl_lt (h : Cert.Pre_Kernel m) (x : S16.Idx) : (tbl m 0 x).toNat < 16 := by
  obtain ⟨k, rfl⟩ : ∃ k : Fin 16, x = ix1 k := ⟨x 0, eq_ix1 x⟩
  rw [tbl_eq]
  exact (Cert.PreDecode.ranges _ _ _ _ _ _ _ _ _ _ _ (h 0)).1 k

/-- The side condition the generated frame asks for. -/
theorem ok_of_pre (h : Cert.Pre_Kernel m) : Ok m := ok0_of_lt (tbl m) (tbl_lt m h)

end Cert.Kernel.OkOfPre

end
-- ==== Proof.OkKernelIdeal.lean ====
/-
  The pipeline's side condition, from the precondition.

  Six windows — the blocks of `x`, `h`, `c`, the two weight matrices and the summed bias — take the first coordinate of
  their block index from the position table: at grid point `(k, b)` it is the word `child_index[k]`, read as a natural
  number. The block lies inside its array exactly when that number is below 16 (the other coordinates are `b < 4`
  blocks of 1024 rows out of 4096, or 0), which is what the precondition says of every word.
-/
import proofs.«430817_j73091753443795_3_alg».proof.Defs
import proofs.«430817_j73091753443795_3_alg».proof.Proof.Gen.KernelIdeal.Frame
import proofs.«430817_j73091753443795_3_alg».proof.Proof.Gen.Pre_finite_inputs
import proofs.«430817_j73091753443795_3_alg».proof.Proof.PreDecode

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.ValueIdx

variable {F : FTy → Type} [FloatOps F]

/-- The second grid coordinate, as the word the index maps see it, is below 4. -/
theorem blk_lt (i : grid0.Coords) : (BitVec.ofNat 32 (i 1).val).toNat < 4 := by
  have h4 : (i 1).val < 4 := (i 1).isLt
  rw [BitVec.toNat_ofNat]
  omega

/-- With every table word below 16, every table-indexed block lies inside its array. The table's contents are a
    variable here: nothing about them is computed. -/
theorem ok0_of_lt (pf : pre0.Contents (Elt F)) (hpf : ∀ x, (pf 0 x).toNat < 16) : ok0 (F := F) pf := by
  refine ⟨fun i => ?_, fun i => ?_, fun i => ?_, fun i => ?_, fun i => ?_, fun i => ?_⟩
  · obtain ⟨w, hw, e⟩ : ∃ w : BitVec 32, w.toNat < 16 ∧ cc0_transform_0 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x512, S16x4096x512] <;> omega
  · obtain ⟨w, hw, e⟩ : ∃ w : BitVec 32, w.toNat < 16 ∧ cc0_transform_1 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x256, S16x4096x256] <;> omega
  · obtain ⟨w, hw, e⟩ : ∃ w : BitVec 32, w.toNat < 16 ∧ cc0_transform_2 Facts₀.k0_off1_inb Facts₀.numel1_S1 pf i
        = ![w.toNat, (BitVec.ofNat 32 (i 1).val).toNat, (0#32 : BitVec 32).toNat] := ⟨_, hpf _, rfl⟩
    refine ⟨fun a => ?_, Or.inl rfl⟩
    rw [e]
    have hb := blk_lt i
    fin_cases a <;> simp [S1x1024x256, S16x4096x256] <;> omega
  · obtain ⟨w, hw, e⟩ : ∃ w : BitVec 32, w.toNat < 16 ∧ cc0_transform_3 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1024x512, S16x1024x512] <;> omega
  · obtain ⟨w, hw, e⟩ : ∃ w : BitVec 32, w.toNat < 16 ∧ cc0_transform_4 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1024x256, S16x1024x256] <;> omega
  · obtain ⟨w, hw, e⟩ : ∃ w : BitVec 32, w.toNat < 16 ∧ cc0_transform_5 Facts₀.k0_off1_inb Facts₀.numel1_S1 pf i
        = ![w.toNat, (0#32 : BitVec 32).toNat, (0#32 : BitVec 32).toNat] := ⟨_, hpf _, rfl⟩
    refine ⟨fun a => ?_, Or.inl rfl⟩
    rw [e]
    fin_cases a <;> simp [S1x1x1024, S16x1x1024] <;> omega

variable (m : (ℓ : Loc nD τ sig) → Buf (Elt Ideal) ℓ)

/-- The table the region reads is the `child_index` argument as the launch memory holds it. -/
theorem tbl_eq : tbl m 0 = m (((0 : Dev nD) : Thread nD τ).loc main_arg9) := V_main_arg9 m 0

/-- Under the precondition every word of the table is below 16. -/
theorem tbl_lt (h : Cert.Pre_KernelIdeal m) (x : S16.Idx) : (tbl m 0 x).toNat < 16 := by
  obtain ⟨k, rfl⟩ : ∃ k : Fin 16, x = ix1 k := ⟨x 0, eq_ix1 x⟩
  rw [tbl_eq]
  exact (Cert.PreDecode.ranges _ _ _ _ _ _ _ _ _ _ _ (h 0)).1 k

/-- The side condition the generated frame asks for. -/
theorem ok_of_pre (h : Cert.Pre_KernelIdeal m) : Ok m := ok0_of_lt (tbl m) (tbl_lt m h)

end Cert.KernelIdeal.OkOfPre

end
-- ==== Proof.KernelIndex.lean ====
/-
  The windows' block indices at a grid point.

  Grid point `(k, b)` handles block `b` (1024 of the 4096 rows) of position `k`. The windows of `x`, `h`, `c` read block
  `(w, b, 0)` and the windows of the weights and the bias block `(w, 0, 0)`, `w` the position table's word at `k` as a
  natural number; the label window and the two state outputs sit at `(k, b, 0)` and the loss output at `(k, 0, b)`.
  The table's contents are a variable throughout: nothing about them is computed.
-/
import proofs.«430817_j73091753443795_3_alg».proof.Proof.Gen.KernelIdeal.Frame
import Idealize.ShloMosaic.Lib.ValueIdx

set_option maxRecDepth 16384

noncomputable section

namespace Cert.KernelIdeal.KIndex

open Cert.KernelIdeal Cert.KernelIdeal.Gen
open Idealize.ShloMosaic Idealize.ShloMosaic.TcCoe Idealize.SL.Sem Idealize.ShloMosaic.ValueIdx

variable {F : FTy → Type} [FloatOps F]

theorem gk_lt (i : grid0.Coords) : (i 0).val < 16 := (i 0).isLt
theorem gb_lt (i : grid0.Coords) : (i 1).val < 4 := (i 1).isLt

/-- A small number survives the trip through a 32-bit word. -/
theorem word_toNat (n : Nat) (h : n < 2 ^ 32) : (BitVec.ofNat 32 n).toNat = n := by
  rw [BitVec.toNat_ofNat]; exact Nat.mod_eq_of_lt h

theorem icast_toNat (w : BitVec 32) : (Scalar.indexCast w).toNat = w.toNat := rfl

/-- The word an index map loads from the position table at offset `n` is the table's entry `n`. -/
theorem word_at (pf : pre0.Contents (Elt F)) (n : Nat) (hn : n < 16) (off : Fin 1 → Nat)
    (inb : ∀ a, off a + S1.size a ≤ S16.size a) (h1 : S1.numel = 1) (hoff : off 0 = n) :
    pf.at 0 (Rect.unit (s := S16) off S1.size inb) h1 = pf 0 (ix1 ⟨n, hn⟩) := by
  show pf 0 _ = pf 0 _
  refine congrArg (pf 0) ?_
  funext d
  apply Fin.ext
  match d with
  | ⟨0, _⟩ =>
    have hlt : (Shape.Idx.first (s := (Rect.unit (s := S16) off S1.size inb).shape) (h1.symm ▸ Nat.one_pos) (0 : Fin 1)).val < 1 :=
      (Shape.Idx.first (s := (Rect.unit (s := S16) off S1.size inb).shape) (h1.symm ▸ Nat.one_pos) (0 : Fin 1)).isLt
    show off 0 + 1 * (Shape.Idx.first (s := (Rect.unit (s := S16) off S1.size inb).shape) (h1.symm ▸ Nat.one_pos) (0 : Fin 1)).val = n
    omega

theorem tr0 (pf : pre0.Contents (Elt F)) (i : grid0.Coords) :
    cc0_transform_0 Facts₀.k0_off1_inb Facts₀.numel1_S1 pf i = ![(pf 0 (ix1 ⟨(i 0).val, gk_lt i⟩)).toNat, (i 1).val, 0] := by
  unfold cc0_transform_0
  dsimp only
  funext ax
  fin_cases ax
  · exact congrArg BitVec.toNat (word_at pf (i 0).val (gk_lt i) _ _ _ (by rw [icast_toNat]; exact word_toNat _ (by have := gk_lt i; omega)))
  · exact word_toNat _ (by have := gb_lt i; omega)
  · rfl

theorem tr1 (pf : pre0.Contents (Elt F)) (i : grid0.Coords) :
    cc0_transform_1 Facts₀.k0_off1_inb Facts₀.numel1_S1 pf i = ![(pf 0 (ix1 ⟨(i 0).val, gk_lt i⟩)).toNat, (i 1).val, 0] := by
  unfold cc0_transform_1
  dsimp only
  funext ax
  fin_cases ax
  · exact congrArg BitVec.toNat (word_at pf (i 0).val (gk_lt i) _ _ _ (by rw [icast_toNat]; exact word_toNat _ (by have := gk_lt i; omega)))
  · exact word_toNat _ (by have := gb_lt i; omega)
  · rfl

theorem tr2 (pf : pre0.Contents (Elt F)) (i : grid0.Coords) :
    cc0_transform_2 Facts₀.k0_off1_inb Facts₀.numel1_S1 pf i = ![(pf 0 (ix1 ⟨(i 0).val, gk_lt i⟩)).toNat, (i 1).val, 0] := by
  unfold cc0_transform_2
  dsimp only
  funext ax
  fin_cases ax
  · exact congrArg BitVec.toNat (word_at pf (i 0).val (gk_lt i) _ _ _ (by rw [icast_toNat]; exact word_toNat _ (by have := gk_lt i; omega)))
  · exact word_toNat _ (by have := gb_lt i; omega)
  · rfl

theorem tr3 (pf : pre0.Contents (Elt F)) (i : grid0.Coords) :
    cc0_transform_3 Facts₀.k0_off1_inb Facts₀.numel1_S1 pf i = ![(pf 0 (ix1 ⟨(i 0).val, gk_lt i⟩)).toNat, 0, 0] := by
  unfold cc0_transform_3
  dsimp only
  funext ax
  fin_cases ax
  · exact congrArg BitVec.toNat (word_at pf (i 0).val (gk_lt i) _ _ _ (by rw [icast_toNat]; exact word_toNat _ (by have := gk_lt i; omega)))
  · rfl
  · rfl

theorem tr4 (pf : pre0.Contents (Elt F)) (i : grid0.Coords) :
    cc0_transform_4 Facts₀.k0_off1_inb Facts₀.numel1_S1 pf i = ![(pf 0 (ix1 ⟨(i 0).val, gk_lt i⟩)).toNat, 0, 0] := by
  unfold cc0_transform_4
  dsimp only
  funext ax
  fin_cases ax
  · exact congrArg BitVec.toNat (word_at pf (i 0).val (gk_lt i) _ _ _ (by rw [icast_toNat]; exact word_toNat _ (by have := gk_lt i; omega)))
  · rfl
  · rfl

theorem tr5 (pf : pre0.Contents (Elt F)) (i : grid0.Coords) :
    cc0_transform_5 Facts₀.k0_off1_inb Facts₀.numel1_S1 pf i = ![(pf 0 (ix1 ⟨(i 0).val, gk_lt i⟩)).toNat, 0, 0] := by
  unfold cc0_transform_5
  dsimp only
  funext ax
  fin_cases ax
  · exact congrArg BitVec.toNat (word_at pf (i 0).val (gk_lt i) _ _ _ (by rw [icast_toNat]; exact word_toNat _ (by have := gk_lt i; omega)))
  · rfl
  · rfl

theorem tr8 (i : grid0.Coords) : cc0_transform_8 i = ![(i 0).val, (i 1).val, 0] := by
  unfold cc0_transform_8
  dsimp only
  funext ax
  fin_cases ax
  · exact word_toNat _ (by have := gk_lt i; omega)
  · exact word_toNat _ (by have := gb_lt i; omega)
  · rfl

theorem tr9 (i : grid0.Coords) : cc0_transform_9 i = ![(i 0).val, (i 1).val, 0] := by
  unfold cc0_transform_9
  dsimp only
  funext ax
  fin_cases ax
  · exact word_toNat _ (by have := gk_lt i; omega)
  · exact word_toNat _ (by have := gb_lt i; omega)
  · rfl

theorem tr10 (i : grid0.Coords) : cc0_transform_10 i = ![(i 0).val, (i 1).val, 0] := by
  unfold cc0_transform_10
  dsimp only
  funext ax
  fin_cases ax
  · exact word_toNat _ (by have := gk_lt i; omega)
  · exact word_toNat _ (by have := gb_lt i; omega)
  · rfl

theorem tr11 (i : grid0.Coords) : cc0_transform_11 i = ![(i 0).val, 0, (i 1).val] := by
  unfold cc0_transform_11
  dsimp only
  funext ax
  fin_cases ax
  · exact word_toNat _ (by have := gk_lt i; omega)
  · rfl
  · exact word_toNat _ (by have := gb_lt i; omega)

theorem tr6 (i : grid0.Coords) : cc0_transform_6 i = ![0, 0] := by
  unfold cc0_transform_6
  dsimp only
  funext ax
  fin_cases ax <;> rfl

theorem tr7 (i : grid0.Coords) : cc0_transform_7 i = ![0] := by
  unfold cc0_transform_7
  dsimp only
  funext ax
  fin_cases ax <;> rfl

end Cert.KernelIdeal.KIndex

end
-- ==== Proof.KernelBlocks.lean ====
/-
  The input blocks of one grid point, read back into the argument arrays.

  Grid point `t` is position `pk t` and row block `pb t`; the position table's word there, as a natural number, is
  `wAt t`: the expert that serves the point. The blocks of `x`, `h`, `c` are rows `pb t · 1024 + r` of expert `wAt t`;
  the weight blocks are that expert's whole matrices; the bias block is the sum of its two bias rows (the host adds the
  two bias arrays before the region); the classifier's weights and bias are read whole; and the label block is the flat
  label array at rows `pk t · 4096 + pb t · 1024 + r` (the host reshapes the flat labels before the region).
-/
import proofs.«430817_j73091753443795_3_alg».proof.Proof.Gen.KernelIdeal.Frame
import proofs.«430817_j73091753443795_3_alg».proof.Proof.KernelIndex
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KBlocks

open Cert.KernelIdeal Cert.KernelIdeal.Gen Cert.KernelIdeal.KIndex
open Idealize.ShloMosaic Idealize.ShloMosaic.TcCoe Idealize.SL.Sem Idealize.ShloMosaic.ValueIdx

/-! ## The windows' block indices at a point (the table's contents a variable: nothing about them is computed) -/

theorem idx0 (a : (pcfg0 (F := Ideal)).Adm) (t : Fin (cfg0 a).N) :
    ((cfg0 a).win 0).index t = ![(a.1 0 (ix1 ⟨((cfg0 a).grid.coords t 0).val, gk_lt _⟩)).toNat, ((cfg0 a).grid.coords t 1).val, 0] :=
  (show ((cfg0 a).win 0).index t = cc0_transform_0 Facts₀.k0_off1_inb Facts₀.numel1_S1 a.1 ((cfg0 a).grid.coords t) from rfl).trans (tr0 a.1 _)
theorem idx1 (a : (pcfg0 (F := Ideal)).Adm) (t : Fin (cfg0 a).N) :
    ((cfg0 a).win 1).index t = ![(a.1 0 (ix1 ⟨((cfg0 a).grid.coords t 0).val, gk_lt _⟩)).toNat, ((cfg0 a).grid.coords t 1).val, 0] :=
  (show ((cfg0 a).win 1).index t = cc0_transform_1 Facts₀.k0_off1_inb Facts₀.numel1_S1 a.1 ((cfg0 a).grid.coords t) from rfl).trans (tr1 a.1 _)
theorem idx2 (a : (pcfg0 (F := Ideal)).Adm) (t : Fin (cfg0 a).N) :
    ((cfg0 a).win 2).index t = ![(a.1 0 (ix1 ⟨((cfg0 a).grid.coords t 0).val, gk_lt _⟩)).toNat, ((cfg0 a).grid.coords t 1).val, 0] :=
  (show ((cfg0 a).win 2).index t = cc0_transform_2 Facts₀.k0_off1_inb Facts₀.numel1_S1 a.1 ((cfg0 a).grid.coords t) from rfl).trans (tr2 a.1 _)
theorem idx3 (a : (pcfg0 (F := Ideal)).Adm) (t : Fin (cfg0 a).N) :
    ((cfg0 a).win 3).index t = ![(a.1 0 (ix1 ⟨((cfg0 a).grid.coords t 0).val, gk_lt _⟩)).toNat, 0, 0] :=
  (show ((cfg0 a).win 3).index t = cc0_transform_3 Facts₀.k0_off1_inb Facts₀.numel1_S1 a.1 ((cfg0 a).grid.coords t) from rfl).trans (tr3 a.1 _)
theorem idx4 (a : (pcfg0 (F := Ideal)).Adm) (t : Fin (cfg0 a).N) :
    ((cfg0 a).win 4).index t = ![(a.1 0 (ix1 ⟨((cfg0 a).grid.coords t 0).val, gk_lt _⟩)).toNat, 0, 0] :=
  (show ((cfg0 a).win 4).index t = cc0_transform_4 Facts₀.k0_off1_inb Facts₀.numel1_S1 a.1 ((cfg0 a).grid.coords t) from rfl).trans (tr4 a.1 _)
theorem idx5 (a : (pcfg0 (F := Ideal)).Adm) (t : Fin (cfg0 a).N) :
    ((cfg0 a).win 5).index t = ![(a.1 0 (ix1 ⟨((cfg0 a).grid.coords t 0).val, gk_lt _⟩)).toNat, 0, 0] :=
  (show ((cfg0 a).win 5).index t = cc0_transform_5 Facts₀.k0_off1_inb Facts₀.numel1_S1 a.1 ((cfg0 a).grid.coords t) from rfl).trans (tr5 a.1 _)
theorem idx6 (a : (pcfg0 (F := Ideal)).Adm) (t : Fin (cfg0 a).N) :
    ((cfg0 a).win 6).index t = ![0, 0] :=
  (show ((cfg0 a).win 6).index t = cc0_transform_6 ((cfg0 a).grid.coords t) from rfl).trans (tr6 _)
theorem idx7 (a : (pcfg0 (F := Ideal)).Adm) (t : Fin (cfg0 a).N) :
    ((cfg0 a).win 7).index t = ![0] :=
  (show ((cfg0 a).win 7).index t = cc0_transform_7 ((cfg0 a).grid.coords t) from rfl).trans (tr7 _)
theorem idx8 (a : (pcfg0 (F := Ideal)).Adm) (t : Fin (cfg0 a).N) :
    ((cfg0 a).win 8).index t = ![((cfg0 a).grid.coords t 0).val, ((cfg0 a).grid.coords t 1).val, 0] :=
  (show ((cfg0 a).win 8).index t = cc0_transform_8 ((cfg0 a).grid.coords t) from rfl).trans (tr8 _)

/-! ## A block read at an index

Block `t` of a window sits, on each axis, at the block index times the block's size; read at `y` it is the array at
that offset plus `y`. Each lemma takes the block index as a hypothesis over plain naturals. -/

/-- The `x` window. -/
theorem read0 (a : (pcfg0 (F := Ideal)).Adm) (t : Fin (cfg0 a).N) (A : (⟨S16x4096x512, .f32⟩ : BufTy).Contents (Elt Ideal))
    (i0 i1 i2 : Nat) (hidx : ((cfg0 a).win 0).index t = ![i0, i1, i2])
    (y0 : Fin 1) (y1 : Fin 1024) (y2 : Fin 512) (z0 : Fin 16) (z1 : Fin 4096) (z2 : Fin 512)
    (h0 : z0.val = i0 * 1 + y0.val) (h1 : z1.val = i1 * 1024 + y1.val) (h2 : z2.val = i2 * 512 + y2.val) :
    (((cfg0 a).win 0).blk t).view.read (Elt Ideal) A (ix3 y0 y1 y2) = A (ix3 z0 z1 z2) := by
  refine (View.read_apply (v := (((cfg0 a).win 0).blk t).view) A (ix3 y0 y1 y2)).trans ?_
  show A ((((cfg0 a).win 0).blk t).view.emb (ix3 y0 y1 y2)) = A _
  refine congrArg A ?_
  funext ax; apply Fin.ext
  match ax with
  | ⟨0, _⟩ =>
    have e : ((cfg0 a).win 0).index t (0 : Fin 3) = i0 := congrFun hidx (0 : Fin 3)
    show ((cfg0 a).win 0).index t (0 : Fin 3) * 1 + 1 * y0.val = z0.val
    rw [e, h0]; omega
  | ⟨1, _⟩ =>
    have e : ((cfg0 a).win 0).index t (1 : Fin 3) = i1 := congrFun hidx (1 : Fin 3)
    show ((cfg0 a).win 0).index t (1 : Fin 3) * 1024 + 1 * y1.val = z1.val
    rw [e, h1]; omega
  | ⟨2, _⟩ =>
    have e : ((cfg0 a).win 0).index t (2 : Fin 3) = i2 := congrFun hidx (2 : Fin 3)
    show ((cfg0 a).win 0).index t (2 : Fin 3) * 512 + 1 * y2.val = z2.val
    rw [e, h2]; omega
/-- The `h` window. -/
theorem read1 (a : (pcfg0 (F := Ideal)).Adm) (t : Fin (cfg0 a).N) (A : (⟨S16x4096x256, .f32⟩ : BufTy).Contents (Elt Ideal))
    (i0 i1 i2 : Nat) (hidx : ((cfg0 a).win 1).index t = ![i0, i1, i2])
    (y0 : Fin 1) (y1 : Fin 1024) (y2 : Fin 256) (z0 : Fin 16) (z1 : Fin 4096) (z2 : Fin 256)
    (h0 : z0.val = i0 * 1 + y0.val) (h1 : z1.val = i1 * 1024 + y1.val) (h2 : z2.val = i2 * 256 + y2.val) :
    (((cfg0 a).win 1).blk t).view.read (Elt Ideal) A (ix3 y0 y1 y2) = A (ix3 z0 z1 z2) := by
  refine (View.read_apply (v := (((cfg0 a).win 1).blk t).view) A (ix3 y0 y1 y2)).trans ?_
  show A ((((cfg0 a).win 1).blk t).view.emb (ix3 y0 y1 y2)) = A _
  refine congrArg A ?_
  funext ax; apply Fin.ext
  match ax with
  | ⟨0, _⟩ =>
    have e : ((cfg0 a).win 1).index t (0 : Fin 3) = i0 := congrFun hidx (0 : Fin 3)
    show ((cfg0 a).win 1).index t (0 : Fin 3) * 1 + 1 * y0.val = z0.val
    rw [e, h0]; omega
  | ⟨1, _⟩ =>
    have e : ((cfg0 a).win 1).index t (1 : Fin 3) = i1 := congrFun hidx (1 : Fin 3)
    show ((cfg0 a).win 1).index t (1 : Fin 3) * 1024 + 1 * y1.val = z1.val
    rw [e, h1]; omega
  | ⟨2, _⟩ =>
    have e : ((cfg0 a).win 1).index t (2 : Fin 3) = i2 := congrFun hidx (2 : Fin 3)
    show ((cfg0 a).win 1).index t (2 : Fin 3) * 256 + 1 * y2.val = z2.val
    rw [e, h2]; omega
/-- The `c` window. -/
theorem read2 (a : (pcfg0 (F := Ideal)).Adm) (t : Fin (cfg0 a).N) (A : (⟨S16x4096x256, .f32⟩ : BufTy).Contents (Elt Ideal))
    (i0 i1 i2 : Nat) (hidx : ((cfg0 a).win 2).index t = ![i0, i1, i2])
    (y0 : Fin 1) (y1 : Fin 1024) (y2 : Fin 256) (z0 : Fin 16) (z1 : Fin 4096) (z2 : Fin 256)
    (h0 : z0.val = i0 * 1 + y0.val) (h1 : z1.val = i1 * 1024 + y1.val) (h2 : z2.val = i2 * 256 + y2.val) :
    (((cfg0 a).win 2).blk t).view.read (Elt Ideal) A (ix3 y0 y1 y2) = A (ix3 z0 z1 z2) := by
  refine (View.read_apply (v := (((cfg0 a).win 2).blk t).view) A (ix3 y0 y1 y2)).trans ?_
  show A ((((cfg0 a).win 2).blk t).view.emb (ix3 y0 y1 y2)) = A _
  refine congrArg A ?_
  funext ax; apply Fin.ext
  match ax with
  | ⟨0, _⟩ =>
    have e : ((cfg0 a).win 2).index t (0 : Fin 3) = i0 := congrFun hidx (0 : Fin 3)
    show ((cfg0 a).win 2).index t (0 : Fin 3) * 1 + 1 * y0.val = z0.val
    rw [e, h0]; omega
  | ⟨1, _⟩ =>
    have e : ((cfg0 a).win 2).index t (1 : Fin 3) = i1 := congrFun hidx (1 : Fin 3)
    show ((cfg0 a).win 2).index t (1 : Fin 3) * 1024 + 1 * y1.val = z1.val
    rw [e, h1]; omega
  | ⟨2, _⟩ =>
    have e : ((cfg0 a).win 2).index t (2 : Fin 3) = i2 := congrFun hidx (2 : Fin 3)
    show ((cfg0 a).win 2).index t (2 : Fin 3) * 256 + 1 * y2.val = z2.val
    rw [e, h2]; omega
/-- The input-weight window. -/
theorem read3 (a : (pcfg0 (F := Ideal)).Adm) (t : Fin (cfg0 a).N) (A : (⟨S16x1024x512, .f32⟩ : BufTy).Contents (Elt Ideal))
    (i0 i1 i2 : Nat) (hidx : ((cfg0 a).win 3).index t = ![i0, i1, i2])
    (y0 : Fin 1) (y1 : Fin 1024) (y2 : Fin 512) (z0 : Fin 16) (z1 : Fin 1024) (z2 : Fin 512)
    (h0 : z0.val = i0 * 1 + y0.val) (h1 : z1.val = i1 * 1024 + y1.val) (h2 : z2.val = i2 * 512 + y2.val) :
    (((cfg0 a).win 3).blk t).view.read (Elt Ideal) A (ix3 y0 y1 y2) = A (ix3 z0 z1 z2) := by
  refine (View.read_apply (v := (((cfg0 a).win 3).blk t).view) A (ix3 y0 y1 y2)).trans ?_
  show A ((((cfg0 a).win 3).blk t).view.emb (ix3 y0 y1 y2)) = A _
  refine congrArg A ?_
  funext ax; apply Fin.ext
  match ax with
  | ⟨0, _⟩ =>
    have e : ((cfg0 a).win 3).index t (0 : Fin 3) = i0 := congrFun hidx (0 : Fin 3)
    show ((cfg0 a).win 3).index t (0 : Fin 3) * 1 + 1 * y0.val = z0.val
    rw [e, h0]; omega
  | ⟨1, _⟩ =>
    have e : ((cfg0 a).win 3).index t (1 : Fin 3) = i1 := congrFun hidx (1 : Fin 3)
    show ((cfg0 a).win 3).index t (1 : Fin 3) * 1024 + 1 * y1.val = z1.val
    rw [e, h1]; omega
  | ⟨2, _⟩ =>
    have e : ((cfg0 a).win 3).index t (2 : Fin 3) = i2 := congrFun hidx (2 : Fin 3)
    show ((cfg0 a).win 3).index t (2 : Fin 3) * 512 + 1 * y2.val = z2.val
    rw [e, h2]; omega
/-- The hidden-weight window. -/
theorem read4 (a : (pcfg0 (F := Ideal)).Adm) (t : Fin (cfg0 a).N) (A : (⟨S16x1024x256, .f32⟩ : BufTy).Contents (Elt Ideal))
    (i0 i1 i2 : Nat) (hidx : ((cfg0 a).win 4).index t = ![i0, i1, i2])
    (y0 : Fin 1) (y1 : Fin 1024) (y2 : Fin 256) (z0 : Fin 16) (z1 : Fin 1024) (z2 : Fin 256)
    (h0 : z0.val = i0 * 1 + y0.val) (h1 : z1.val = i1 * 1024 + y1.val) (h2 : z2.val = i2 * 256 + y2.val) :
    (((cfg0 a).win 4).blk t).view.read (Elt Ideal) A (ix3 y0 y1 y2) = A (ix3 z0 z1 z2) := by
  refine (View.read_apply (v := (((cfg0 a).win 4).blk t).view) A (ix3 y0 y1 y2)).trans ?_
  show A ((((cfg0 a).win 4).blk t).view.emb (ix3 y0 y1 y2)) = A _
  refine congrArg A ?_
  funext ax; apply Fin.ext
  match ax with
  | ⟨0, _⟩ =>
    have e : ((cfg0 a).win 4).index t (0 : Fin 3) = i0 := congrFun hidx (0 : Fin 3)
    show ((cfg0 a).win 4).index t (0 : Fin 3) * 1 + 1 * y0.val = z0.val
    rw [e, h0]; omega
  | ⟨1, _⟩ =>
    have e : ((cfg0 a).win 4).index t (1 : Fin 3) = i1 := congrFun hidx (1 : Fin 3)
    show ((cfg0 a).win 4).index t (1 : Fin 3) * 1024 + 1 * y1.val = z1.val
    rw [e, h1]; omega
  | ⟨2, _⟩ =>
    have e : ((cfg0 a).win 4).index t (2 : Fin 3) = i2 := congrFun hidx (2 : Fin 3)
    show ((cfg0 a).win 4).index t (2 : Fin 3) * 256 + 1 * y2.val = z2.val
    rw [e, h2]; omega
/-- The summed-bias window. -/
theorem read5 (a : (pcfg0 (F := Ideal)).Adm) (t : Fin (cfg0 a).N) (A : (⟨S16x1x1024, .f32⟩ : BufTy).Contents (Elt Ideal))
    (i0 i1 i2 : Nat) (hidx : ((cfg0 a).win 5).index t = ![i0, i1, i2])
    (y0 : Fin 1) (y1 : Fin 1) (y2 : Fin 1024) (z0 : Fin 16) (z1 : Fin 1) (z2 : Fin 1024)
    (h0 : z0.val = i0 * 1 + y0.val) (h1 : z1.val = i1 * 1 + y1.val) (h2 : z2.val = i2 * 1024 + y2.val) :
    (((cfg0 a).win 5).blk t).view.read (Elt Ideal) A (ix3 y0 y1 y2) = A (ix3 z0 z1 z2) := by
  refine (View.read_apply (v := (((cfg0 a).win 5).blk t).view) A (ix3 y0 y1 y2)).trans ?_
  show A ((((cfg0 a).win 5).blk t).view.emb (ix3 y0 y1 y2)) = A _
  refine congrArg A ?_
  funext ax; apply Fin.ext
  match ax with
  | ⟨0, _⟩ =>
    have e : ((cfg0 a).win 5).index t (0 : Fin 3) = i0 := congrFun hidx (0 : Fin 3)
    show ((cfg0 a).win 5).index t (0 : Fin 3) * 1 + 1 * y0.val = z0.val
    rw [e, h0]; omega
  | ⟨1, _⟩ =>
    have e : ((cfg0 a).win 5).index t (1 : Fin 3) = i1 := congrFun hidx (1 : Fin 3)
    show ((cfg0 a).win 5).index t (1 : Fin 3) * 1 + 1 * y1.val = z1.val
    rw [e, h1]; omega
  | ⟨2, _⟩ =>
    have e : ((cfg0 a).win 5).index t (2 : Fin 3) = i2 := congrFun hidx (2 : Fin 3)
    show ((cfg0 a).win 5).index t (2 : Fin 3) * 1024 + 1 * y2.val = z2.val
    rw [e, h2]; omega
/-- The classifier's weights: one block, the whole array. -/
theorem read6 (a : (pcfg0 (F := Ideal)).Adm) (t : Fin (cfg0 a).N) (A : (⟨S512x256, .f32⟩ : BufTy).Contents (Elt Ideal))
    (hidx : ((cfg0 a).win 6).index t = ![0, 0]) (n : Fin 512) (q : Fin 256) :
    (((cfg0 a).win 6).blk t).view.read (Elt Ideal) A (ix2 n q) = A (ix2 n q) := by
  refine (View.read_apply (v := (((cfg0 a).win 6).blk t).view) A (ix2 n q)).trans ?_
  show A ((((cfg0 a).win 6).blk t).view.emb (ix2 n q)) = A _
  refine congrArg A ?_
  funext ax; apply Fin.ext
  match ax with
  | ⟨0, _⟩ =>
    have e : ((cfg0 a).win 6).index t (0 : Fin 2) = 0 := congrFun hidx (0 : Fin 2)
    show ((cfg0 a).win 6).index t (0 : Fin 2) * 512 + 1 * n.val = n.val
    rw [e]; omega
  | ⟨1, _⟩ =>
    have e : ((cfg0 a).win 6).index t (1 : Fin 2) = 0 := congrFun hidx (1 : Fin 2)
    show ((cfg0 a).win 6).index t (1 : Fin 2) * 256 + 1 * q.val = q.val
    rw [e]; omega
/-- The classifier's bias: one block, the whole array. -/
theorem read7 (a : (pcfg0 (F := Ideal)).Adm) (t : Fin (cfg0 a).N) (A : (⟨S512, .f32⟩ : BufTy).Contents (Elt Ideal))
    (hidx : ((cfg0 a).win 7).index t = ![0]) (n : Fin 512) :
    (((cfg0 a).win 7).blk t).view.read (Elt Ideal) A (ix1 n) = A (ix1 n) := by
  refine (View.read_apply (v := (((cfg0 a).win 7).blk t).view) A (ix1 n)).trans ?_
  show A ((((cfg0 a).win 7).blk t).view.emb (ix1 n)) = A _
  refine congrArg A ?_
  funext ax; apply Fin.ext
  match ax with
  | ⟨0, _⟩ =>
    have e : ((cfg0 a).win 7).index t (0 : Fin 1) = 0 := congrFun hidx (0 : Fin 1)
    show ((cfg0 a).win 7).index t (0 : Fin 1) * 512 + 1 * n.val = n.val
    rw [e]; omega
/-- The label window. -/
theorem read8 (a : (pcfg0 (F := Ideal)).Adm) (t : Fin (cfg0 a).N) (A : (⟨S16x4096x1, .i32⟩ : BufTy).Contents (Elt Ideal))
    (i0 i1 i2 : Nat) (hidx : ((cfg0 a).win 8).index t = ![i0, i1, i2])
    (y0 : Fin 1) (y1 : Fin 1024) (y2 : Fin 1) (z0 : Fin 16) (z1 : Fin 4096) (z2 : Fin 1)
    (h0 : z0.val = i0 * 1 + y0.val) (h1 : z1.val = i1 * 1024 + y1.val) (h2 : z2.val = i2 * 1 + y2.val) :
    (((cfg0 a).win 8).blk t).view.read (Elt Ideal) A (ix3 y0 y1 y2) = A (ix3 z0 z1 z2) := by
  refine (View.read_apply (v := (((cfg0 a).win 8).blk t).view) A (ix3 y0 y1 y2)).trans ?_
  show A ((((cfg0 a).win 8).blk t).view.emb (ix3 y0 y1 y2)) = A _
  refine congrArg A ?_
  funext ax; apply Fin.ext
  match ax with
  | ⟨0, _⟩ =>
    have e : ((cfg0 a).win 8).index t (0 : Fin 3) = i0 := congrFun hidx (0 : Fin 3)
    show ((cfg0 a).win 8).index t (0 : Fin 3) * 1 + 1 * y0.val = z0.val
    rw [e, h0]; omega
  | ⟨1, _⟩ =>
    have e : ((cfg0 a).win 8).index t (1 : Fin 3) = i1 := congrFun hidx (1 : Fin 3)
    show ((cfg0 a).win 8).index t (1 : Fin 3) * 1024 + 1 * y1.val = z1.val
    rw [e, h1]; omega
  | ⟨2, _⟩ =>
    have e : ((cfg0 a).win 8).index t (2 : Fin 3) = i2 := congrFun hidx (2 : Fin 3)
    show ((cfg0 a).win 8).index t (2 : Fin 3) * 1 + 1 * y2.val = z2.val
    rw [e, h2]; omega

variable (m : (ℓ : Loc nD τ sig) → Buf (Elt Ideal) ℓ) (hO : Ok m) (c : Dev nD) (t : Fin (cfgM m hO).N)

/-- The position and the row block of grid point `t`. -/
def pk : Fin 16 := ⟨((cfgM m hO).grid.coords t 0).val, gk_lt _⟩
def pb : Fin 4 := ⟨((cfgM m hO).grid.coords t 1).val, gb_lt _⟩

/-- The position table's word at the point's position, as a natural number: the expert that serves the point. -/
def wAt : Nat := (tbl m 0 (ix1 (pk m hO t))).toNat

/-- Row `r` of the point's block, as a row of the position's 4096. -/
def rowAt (r : Fin 1024) : Fin 4096 := ⟨(pb m hO t).val * 1024 + r.val, by have := (pb m hO t).isLt; have := r.isLt; omega⟩

/-- Row `r` of the point's block, as a flat row of all 65536. -/
def flatAt (r : Fin 1024) : Fin 65536 :=
  ⟨(pk m hO t).val * 4096 + (pb m hO t).val * 1024 + r.val, by have := (pk m hO t).isLt; have := (pb m hO t).isLt; have := r.isLt; omega⟩

/-- The nine input blocks at the point, each at its literal type. -/
abbrev xb : Vec Ideal S1x1024x512 .f32 := iblk m hO c 0 t
abbrev hb : Vec Ideal S1x1024x256 .f32 := iblk m hO c 1 t
abbrev cb : Vec Ideal S1x1024x256 .f32 := iblk m hO c 2 t
abbrev wib : Vec Ideal S1x1024x512 .f32 := iblk m hO c 3 t
abbrev whb : Vec Ideal S1x1024x256 .f32 := iblk m hO c 4 t
abbrev bb : Vec Ideal S1x1x1024 .f32 := iblk m hO c 5 t
abbrev wob : Vec Ideal S512x256 .f32 := iblk m hO c 6 t
abbrev bob : Vec Ideal S512 .f32 := iblk m hO c 7 t
abbrev tvb : Vec Ideal S1x1024x1 .i32 := iblk m hO c 8 t

/-! ## The two arrays the host writes before the region -/

/-- The two bias arrays, each at its literal type (so that their entries are extended reals that add). -/
abbrev bih : (⟨S16x1024, .f32⟩ : BufTy).Contents (Elt Ideal) := m ((c : Thread nD τ).loc main_arg5)
abbrev bhh : (⟨S16x1024, .f32⟩ : BufTy).Contents (Elt Ideal) := m ((c : Thread nD τ).loc main_arg6)

/-- The summed bias array as the region finds it: the two bias arrays added, a unit axis put in the middle. -/
theorem V_main_v1 : (V m c main_v1 : (⟨S16x1x1024, .f32⟩ : BufTy).Contents (Elt Ideal))
      = shapeCast S16x1x1024 (addf (F := Ideal) (s := S16x1024) (φ := .f32) (bih m c) (bhh m c))
          Facts₀.shapeCasts_S16x1024_S16x1x1024 := by
  show StableHlo.after hostOps0 (fun b => m (c, b)) (Proc.devRef .tc main_v1) = _
  after_results
  rfl

/-- The label array as the region finds it: the flat labels at shape `[16, 4096, 1]`. -/
theorem V_main_v2 : (V m c main_v2 : (⟨S16x4096x1, .i32⟩ : BufTy).Contents (Elt Ideal))
      = shapeCast S16x4096x1 (m ((c : Thread nD τ).loc main_arg10) : (⟨S65536, .i32⟩ : BufTy).Contents (Elt Ideal))
          Facts₀.shapeCasts_S65536_S16x4096x1 := by
  show StableHlo.after hostOps0 (fun b => m (c, b)) (Proc.devRef .tc main_v2) = _
  after_results
  rfl

/-! ## The nine blocks at a point, in the argument arrays -/

theorem xb_apply (hw : wAt m hO t < 16) (r : Fin 1024) (q : Fin 512) :
    xb m hO c t (ix3 0 r q) = (m ((c : Thread nD τ).loc main_arg0)) (ix3 ⟨wAt m hO t, hw⟩ (rowAt m hO t r) q) :=
  (read0 (adm m hO) t (V m c main_arg0) (wAt m hO t) (pb m hO t).val 0 (idx0 (adm m hO) t) 0 r q ⟨wAt m hO t, hw⟩ (rowAt m hO t r) q
    (by show wAt m hO t = wAt m hO t * 1 + 0; omega) rfl (by omega)).trans (congrFun (V_main_arg0 m c) _)

theorem hb_apply (hw : wAt m hO t < 16) (r : Fin 1024) (q : Fin 256) :
    hb m hO c t (ix3 0 r q) = (m ((c : Thread nD τ).loc main_arg1)) (ix3 ⟨wAt m hO t, hw⟩ (rowAt m hO t r) q) :=
  (read1 (adm m hO) t (V m c main_arg1) (wAt m hO t) (pb m hO t).val 0 (idx1 (adm m hO) t) 0 r q ⟨wAt m hO t, hw⟩ (rowAt m hO t r) q
    (by show wAt m hO t = wAt m hO t * 1 + 0; omega) rfl (by omega)).trans (congrFun (V_main_arg1 m c) _)

theorem cb_apply (hw : wAt m hO t < 16) (r : Fin 1024) (q : Fin 256) :
    cb m hO c t (ix3 0 r q) = (m ((c : Thread nD τ).loc main_arg2)) (ix3 ⟨wAt m hO t, hw⟩ (rowAt m hO t r) q) :=
  (read2 (adm m hO) t (V m c main_arg2) (wAt m hO t) (pb m hO t).val 0 (idx2 (adm m hO) t) 0 r q ⟨wAt m hO t, hw⟩ (rowAt m hO t r) q
    (by show wAt m hO t = wAt m hO t * 1 + 0; omega) rfl (by omega)).trans (congrFun (V_main_arg2 m c) _)

theorem wib_apply (hw : wAt m hO t < 16) (o : Fin 1024) (q : Fin 512) :
    wib m hO c t (ix3 0 o q) = (m ((c : Thread nD τ).loc main_arg3)) (ix3 ⟨wAt m hO t, hw⟩ o q) :=
  (read3 (adm m hO) t (V m c main_arg3) (wAt m hO t) 0 0 (idx3 (adm m hO) t) 0 o q ⟨wAt m hO t, hw⟩ o q
    (by show wAt m hO t = wAt m hO t * 1 + 0; omega) (by omega) (by omega)).trans (congrFun (V_main_arg3 m c) _)

theorem whb_apply (hw : wAt m hO t < 16) (o : Fin 1024) (q : Fin 256) :
    whb m hO c t (ix3 0 o q) = (m ((c : Thread nD τ).loc main_arg4)) (ix3 ⟨wAt m hO t, hw⟩ o q) :=
  (read4 (adm m hO) t (V m c main_arg4) (wAt m hO t) 0 0 (idx4 (adm m hO) t) 0 o q ⟨wAt m hO t, hw⟩ o q
    (by show wAt m hO t = wAt m hO t * 1 + 0; omega) (by omega) (by omega)).trans (congrFun (V_main_arg4 m c) _)

theorem bb_apply (hw : wAt m hO t < 16) (o : Fin 1024) :
    bb m hO c t (ix3 0 0 o) = bih m c (ix2 ⟨wAt m hO t, hw⟩ o) + bhh m c (ix2 ⟨wAt m hO t, hw⟩ o) := by
  refine (read5 (adm m hO) t (V m c main_v1) (wAt m hO t) 0 0 (idx5 (adm m hO) t) 0 0 o ⟨wAt m hO t, hw⟩ 0 o
    (by show wAt m hO t = wAt m hO t * 1 + 0; omega) (by show 0 = 0 * 1 + 0; omega) (by omega)).trans ?_
  refine (congrFun (V_main_v1 m c) _).trans ?_
  refine (shapeCast_apply _ _ _ (ix2 ⟨wAt m hO t, hw⟩ o) ?_).trans rfl
  rw [Shape.rowMajor_val_two, Shape.rowMajor_val_three]
  show wAt m hO t * 1024 + o.val = (wAt m hO t * 1 + 0) * 1024 + o.val
  omega

theorem wob_apply (n : Fin 512) (q : Fin 256) :
    wob m hO c t (ix2 n q) = (m ((c : Thread nD τ).loc main_arg7)) (ix2 n q) :=
  (read6 (adm m hO) t (V m c main_arg7) (idx6 (adm m hO) t) n q).trans (congrFun (V_main_arg7 m c) _)

theorem bob_apply (n : Fin 512) :
    bob m hO c t (ix1 n) = (m ((c : Thread nD τ).loc main_arg8)) (ix1 n) :=
  (read7 (adm m hO) t (V m c main_arg8) (idx7 (adm m hO) t) n).trans (congrFun (V_main_arg8 m c) _)

theorem tvb_apply (r : Fin 1024) :
    tvb m hO c t (ix3 0 r 0) = (m ((c : Thread nD τ).loc main_arg10)) (ix1 (flatAt m hO t r)) := by
  refine (read8 (adm m hO) t (V m c main_v2) (pk m hO t).val (pb m hO t).val 0 (idx8 (adm m hO) t) 0 r 0 (pk m hO t) (rowAt m hO t r) 0
    (by show (pk m hO t).val = (pk m hO t).val * 1 + 0; omega) rfl (by show 0 = 0 * 1 + 0; omega)).trans ?_
  refine (congrFun (V_main_v2 m c) _).trans ?_
  refine shapeCast_apply _ _ _ (ix1 (flatAt m hO t r)) ?_
  rw [Shape.rowMajor_val_one, Shape.rowMajor_val_three]
  show (pk m hO t).val * 4096 + (pb m hO t).val * 1024 + r.val
    = ((pk m hO t).val * 4096 + ((pb m hO t).val * 1024 + r.val)) * 1 + 0
  omega

end Cert.KernelIdeal.KBlocks

end
-- ==== Proof.KernelPieces.lean ====
/-
  What one run of the kernel body leaves in each output buffer.

  The body stores each of its three outputs once, whole. Read back, output 9's staging buffer holds the next hidden
  state of the point's input blocks, output 10's the next cell state, and output 11's the losses of the block's rows:
  each is one of the body's arithmetic terms applied to the blocks the body loaded (the loads read whole buffers, so
  each loaded value is the buffer's contents).
-/
import proofs.«430817_j73091753443795_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

/-- A block read from the origin: the zero offsets of a rank-3 rectangle, as a function. -/
theorem hz3 : (![0, 0, 0] : Fin 3 → Nat) = fun _ => 0 := funext fun a => by fin_cases a <;> rfl
/-- The same at rank 2. -/
theorem hz2 : (![0, 0] : Fin 2 → Nat) = fun _ => 0 := funext fun a => by fin_cases a <;> rfl
/-- The same at rank 1. -/
theorem hz1 : (![0] : Fin 1 → Nat) = fun _ => 0 := funext fun a => by fin_cases a <;> rfl

/-- Output 9's buffer after the body: its one whole store's value, the next hidden state of the loaded blocks with the
    leading unit axis put back; each load reads a whole buffer, so the loaded value is the buffer's contents. -/
theorem out9_eq (c : Dev nD) (i : grid0.Coords) (arg3 : Memref sig .tc .vmem S1x1024x512 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x1024x512 .f32) (harg6 : arg6.IsWhole) (arg7 : Memref sig .tc .vmem S1x1024x256 .f32) (harg7 : arg7.IsWhole) (arg8 : Memref sig .tc .vmem S1x1x1024 .f32) (harg8 : arg8.IsWhole) (arg9 : Memref sig .tc .vmem S512x256 .f32) (harg9 : arg9.IsWhole) (arg10 : Memref sig .tc .vmem S512 .f32) (harg10 : arg10.IsWhole) (arg11 : Memref sig .tc .vmem S1x1024x1 .i32) (harg11 : arg11.IsWhole) (arg12 : Memref sig .tc .vmem S1x1024x256 .f32) (harg12 : arg12.IsWhole) (arg13 : Memref sig .tc .vmem S1x1024x256 .f32) (harg13 : arg13.IsWhole) (arg14 : Memref sig .tc .vmem S1x1x1024 .f32) (harg14 : arg14.IsWhole)
    (x0 : Vec F S1x1024x512 .f32) (x1 : Vec F S1x1024x256 .f32) (x2 : Vec F S1x1024x256 .f32) (x3 : Vec F S1x1024x512 .f32) (x4 : Vec F S1x1024x256 .f32) (x5 : Vec F S1x1x1024 .f32) (x6 : Vec F S512x256 .f32) (x7 : Vec F S512 .f32) (x8 : Vec F S1x1024x1 .i32) (xt0 : TbBuf0 (F := F) c tbM0_0) :
    out0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0
      = k0_pay4 (k0_pay3 x0 x1 x2 x3 x4 x5) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0)]
  unfold kernelRun0_A
  dsimp only
  sl_unfold_words
  rw [View.canon_unit_zero hz3]
  simp only [View.readAt_eq_ld, harg3.read_unread, harg4.read_unread, harg5.read_unread, harg6.read_unread,
    harg7.read_unread, harg8.read_unread, View.ld_unit_zero (S := S1x1024x512) hz3,
    View.ld_unit_zero (S := S1x1024x256) hz3, View.ld_unit_zero (S := S1x1x1024) hz3]

/-- Output 10's buffer after the body: the next cell state of the loaded blocks, likewise. -/
theorem out10_eq (c : Dev nD) (i : grid0.Coords) (arg3 : Memref sig .tc .vmem S1x1024x512 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x1024x512 .f32) (harg6 : arg6.IsWhole) (arg7 : Memref sig .tc .vmem S1x1024x256 .f32) (harg7 : arg7.IsWhole) (arg8 : Memref sig .tc .vmem S1x1x1024 .f32) (harg8 : arg8.IsWhole) (arg9 : Memref sig .tc .vmem S512x256 .f32) (harg9 : arg9.IsWhole) (arg10 : Memref sig .tc .vmem S512 .f32) (harg10 : arg10.IsWhole) (arg11 : Memref sig .tc .vmem S1x1024x1 .i32) (harg11 : arg11.IsWhole) (arg12 : Memref sig .tc .vmem S1x1024x256 .f32) (harg12 : arg12.IsWhole) (arg13 : Memref sig .tc .vmem S1x1024x256 .f32) (harg13 : arg13.IsWhole) (arg14 : Memref sig .tc .vmem S1x1x1024 .f32) (harg14 : arg14.IsWhole)
    (x0 : Vec F S1x1024x512 .f32) (x1 : Vec F S1x1024x256 .f32) (x2 : Vec F S1x1024x256 .f32) (x3 : Vec F S1x1024x512 .f32) (x4 : Vec F S1x1024x256 .f32) (x5 : Vec F S1x1x1024 .f32) (x6 : Vec F S512x256 .f32) (x7 : Vec F S512 .f32) (x8 : Vec F S1x1024x1 .i32) (xt0 : TbBuf0 (F := F) c tbM0_0) :
    out0_A_10 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0
      = k0_pay5 (k0_pay2 x0 x1 x2 x3 x4 x5) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0)]
  unfold kernelRun0_A
  dsimp only
  sl_unfold_words
  rw [View.canon_unit_zero hz3]
  simp only [View.readAt_eq_ld, harg3.read_unread, harg4.read_unread, harg5.read_unread, harg6.read_unread,
    harg7.read_unread, harg8.read_unread, View.ld_unit_zero (S := S1x1024x512) hz3,
    View.ld_unit_zero (S := S1x1024x256) hz3, View.ld_unit_zero (S := S1x1x1024) hz3]

/-- Output 11's buffer after the body: the rows' losses, computed from the next hidden state of the loaded blocks, the
    classifier's loaded weights and bias, and the loaded labels. -/
theorem out11_eq (c : Dev nD) (i : grid0.Coords) (arg3 : Memref sig .tc .vmem S1x1024x512 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x1024x512 .f32) (harg6 : arg6.IsWhole) (arg7 : Memref sig .tc .vmem S1x1024x256 .f32) (harg7 : arg7.IsWhole) (arg8 : Memref sig .tc .vmem S1x1x1024 .f32) (harg8 : arg8.IsWhole) (arg9 : Memref sig .tc .vmem S512x256 .f32) (harg9 : arg9.IsWhole) (arg10 : Memref sig .tc .vmem S512 .f32) (harg10 : arg10.IsWhole) (arg11 : Memref sig .tc .vmem S1x1024x1 .i32) (harg11 : arg11.IsWhole) (arg12 : Memref sig .tc .vmem S1x1024x256 .f32) (harg12 : arg12.IsWhole) (arg13 : Memref sig .tc .vmem S1x1024x256 .f32) (harg13 : arg13.IsWhole) (arg14 : Memref sig .tc .vmem S1x1x1024 .f32) (harg14 : arg14.IsWhole)
    (x0 : Vec F S1x1024x512 .f32) (x1 : Vec F S1x1024x256 .f32) (x2 : Vec F S1x1024x256 .f32) (x3 : Vec F S1x1024x512 .f32) (x4 : Vec F S1x1024x256 .f32) (x5 : Vec F S1x1x1024 .f32) (x6 : Vec F S512x256 .f32) (x7 : Vec F S512 .f32) (x8 : Vec F S1x1024x1 .i32) (xt0 : TbBuf0 (F := F) c tbM0_0) :
    out0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0
      = k0_pay6 (k0_pay3 x0 x1 x2 x3 x4 x5) x6 x7 x8 := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xt0)]
  unfold kernelRun0_A
  dsimp only
  sl_unfold_words
  rw [View.canon_unit_zero hz3]
  simp only [View.readAt_eq_ld, harg3.read_unread, harg4.read_unread, harg5.read_unread, harg6.read_unread,
    harg7.read_unread, harg8.read_unread, harg9.read_unread, harg10.read_unread, harg11.read_unread,
    View.ld_unit_zero (S := S1x1024x512) hz3, View.ld_unit_zero (S := S1x1024x256) hz3,
    View.ld_unit_zero (S := S1x1x1024) hz3, View.ld_unit_zero (S := S512x256) hz2, View.ld_unit_zero (S := S512) hz1,
    View.ld_unit_zero (S := S1x1024x1) hz3]

end Cert.KernelIdeal.Pieces

end
-- ==== Proof.Spec.lean ====
/-
  The mathematics of one row, free of any program.

  One grid point of the kernel handles 1024 rows of one expert; the reference handles all 16 × 4096 rows at once. Both
  compute, for a single row, the same functions of that row's inputs and of the chosen expert's weights:

  * the four gate pre-activations, one vector of 1024 numbers: the input row against the input weights, plus the
    hidden row against the hidden weights, plus the bias (`gatePre`);
  * the LSTM cell: `c' = σ(f)·c + σ(i)·tanh(g)`, `h' = σ(o)·tanh(c')`, the gates `i, f, g, o` the four quarters of
    that vector in this order (`cellC`, `cellH`);
  * the classifier's logits of `h'` (`logit`), their log-softmax computed by shifting with the row's maximum
    (`rowMax`, `logp`), and the cross-entropy loss at the row's label, `-logp[label]` (`lossAt`).

  Everything is over the extended reals; sums are finite sums over `Fin n`.
-/
import Idealize.ShloMosaic.PureOps.Ideal
import Idealize.ShloMosaic.Lib.ValueIdx

noncomputable section

namespace Cert.Spec

open Idealize.ShloMosaic

/-- Column `q·256 + j` of the 1024 gate columns: column `j` of quarter `q` (the quarters are the gates i, f, g, o). -/
def qcol (q : Fin 4) (j : Fin 256) : Fin 1024 := ⟨q.val * 256 + j.val, by have := q.isLt; have := j.isLt; omega⟩

/-- The gate pre-activations of one row: `(x·Wiᵀ + h·Whᵀ) + b`. -/
def gatePre (xr : Fin 512 → EReal) (hr : Fin 256 → EReal) (Wi : Fin 1024 → Fin 512 → EReal)
    (Wh : Fin 1024 → Fin 256 → EReal) (b : Fin 1024 → EReal) (o : Fin 1024) : EReal :=
  ((∑ i : Fin 512, xr i * Wi o i) + (∑ j : Fin 256, hr j * Wh o j)) + b o

/-- The next cell state: `σ(f)·c + σ(i)·tanh(g)`. -/
def cellC (g : Fin 1024 → EReal) (cr : Fin 256 → EReal) (j : Fin 256) : EReal :=
  Ideal.logistic (g (qcol 1 j)) * cr j + Ideal.logistic (g (qcol 0 j)) * Ideal.tanh (g (qcol 2 j))

/-- The next hidden state: `σ(o)·tanh(c')`. -/
def cellH (g : Fin 1024 → EReal) (cr : Fin 256 → EReal) (j : Fin 256) : EReal :=
  Ideal.logistic (g (qcol 3 j)) * Ideal.tanh (cellC g cr j)

/-- The classifier's logits of a hidden row: `h'·Woᵀ + bo`. -/
def logit (hn : Fin 256 → EReal) (Wo : Fin 512 → Fin 256 → EReal) (bo : Fin 512 → EReal) (n : Fin 512) : EReal :=
  (∑ j : Fin 256, hn j * Wo n j) + bo n

/-- The shift of a row's log-softmax: the row's maximum, taken from `-∞`. -/
def rowMax (l : Fin 512 → EReal) : EReal := max ⊥ (Finset.univ.fold max ⊥ l)

/-- Log-softmax of a row of logits, by the shifted formula `(l - m) - log Σ exp (l - m)`. -/
def logp (l : Fin 512 → EReal) (n : Fin 512) : EReal :=
  (l n - rowMax l) - Ideal.log (∑ n' : Fin 512, Ideal.exp (l n' - rowMax l))

/-- The cross-entropy loss of a row at its label. -/
def lossAt (l : Fin 512 → EReal) (t : Fin 512) : EReal := -(logp l t)

end Cert.Spec

end
-- ==== Proof.KernelPay.lean ====
/-
  The kernel body's arithmetic at one index of a block.

  At a grid point the body sees one block of 1024 rows of `x`, `h`, `c`, the chosen expert's two weight matrices and its
  (already summed) bias. Read at row `r`, the 1024 gate columns it forms are the row's gate pre-activations
  (`blockGates`), and the two values it stores back are the cell functions of them.
-/
import proofs.«430817_j73091753443795_3_alg».proof.Proof.Gen.KernelIdeal.Skeleton
import proofs.«430817_j73091753443795_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.Spec

/-- The bias block `[1, 1, n]` cast to a vector reads, at `o`, the block at `(0, 0, o)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

theorem lhs_x_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_x_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_x_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_x_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

theorem lhs_h_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_h_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_h_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_h_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The input product into a zero accumulator, at `(r, o)`: row `r` of the left block against row `o` of the right block. -/
theorem mat_x_apply (a b : FVec Ideal S1024x512 .bf16) (r o : Fin 1024) :
    matmul (F := Ideal) dot_S1024x512_S1024x512_S1024x1024_1_1_0_0_n_n none a b (constant (F := Ideal) S1024x1024 .f32 0x00000000#32) (ix2 r o)
      = ∑ k : Fin 512, a (ix2 r k) * b (ix2 o k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r o) ((contrEquiv1 dot_S1024x512_S1024x512_S1024x1024_1_1_0_0_n_n 512 rfl rfl).symm k) = ix2 r k := funext fun c => Fin.ext (by
    match c with
    | ⟨0, _⟩ => exact lhs_x_0 _ _
    | ⟨1, _⟩ => exact (lhs_x_1 _ _).trans hk)
  have er : dot_S1024x512_S1024x512_S1024x1024_1_1_0_0_n_n.rhsIdx (ix2 r o) ((contrEquiv1 dot_S1024x512_S1024x512_S1024x1024_1_1_0_0_n_n 512 rfl rfl).symm k) = ix2 o k := funext fun c => Fin.ext (by
    match c with
    | ⟨0, _⟩ => exact rhs_x_0 _ _
    | ⟨1, _⟩ => exact (rhs_x_1 _ _).trans hk)
  rw [el, er]

/-- The hidden product into a zero accumulator, at `(r, o)`: row `r` of the left block against row `o` of the right block. -/
theorem mat_h_apply (a b : FVec Ideal S1024x256 .bf16) (r o : Fin 1024) :
    matmul (F := Ideal) dot_S1024x256_S1024x256_S1024x1024_1_1_0_0_n_n none a b (constant (F := Ideal) S1024x1024 .f32 0x00000000#32) (ix2 r o)
      = ∑ k : Fin 256, a (ix2 r k) * b (ix2 o k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r o) ((contrEquiv1 dot_S1024x256_S1024x256_S1024x1024_1_1_0_0_n_n 256 rfl rfl).symm k) = ix2 r k := funext fun c => Fin.ext (by
    match c with
    | ⟨0, _⟩ => exact lhs_h_0 _ _
    | ⟨1, _⟩ => exact (lhs_h_1 _ _).trans hk)
  have er : dot_S1024x256_S1024x256_S1024x1024_1_1_0_0_n_n.rhsIdx (ix2 r o) ((contrEquiv1 dot_S1024x256_S1024x256_S1024x1024_1_1_0_0_n_n 256 rfl rfl).symm k) = ix2 o k := funext fun c => Fin.ext (by
    match c with
    | ⟨0, _⟩ => exact rhs_h_0 _ _
    | ⟨1, _⟩ => exact (rhs_h_1 _ _).trans hk)
  rw [el, er]

/-- A logistic at an index is the logistic of the element. -/
theorem logistic_apply {s : Shape} {φ : FTy} (a : FVec Ideal s φ) (i : s.Idx) : logistic a i = Ideal.logistic (a i) := rfl
/-- A hyperbolic tangent at an index is that of the element. -/
theorem tanh_apply {s : Shape} {φ : FTy} (a : FVec Ideal s φ) (i : s.Idx) : tanh a i = Ideal.tanh (a i) := rfl

variable (x0 : Vec Ideal S1x1024x512 .f32) (x1 x2 : Vec Ideal S1x1024x256 .f32) (x3 : Vec Ideal S1x1024x512 .f32)
  (x4 : Vec Ideal S1x1024x256 .f32) (x5 : Vec Ideal S1x1x1024 .f32)

/-- The gate pre-activations of block row `r`: the row of `x` and of `h` against the expert's weights, plus its bias. -/
def blockGates (r : Fin 1024) : Fin 1024 → EReal :=
  gatePre (fun i => x0 (ix3 0 r i)) (fun j => x1 (ix3 0 r j)) (fun o i => x3 (ix3 0 o i)) (fun o j => x4 (ix3 0 o j))
    (fun o => x5 (ix3 0 0 o))

/-- The 1024 gate columns at `(r, o)`: the two products into zero accumulators, their sum, and the bias row broadcast
    down the rows. The blocks lose their leading unit axis and pass through a format change that is the identity on
    extended reals. -/
theorem pay1_apply (r o : Fin 1024) :
    k0_pay1 (F := Ideal) x0 x1 x3 x4 x5 (ix2 r o) = blockGates x0 x1 x3 x4 x5 r o := by
  unfold k0_pay1 blockGates gatePre
  rw [addf_apply, addf_apply, mat_x_apply, mat_h_apply, broadcastTo_1b_ab_apply, shapeCast_a_1a_apply,
    shapeCast_11a_a_apply]
  simp only [truncf_apply, shapeCast_1ab_ab_apply]

/-- The next cell state at `(r, j)`: the forget, input and candidate gates are columns `256 + j`, `j` and `512 + j` of
    the gate columns. -/
theorem pay2_apply (r : Fin 1024) (j : Fin 256) :
    k0_pay2 (F := Ideal) x0 x1 x2 x3 x4 x5 (ix2 r j) = cellC (blockGates x0 x1 x3 x4 x5 r) (fun j => x2 (ix3 0 r j)) j := by
  unfold k0_pay2 cellC
  rw [addf_apply, mulf_apply, mulf_apply, logistic_apply, logistic_apply, tanh_apply,
    slice2_axis1_apply 256 _ _ r j (qcol 1 j) rfl, slice2_axis1_apply 0 _ _ r j (qcol 0 j) rfl,
    slice2_axis1_apply 512 _ _ r j (qcol 2 j) rfl, shapeCast_1ab_ab_apply, pay1_apply, pay1_apply, pay1_apply]

/-- The next hidden state at `(r, j)`: the output gate is column `768 + j` of the gate columns. -/
theorem pay3_apply (r : Fin 1024) (j : Fin 256) :
    k0_pay3 (F := Ideal) x0 x1 x2 x3 x4 x5 (ix2 r j) = cellH (blockGates x0 x1 x3 x4 x5 r) (fun j => x2 (ix3 0 r j)) j := by
  unfold k0_pay3 cellH
  rw [mulf_apply, logistic_apply, tanh_apply, slice2_axis1_apply 768 _ _ r j (qcol 3 j) rfl, pay1_apply, pay2_apply]

/-- The stored hidden block gets its leading unit axis back. -/
theorem pay4_apply (v : FVec Ideal S1024x256 .f32) (r : Fin 1024) (j : Fin 256) :
    k0_pay4 (F := Ideal) v (ix3 0 r j) = v (ix2 r j) := by
  unfold k0_pay4
  exact shapeCast_ab_1ab_apply v _ 0 r j

/-- The stored cell block gets its leading unit axis back. -/
theorem pay5_apply (v : FVec Ideal S1024x256 .f32) (r : Fin 1024) (j : Fin 256) :
    k0_pay5 (F := Ideal) v (ix3 0 r j) = v (ix2 r j) := by
  unfold k0_pay5
  exact shapeCast_ab_1ab_apply v _ 0 r j

end Cert.KernelIdeal.PayValue

end
-- ==== Proof.KernelLoss.lean ====
/-
  The kernel body's loss at one row of a block.

  From the block's next hidden state the body forms the 512 logits of each row, their log-softmax by the shifted
  formula, and picks the entry at the row's label by comparing the label with a running class index and summing the
  one entry that matches; the loss is zero minus that sum. With the label a class index below 512 this is `-logp[label]`.
-/
import proofs.«430817_j73091753443795_3_alg».proof.Proof.Gen.KernelIdeal.Skeleton
import proofs.«430817_j73091753443795_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.PayValue

open Cert.KernelIdeal Cert.KernelIdeal.Gen Idealize.ShloMosaic Idealize.ShloMosaic.ValueIdx Cert.Spec

/-! ## Layout: the column forms of a kept reduced axis -/

/-- An `[a]` vector cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp [hu, hv])

/-! ## The two float words -/

/-- The word of minus infinity is the bottom of the extended reals. -/
theorem ofBits_negInf_f32 : Ideal.ofBits .f32 0xFF800000#32 = ⊥ := by simp [Ideal.ofBits, Ideal.ieee]

/-! ## A row's maximum and a row's sum -/

/-- The index a reduction over the columns inserts its coordinate at. -/
theorem lift_row (h : S1024x512.Reduces [1] S1024) (r : Fin 1024) (n : Fin 512) : h.lift (ix1 r) n = ix2 r n :=
  funext fun a => Fin.ext (by
    match a with
    | ⟨0, _⟩ => rfl
    | ⟨1, _⟩ => rfl)

/-- The maximum over the columns from minus infinity, at row `r`: the fold of `max` over the row. -/
theorem rowMax_read (src : FVec Ideal S1024x512 .f32) (h : S1024x512.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 512)).fold max ⊥ (fun n => src (ix2 r n)) := by
  refine (Ideal.multiReduction_maximumf_single src _ h hφ hacc (ix1 r)).trans ?_
  show (Finset.univ : Finset (Fin 512)).fold max (Ideal.ofBits .f32 0xFF800000#32) (fun n => src (h.lift (ix1 r) n)) = _
  rw [ofBits_negInf_f32]
  exact congrArg (fun f => (Finset.univ : Finset (Fin 512)).fold max ⊥ f)
    (funext fun n => congrArg src (lift_row h r n))

/-- The sum over the columns from zero, at row `r`. -/
theorem rowSum_read (src : FVec Ideal S1024x512 .f32) (h : S1024x512.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ n : Fin 512, src (ix2 r n) := by
  refine (Ideal.multiReduction_add_single src _ h hφ hacc (ix1 r)).trans ?_
  exact Finset.sum_congr rfl fun n _ => congrArg src (lift_row h r n)

/-! ## The classifier's product -/

theorem lhs_logit_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_logit_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_logit_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_logit_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- The product of a [1024,256] block with the transpose of a [512,256] one into the zero splat, at (r, n): the sum
    over the 256 shared columns. -/
theorem matmul_read (lhs : FVec Ideal S1024x256 .bf16) (rhs : FVec Ideal S512x256 .bf16) (r : Fin 1024) (n : Fin 512) :
    matmul (F := Ideal) dot_S1024x256_S512x256_S1024x512_1_1_0_0_n_n none lhs rhs (constant S1024x512 .f32 0x00000000#32) (ix2 r n)
      = ∑ k : Fin 256, lhs (ix2 r k) * rhs (ix2 n k) := by
  refine (Ideal.matmul_constant_zero_apply dot_S1024x256_S512x256_S1024x512_1_1_0_0_n_n none lhs rhs (ix2 r n)).trans ?_
  rw [← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 r n) ((ValueIdx.contrEquiv1 dot_S1024x256_S512x256_S1024x512_1_1_0_0_n_n 256 rfl rfl).symm k) = ix2 r k := funext fun a => Fin.ext (by
    match a with
    | ⟨0, _⟩ => exact lhs_logit_0 _ _
    | ⟨1, _⟩ => exact (lhs_logit_1 _ _).trans hk)
  have er : dot_S1024x256_S512x256_S1024x512_1_1_0_0_n_n.rhsIdx (ix2 r n) ((ValueIdx.contrEquiv1 dot_S1024x256_S512x256_S1024x512_1_1_0_0_n_n 256 rfl rfl).symm k) = ix2 n k := funext fun a => Fin.ext (by
    match a with
    | ⟨0, _⟩ => exact rhs_logit_0 _ _
    | ⟨1, _⟩ => exact (rhs_logit_1 _ _).trans hk)
  rw [el, er]

/-! ## The body's value, cut in four -/

/-- The logits block: the product plus the bias row. -/
def logits (v34 : FVec Ideal S1024x256 .f32) (v41 : Vec Ideal S512x256 .f32) (v43 : Vec Ideal S512 .f32) :
    FVec Ideal S1024x512 .f32 :=
  addf (matmul dot_S1024x256_S512x256_S1024x512_1_1_0_0_n_n none (truncf .bf16 v34 bitsLt_bf16_f32) (truncf .bf16 v41 bitsLt_bf16_f32)
      (constant S1024x512 .f32 0x00000000#32))
    (broadcastTo S1024x512 (shapeCast S1x512 v43 shapeCasts_S512_S1x512) broadcasts_S1x512_S1024x512)

/-- A block minus its rows' maxima. -/
def shifted (l : FVec Ideal S1024x512 .f32) : FVec Ideal S1024x512 .f32 :=
  subf l (broadcastTo S1024x512 (shapeCast S1024x1
    (maximumf (broadcast S1024 (Scalar.ofBits .f32 0xFF800000#32))
      (multiReduction .maximumf [1] S1024 l 0xFF800000#32 reduces_S1024x512_S1024 (.inl rfl) rfl))
    shapeCasts_S1024_S1024x1) broadcasts_S1024x1_S1024x512)

/-- A block minus the logarithms of its rows' sums of exponentials. -/
def logprobs (s : FVec Ideal S1024x512 .f32) : FVec Ideal S1024x512 .f32 :=
  subf s (broadcastTo S1024x512 (log (shapeCast S1024x1
    (multiReduction .add [1] S1024 (exp s) 0x00000000#32 reduces_S1024x512_S1024 (.inl rfl) rfl)
    shapeCasts_S1024_S1024x1)) broadcasts_S1024x1_S1024x512)

/-- Zero minus each row's sum of the entries whose column is the row's label. -/
def picked (p : FVec Ideal S1024x512 .f32) (v61 : Vec Ideal S1x1024x1 .i32) : FVec Ideal S1x1x1024 .f32 :=
  shapeCast S1x1x1024
    (subf (broadcast S1024 (Scalar.ofBits .f32 0x00000000#32))
      (multiReduction .add [1] S1024
        (select (cmpi .eq (iota .tc S1024x512 32 [1] iota_S1024x512_d1_w32)
            (broadcastTo S1024x512 (shapeCast S1024x1 v61 shapeCasts_S1x1024x1_S1024x1) broadcasts_S1024x1_S1024x512))
          p (broadcast S1024x512 (Scalar.ofBits .f32 0x00000000#32)))
        0x00000000#32 reduces_S1024x512_S1024 (.inl rfl) rfl))
    shapeCasts_S1024_S1x1x1024

/-- The body's value is the four steps in turn. -/
theorem pay6_eq (v34 : FVec Ideal S1024x256 .f32) (v41 : Vec Ideal S512x256 .f32) (v43 : Vec Ideal S512 .f32)
    (v61 : Vec Ideal S1x1024x1 .i32) :
    k0_pay6 (F := Ideal) v34 v41 v43 v61 = picked (logprobs (shifted (logits v34 v41 v43))) v61 := rfl

/-- The logits block at (r, n) is the row's logit n. -/
theorem logits_apply (v34 : FVec Ideal S1024x256 .f32) (v41 : Vec Ideal S512x256 .f32) (v43 : Vec Ideal S512 .f32)
    (r : Fin 1024) (n : Fin 512) :
    logits v34 v41 v43 (ix2 r n)
      = logit (fun j => v34 (ix2 r j)) (fun m j => v41 (ix2 m j)) (fun m => v43 (ix1 m)) n := by
  unfold logits logit
  rw [addf_apply, matmul_read, broadcastTo_1b_ab_apply, shapeCast_a_1a_apply]
  rfl

/-- A shifted block at (r, n): the entry minus the row's maximum. -/
theorem shifted_apply (l : FVec Ideal S1024x512 .f32) (r : Fin 1024) (n : Fin 512) :
    shifted l (ix2 r n) = l (ix2 r n) - rowMax (fun n' => l (ix2 r n')) := by
  unfold shifted rowMax
  rw [subf_apply, broadcastTo_a1_ab_apply, shapeCast_a_a1_apply, maximumf_apply, broadcast_apply]
  exact congrArg₂ (fun a b : EReal => l (ix2 r n) - max a b) ofBits_negInf_f32 (rowMax_read l _ _ _ r)

/-- The log-probabilities of a shifted block at (r, n). -/
theorem logprobs_apply (s : FVec Ideal S1024x512 .f32) (r : Fin 1024) (n : Fin 512) :
    logprobs s (ix2 r n) = s (ix2 r n) - Ideal.log (∑ n' : Fin 512, Ideal.exp (s (ix2 r n'))) := by
  unfold logprobs
  rw [subf_apply, broadcastTo_a1_ab_apply]
  show s (ix2 r n) - Ideal.log (shapeCast S1024x1 _ _ (ix2 r (0 : Fin 1))) = _
  rw [shapeCast_a_a1_apply]
  exact congrArg (fun z : EReal => s (ix2 r n) - Ideal.log z) (rowSum_read (exp s) _ _ _ r)

/-- A select on "the column's index is the label" keeps the label's entry and zeroes the others. -/
theorem select_label (n t : Fin 512) (x : EReal) :
    Scalar.select (IntOp.cmpi .eq (BitVec.ofNat 32 n.val) (BitVec.ofNat 32 t.val)) x (Ideal.ofBits .f32 0x00000000#32)
      = if n = t then x else 0 := by
  by_cases h : n = t
  · subst h
    rw [if_pos rfl, StableHlo.Predicate.cmpi_eq_iff.mpr rfl, select_one]
  · have hne : ¬ IntOp.cmpi .eq (BitVec.ofNat 32 n.val) (BitVec.ofNat 32 t.val) = 1#1 := fun hh => h (Fin.ext (by
      have e := congrArg BitVec.toNat (StableHlo.Predicate.cmpi_eq_iff.mp hh)
      simp only [BitVec.toNat_ofNat] at e
      have := n.isLt; have := t.isLt
      omega))
    rw [if_neg h, eq_zero_of_ne_one hne, select_zero, Ideal.ofBits_zero_f32]

/-- The selected block at (r, n), the row's label being t. -/
theorem label_select (p : FVec Ideal S1024x512 .f32) (v61 : Vec Ideal S1x1024x1 .i32) (r : Fin 1024) (n t : Fin 512)
    (ht : v61 (ix3 0 r 0) = BitVec.ofNat 32 t.val) :
    select (cmpi .eq (iota .tc S1024x512 32 [1] iota_S1024x512_d1_w32)
        (broadcastTo S1024x512 (shapeCast S1024x1 v61 shapeCasts_S1x1024x1_S1024x1) broadcasts_S1024x1_S1024x512))
      p (broadcast S1024x512 (Scalar.ofBits .f32 0x00000000#32)) (ix2 r n)
      = if n = t then p (ix2 r n) else 0 := by
  rw [select_apply, broadcast_apply]
  show Scalar.select (IntOp.cmpi .eq (iota .tc S1024x512 32 [1] _ (ix2 r n)) (broadcastTo S1024x512 _ _ (ix2 r n))) _ _ = _
  rw [iota_single_apply, broadcastTo_a1_ab_apply, shapeCast_1ab_ab_apply, ht]
  exact select_label n t _

/-- The last step at row r, the row's label being t: minus the block's entry at (r, t). -/
theorem picked_apply (p : FVec Ideal S1024x512 .f32) (v61 : Vec Ideal S1x1024x1 .i32) (r : Fin 1024) (t : Fin 512)
    (ht : v61 (ix3 0 r 0) = BitVec.ofNat 32 t.val) :
    picked p v61 (ix3 0 0 r) = -(p (ix2 r t)) := by
  unfold picked
  rw [shapeCast_a_11a_apply, subf_apply, broadcast_apply]
  refine (congrArg (fun z : EReal => Ideal.ofBits .f32 0x00000000#32 - z) (rowSum_read _ _ _ _ r)).trans ?_
  show Ideal.ofBits .f32 0x00000000#32 - (∑ n : Fin 512, select _ p _ (ix2 r n)) = _
  rw [Finset.sum_congr rfl (fun n _ => label_select p v61 r n t ht),
    Finset.sum_ite_eq' Finset.univ t (fun n => p (ix2 r n)), if_pos (Finset.mem_univ t),
    Ideal.ofBits_zero_f32, zero_sub]

/-- The body's loss at row r of a block, the row's label being the class index t: the cross-entropy loss of the
    row's logits at t. -/
theorem pay6_apply (v34 : FVec Ideal S1024x256 .f32) (v41 : Vec Ideal S512x256 .f32) (v43 : Vec Ideal S512 .f32)
    (v61 : Vec Ideal S1x1024x1 .i32) (r : Fin 1024) (t : Fin 512) (ht : v61 (ix3 0 r 0) = BitVec.ofNat 32 t.val) :
    k0_pay6 (F := Ideal) v34 v41 v43 v61 (ix3 0 0 r)
      = lossAt (logit (fun j => v34 (ix2 r j)) (fun n j => v41 (ix2 n j)) (fun n => v43 (ix1 n))) t := by
  rw [pay6_eq, picked_apply _ _ r t ht, logprobs_apply]
  simp only [shifted_apply, logits_apply]
  rfl

end Cert.KernelIdeal.PayValue

end
-- ==== Proof.Final.lean ====
/-
  The three results as functions of the argument arrays.

  The 16 × 4096 rows are laid out flat: flat row `p` is row `p % 4096` of position `p / 4096`. Position `k` is served
  by the expert its `child_index` word names: the inputs `x, h, c` and the weights and biases are all read at that
  expert, while the label `true_value[p]` and the three results sit at the flat row itself. The word arrays are read
  through total functions (`expertOf`, `labelOf`: the word's value reduced into range), which are the words' own
  values whenever the words are in range.
-/
import proofs.«430817_j73091753443795_3_alg».proof.Proof.Spec

noncomputable section

namespace Cert.Spec

open Idealize.ShloMosaic Idealize.ShloMosaic.ValueIdx

/-- The expert that serves position `k`. -/
def expertOf (ci : (⟨1, ![16]⟩ : Shape).Idx → BitVec 32) (k : Fin 16) : Fin 16 :=
  ⟨(ci (ix1 k)).toNat % 16, Nat.mod_lt _ (by decide)⟩

/-- The class label of flat row `p`. -/
def labelOf (tv : (⟨1, ![65536]⟩ : Shape).Idx → BitVec 32) (p : Fin 65536) : Fin 512 :=
  ⟨(tv (ix1 p)).toNat % 512, Nat.mod_lt _ (by decide)⟩

/-- The position of flat row `p`, and its row inside the position. -/
def posOf (p : Fin 65536) : Fin 16 := ⟨p.val / 4096, by have := p.isLt; omega⟩
def rowOf (p : Fin 65536) : Fin 4096 := ⟨p.val % 4096, Nat.mod_lt _ (by decide)⟩

section
variable (x : (⟨3, ![16, 4096, 512]⟩ : Shape).Idx → EReal) (h c : (⟨3, ![16, 4096, 256]⟩ : Shape).Idx → EReal)
  (Wi : (⟨3, ![16, 1024, 512]⟩ : Shape).Idx → EReal) (Wh : (⟨3, ![16, 1024, 256]⟩ : Shape).Idx → EReal)
  (bi bh : (⟨2, ![16, 1024]⟩ : Shape).Idx → EReal)
  (Wo : (⟨2, ![512, 256]⟩ : Shape).Idx → EReal) (bo : (⟨1, ![512]⟩ : Shape).Idx → EReal)

/-- The gate pre-activations of row `r` at expert `e`, the two biases added to each other first. -/
def gatesAt (e : Fin 16) (r : Fin 4096) : Fin 1024 → EReal :=
  gatePre (fun i => x (ix3 e r i)) (fun j => h (ix3 e r j)) (fun o i => Wi (ix3 e o i)) (fun o j => Wh (ix3 e o j))
    (fun o => bi (ix2 e o) + bh (ix2 e o))

/-- The next hidden and cell state of row `r` at expert `e`. -/
def hAt (e : Fin 16) (r : Fin 4096) : Fin 256 → EReal := cellH (gatesAt x h Wi Wh bi bh e r) (fun j => c (ix3 e r j))
def cAt (e : Fin 16) (r : Fin 4096) : Fin 256 → EReal := cellC (gatesAt x h Wi Wh bi bh e r) (fun j => c (ix3 e r j))

/-- The cross-entropy loss of row `r` at expert `e` for the label `t`. -/
def lossRow (e : Fin 16) (r : Fin 4096) (t : Fin 512) : EReal :=
  lossAt (logit (hAt x h c Wi Wh bi bh e r) (fun n j => Wo (ix2 n j)) (fun n => bo (ix1 n))) t

variable (ci : (⟨1, ![16]⟩ : Shape).Idx → BitVec 32) (tv : (⟨1, ![65536]⟩ : Shape).Idx → BitVec 32)

/-- The three results at flat row `p`. -/
def outH (p : Fin 65536) (j : Fin 256) : EReal := hAt x h c Wi Wh bi bh (expertOf ci (posOf p)) (rowOf p) j
def outC (p : Fin 65536) (j : Fin 256) : EReal := cAt x h c Wi Wh bi bh (expertOf ci (posOf p)) (rowOf p) j
def outLoss (p : Fin 65536) : EReal := lossRow x h c Wi Wh bi bh Wo bo (expertOf ci (posOf p)) (rowOf p) (labelOf tv p)
end

end Cert.Spec

end
-- ==== Proof.KernelFlush.lean ====
/-
  The three output arrays after the region.

  Each grid point writes back one block of each output, and the 64 points' blocks tile the arrays: point `(k, b)` writes
  rows `b·1024 … b·1024 + 1023` of position `k` (the loss array is laid out `[16, 1, 4096]`, the rows along its last
  axis). What a point writes is the row function of its input blocks, which are the argument arrays at the expert its
  position's word names; so after the region the arrays hold, at every index, the next hidden state, the next cell
  state and the loss of that row, at that expert.
-/
import proofs.«430817_j73091753443795_3_alg».proof.Proof.KernelBlocks
import proofs.«430817_j73091753443795_3_alg».proof.Proof.KernelPieces
import proofs.«430817_j73091753443795_3_alg».proof.Proof.KernelPay
import proofs.«430817_j73091753443795_3_alg».proof.Proof.KernelLoss
import proofs.«430817_j73091753443795_3_alg».proof.Proof.Final

set_option maxRecDepth 16384

noncomputable section

namespace Cert.KernelIdeal.KFlush

open Cert.KernelIdeal Cert.KernelIdeal.Gen Cert.KernelIdeal.KIndex Cert.KernelIdeal.KBlocks Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (hO : Ok m) (c : Dev nD)

/-- The next hidden state, as the `[16, 4096, 256]` array the region leaves: position, row, column. -/
def GH : S16x4096x256.Idx → EReal := fun i =>
  hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (expertOf (m ((c : Thread nD τ).loc main_arg9)) ⟨(i 0).val, (i 0).isLt⟩) ⟨(i 1).val, (i 1).isLt⟩ ⟨(i 2).val, (i 2).isLt⟩

/-- The next cell state, likewise. -/
def GC : S16x4096x256.Idx → EReal := fun i =>
  cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (expertOf (m ((c : Thread nD τ).loc main_arg9)) ⟨(i 0).val, (i 0).isLt⟩) ⟨(i 1).val, (i 1).isLt⟩ ⟨(i 2).val, (i 2).isLt⟩

/-- The loss, as the `[16, 1, 4096]` array the region leaves: position, 0, row; the label that of flat row
    `position · 4096 + row`. -/
def GLs : S16x1x4096.Idx → EReal := fun i =>
  lossRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (expertOf (m ((c : Thread nD τ).loc main_arg9)) ⟨(i 0).val, (i 0).isLt⟩) ⟨(i 2).val, (i 2).isLt⟩
    (labelOf (m ((c : Thread nD τ).loc main_arg10)) ⟨(i 0).val * 4096 + (i 2).val, by
      have h0 : (i 0).val < 16 := (i 0).isLt
      have h2 : (i 2).val < 4096 := (i 2).isLt
      omega⟩)

/-! ## One row of a block, from the blocks' entries -/

section Rows

variable (x0 : Vec Ideal S1x1024x512 .f32) (x1 x2 : Vec Ideal S1x1024x256 .f32) (x3 : Vec Ideal S1x1024x512 .f32)
  (x4 : Vec Ideal S1x1024x256 .f32) (x5 : Vec Ideal S1x1x1024 .f32) (x6 : Vec Ideal S512x256 .f32)
  (x7 : Vec Ideal S512 .f32) (x8 : Vec Ideal S1x1024x1 .i32)
  (X : S16x4096x512.Idx → EReal) (H C : S16x4096x256.Idx → EReal) (Wi : S16x1024x512.Idx → EReal)
  (Wh : S16x1024x256.Idx → EReal) (bi bh : S16x1024.Idx → EReal) (Wo : S512x256.Idx → EReal) (bo : S512.Idx → EReal)
  (e : Fin 16) (ρ : Fin 4096) (r : Fin 1024)

/-- If the blocks are row ρ of x and h, and the weights and the summed bias, all at expert e, then block row r's gate
    pre-activations are those of row ρ at expert e. -/
theorem gates_of_blocks (hx : ∀ q, x0 (ix3 0 r q) = X (ix3 e ρ q)) (hh : ∀ q, x1 (ix3 0 r q) = H (ix3 e ρ q))
    (hwi : ∀ o q, x3 (ix3 0 o q) = Wi (ix3 e o q)) (hwh : ∀ o q, x4 (ix3 0 o q) = Wh (ix3 e o q))
    (hb : ∀ o, x5 (ix3 0 0 o) = bi (ix2 e o) + bh (ix2 e o)) :
    PayValue.blockGates x0 x1 x3 x4 x5 r = gatesAt X H Wi Wh bi bh e ρ := by
  funext o
  unfold PayValue.blockGates gatesAt gatePre
  simp only [hx, hh, hwi, hwh, hb]

/-- The stored hidden block at (0, r, q) is the next hidden state of row ρ at expert e. -/
theorem hrow_of_blocks (hx : ∀ q, x0 (ix3 0 r q) = X (ix3 e ρ q)) (hh : ∀ q, x1 (ix3 0 r q) = H (ix3 e ρ q))
    (hc : ∀ q, x2 (ix3 0 r q) = C (ix3 e ρ q))
    (hwi : ∀ o q, x3 (ix3 0 o q) = Wi (ix3 e o q)) (hwh : ∀ o q, x4 (ix3 0 o q) = Wh (ix3 e o q))
    (hb : ∀ o, x5 (ix3 0 0 o) = bi (ix2 e o) + bh (ix2 e o)) (q : Fin 256) :
    k0_pay4 (F := Ideal) (k0_pay3 (F := Ideal) x0 x1 x2 x3 x4 x5) (ix3 0 r q) = hAt X H C Wi Wh bi bh e ρ q := by
  rw [PayValue.pay4_apply, PayValue.pay3_apply, gates_of_blocks x0 x1 x3 x4 x5 X H Wi Wh bi bh e ρ r hx hh hwi hwh hb]
  unfold hAt
  simp only [hc]

/-- The stored cell block at (0, r, q) is the next cell state of row ρ at expert e. -/
theorem crow_of_blocks (hx : ∀ q, x0 (ix3 0 r q) = X (ix3 e ρ q)) (hh : ∀ q, x1 (ix3 0 r q) = H (ix3 e ρ q))
    (hc : ∀ q, x2 (ix3 0 r q) = C (ix3 e ρ q))
    (hwi : ∀ o q, x3 (ix3 0 o q) = Wi (ix3 e o q)) (hwh : ∀ o q, x4 (ix3 0 o q) = Wh (ix3 e o q))
    (hb : ∀ o, x5 (ix3 0 0 o) = bi (ix2 e o) + bh (ix2 e o)) (q : Fin 256) :
    k0_pay5 (F := Ideal) (k0_pay2 (F := Ideal) x0 x1 x2 x3 x4 x5) (ix3 0 r q) = cAt X H C Wi Wh bi bh e ρ q := by
  rw [PayValue.pay5_apply, PayValue.pay2_apply, gates_of_blocks x0 x1 x3 x4 x5 X H Wi Wh bi bh e ρ r hx hh hwi hwh hb]
  unfold cAt
  simp only [hc]

/-- The stored loss block at (0, 0, r) is the loss of row ρ at expert e for the label the label block names. -/
theorem lrow_of_blocks (hx : ∀ q, x0 (ix3 0 r q) = X (ix3 e ρ q)) (hh : ∀ q, x1 (ix3 0 r q) = H (ix3 e ρ q))
    (hc : ∀ q, x2 (ix3 0 r q) = C (ix3 e ρ q))
    (hwi : ∀ o q, x3 (ix3 0 o q) = Wi (ix3 e o q)) (hwh : ∀ o q, x4 (ix3 0 o q) = Wh (ix3 e o q))
    (hb : ∀ o, x5 (ix3 0 0 o) = bi (ix2 e o) + bh (ix2 e o))
    (hwo : ∀ n q, x6 (ix2 n q) = Wo (ix2 n q)) (hbo : ∀ n, x7 (ix1 n) = bo (ix1 n))
    (t' : Fin 512) (ht : x8 (ix3 0 r 0) = BitVec.ofNat 32 t'.val) :
    k0_pay6 (F := Ideal) (k0_pay3 (F := Ideal) x0 x1 x2 x3 x4 x5) x6 x7 x8 (ix3 0 0 r)
      = lossRow X H C Wi Wh bi bh Wo bo e ρ t' := by
  rw [PayValue.pay6_apply _ x6 x7 x8 r t' ht]
  unfold lossRow
  have hrow : (fun j => k0_pay3 (F := Ideal) x0 x1 x2 x3 x4 x5 (ix2 r j)) = hAt X H C Wi Wh bi bh e ρ := by
    funext j
    rw [PayValue.pay3_apply, gates_of_blocks x0 x1 x3 x4 x5 X H Wi Wh bi bh e ρ r hx hh hwi hwh hb]
    unfold hAt
    simp only [hc]
  rw [hrow]
  simp only [hwo, hbo]

end Rows

/-! ## The point's expert and a row's label -/

section Point

variable (hlt : ∀ x, (tbl m 0 x).toNat < 16) (t : Fin (cfgM m hO).N)

include hlt in
/-- The position table's word at the point's position is below 16. -/
theorem wAt_lt : wAt m hO t < 16 := hlt (ix1 (pk m hO t))

include hlt in
/-- The expert that serves the point's position is the table's word there. -/
theorem expert_eq : expertOf (m ((c : Thread nD τ).loc main_arg9)) (pk m hO t) = ⟨wAt m hO t, wAt_lt m hO hlt t⟩ := by
  obtain rfl : c = 0 := Subsingleton.elim _ _
  have e : tbl m 0 = m (((0 : Dev nD) : Thread nD τ).loc main_arg9) := V_main_arg9 m 0
  have h : (tbl m 0 (ix1 (pk m hO t))).toNat < 16 := hlt (ix1 (pk m hO t))
  apply Fin.ext
  show (m (((0 : Dev nD) : Thread nD τ).loc main_arg9) (ix1 (pk m hO t))).toNat % 16 = (tbl m 0 (ix1 (pk m hO t))).toNat
  rw [← e]
  exact Nat.mod_eq_of_lt h

/-- A label below 512 is the word of the class index it names. -/
theorem label_eq (htv : ∀ p : Fin 65536, ((m ((c : Thread nD τ).loc main_arg10)) (ix1 p)).toNat < 512) (r : Fin 1024) :
    tvb m hO c t (ix3 0 r 0) = BitVec.ofNat 32 (labelOf (m ((c : Thread nD τ).loc main_arg10)) (flatAt m hO t r)).val := by
  refine (tvb_apply m hO c t r).trans ?_
  have h := htv (flatAt m hO t r)
  apply BitVec.eq_of_toNat_eq
  show ((m ((c : Thread nD τ).loc main_arg10)) (ix1 (flatAt m hO t r))).toNat = (BitVec.ofNat 32 (((m ((c : Thread nD τ).loc main_arg10)) (ix1 (flatAt m hO t r))).toNat % 512)).toNat
  rw [BitVec.toNat_ofNat]
  generalize ((m ((c : Thread nD τ).loc main_arg10)) (ix1 (flatAt m hO t r))).toNat = k at h ⊢
  omega

end Point

/-! ## The three arrays from an index's coordinates -/

theorem GH_of_vals (i : S16x4096x256.Idx) (k : Fin 16) (ρ : Fin 4096) (q : Fin 256)
    (h0 : (i 0).val = k.val) (h1 : (i 1).val = ρ.val) (h2 : (i 2).val = q.val) :
    GH m c i = hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (expertOf (m ((c : Thread nD τ).loc main_arg9)) k) ρ q := by
  obtain rfl : k = ⟨(i 0).val, (i 0).isLt⟩ := Fin.ext h0.symm
  obtain rfl : ρ = ⟨(i 1).val, (i 1).isLt⟩ := Fin.ext h1.symm
  obtain rfl : q = ⟨(i 2).val, (i 2).isLt⟩ := Fin.ext h2.symm
  rfl

theorem GC_of_vals (i : S16x4096x256.Idx) (k : Fin 16) (ρ : Fin 4096) (q : Fin 256)
    (h0 : (i 0).val = k.val) (h1 : (i 1).val = ρ.val) (h2 : (i 2).val = q.val) :
    GC m c i = cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (expertOf (m ((c : Thread nD τ).loc main_arg9)) k) ρ q := by
  obtain rfl : k = ⟨(i 0).val, (i 0).isLt⟩ := Fin.ext h0.symm
  obtain rfl : ρ = ⟨(i 1).val, (i 1).isLt⟩ := Fin.ext h1.symm
  obtain rfl : q = ⟨(i 2).val, (i 2).isLt⟩ := Fin.ext h2.symm
  rfl

theorem GL_of_vals (i : S16x1x4096.Idx) (k : Fin 16) (ρ : Fin 4096) (p : Fin 65536)
    (h0 : (i 0).val = k.val) (h2 : (i 2).val = ρ.val) (hp : p.val = (i 0).val * 4096 + (i 2).val) :
    GLs m c i = lossRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (expertOf (m ((c : Thread nD τ).loc main_arg9)) k) ρ (labelOf (m ((c : Thread nD τ).loc main_arg10)) p) := by
  obtain rfl : k = ⟨(i 0).val, (i 0).isLt⟩ := Fin.ext h0.symm
  obtain rfl : ρ = ⟨(i 2).val, (i 2).isLt⟩ := Fin.ext h2.symm
  unfold GLs
  congr 2
  exact Fin.ext hp.symm

/-! ## What each point writes back -/

section Flushed

variable (hlt : ∀ x, (tbl m 0 x).toNat < 16)

include hlt in
/-- What point t writes back to output 9 is its block of the array's function. -/
theorem flushed9 (t : Fin (cfgM m hO).N) :
    (dats m hO 0 c).flushed 9 t = (((cfgM m hO).win 9).blk t).view.read (Elt Ideal) (GH m c) := by
  show ((cfgM m hO).win 9).cut ((cfgM m hO).grid.coords t) ((dats m hO 0 c).after 9 t) = _
  rw [after0_9]
  unfold outsAt0
  dsimp only
  rw [Pieces.out9_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)]
  refine funext fun (j : S1x1024x256.Idx) => ?_
  obtain ⟨u, r, q, rfl⟩ : ∃ (u : Fin 1) (r : Fin 1024) (q : Fin 256), j = ix3 u r q := ⟨j 0, j 1, j 2, eq_ix3 j⟩
  have hu : u.val = 0 := by omega
  have hx : (((cfgM m hO).win 9).xinj ((cfgM m hO).grid.coords t) (ix3 u r q) : S1x1024x256.Idx) = ix3 (0 : Fin 1) r q :=
    funext fun a => Fin.ext (by
      match a with
      | ⟨0, _⟩ => exact hu
      | ⟨1, _⟩ => rfl
      | ⟨2, _⟩ => rfl)
  have hi := tr9 ((cfgM m hO).grid.coords t)
  refine (congrArg (k0_pay4 (F := Ideal) (k0_pay3 (F := Ideal) (xb m hO c t) (hb m hO c t) (cb m hO c t) (wib m hO c t) (whb m hO c t) (bb m hO c t))) hx).trans ?_
  refine (hrow_of_blocks (xb m hO c t) (hb m hO c t) (cb m hO c t) (wib m hO c t) (whb m hO c t) (bb m hO c t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨wAt m hO t, (wAt_lt m hO hlt t)⟩ (rowAt m hO t r) r
      (fun q => xb_apply m hO c t (wAt_lt m hO hlt t) r q) (fun q => hb_apply m hO c t (wAt_lt m hO hlt t) r q) (fun q => cb_apply m hO c t (wAt_lt m hO hlt t) r q)
      (fun o q => wib_apply m hO c t (wAt_lt m hO hlt t) o q) (fun o q => whb_apply m hO c t (wAt_lt m hO hlt t) o q) (fun o => bb_apply m hO c t (wAt_lt m hO hlt t) o) q).trans ?_
  refine (congrArg (fun e => hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e (rowAt m hO t r) q) (expert_eq m hO c hlt t).symm).trans ?_
  refine (GH_of_vals m c _ (pk m hO t) (rowAt m hO t r) q ?_ ?_ ?_).symm
  · show ((cfgM m hO).win 9).index t (0 : Fin 3) * 1 + 1 * u.val = ((cfgM m hO).grid.coords t 0).val
    have h0 : ((cfgM m hO).win 9).index t (0 : Fin 3) = ((cfgM m hO).grid.coords t 0).val := congrFun hi 0
    omega
  · show ((cfgM m hO).win 9).index t (1 : Fin 3) * 1024 + 1 * r.val = ((cfgM m hO).grid.coords t 1).val * 1024 + r.val
    have h1 : ((cfgM m hO).win 9).index t (1 : Fin 3) = ((cfgM m hO).grid.coords t 1).val := congrFun hi 1
    omega
  · show ((cfgM m hO).win 9).index t (2 : Fin 3) * 256 + 1 * q.val = q.val
    have h2 : ((cfgM m hO).win 9).index t (2 : Fin 3) = 0 := congrFun hi 2
    omega

include hlt in
/-- What point t writes back to output 10 is its block of the array's function. -/
theorem flushed10 (t : Fin (cfgM m hO).N) :
    (dats m hO 0 c).flushed 10 t = (((cfgM m hO).win 10).blk t).view.read (Elt Ideal) (GC m c) := by
  show ((cfgM m hO).win 10).cut ((cfgM m hO).grid.coords t) ((dats m hO 0 c).after 10 t) = _
  rw [after0_10]
  unfold outsAt0
  dsimp only
  rw [Pieces.out10_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)]
  refine funext fun (j : S1x1024x256.Idx) => ?_
  obtain ⟨u, r, q, rfl⟩ : ∃ (u : Fin 1) (r : Fin 1024) (q : Fin 256), j = ix3 u r q := ⟨j 0, j 1, j 2, eq_ix3 j⟩
  have hu : u.val = 0 := by omega
  have hx : (((cfgM m hO).win 10).xinj ((cfgM m hO).grid.coords t) (ix3 u r q) : S1x1024x256.Idx) = ix3 (0 : Fin 1) r q :=
    funext fun a => Fin.ext (by
      match a with
      | ⟨0, _⟩ => exact hu
      | ⟨1, _⟩ => rfl
      | ⟨2, _⟩ => rfl)
  have hi := tr10 ((cfgM m hO).grid.coords t)
  refine (congrArg (k0_pay5 (F := Ideal) (k0_pay2 (F := Ideal) (xb m hO c t) (hb m hO c t) (cb m hO c t) (wib m hO c t) (whb m hO c t) (bb m hO c t))) hx).trans ?_
  refine (crow_of_blocks (xb m hO c t) (hb m hO c t) (cb m hO c t) (wib m hO c t) (whb m hO c t) (bb m hO c t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨wAt m hO t, (wAt_lt m hO hlt t)⟩ (rowAt m hO t r) r
      (fun q => xb_apply m hO c t (wAt_lt m hO hlt t) r q) (fun q => hb_apply m hO c t (wAt_lt m hO hlt t) r q) (fun q => cb_apply m hO c t (wAt_lt m hO hlt t) r q)
      (fun o q => wib_apply m hO c t (wAt_lt m hO hlt t) o q) (fun o q => whb_apply m hO c t (wAt_lt m hO hlt t) o q) (fun o => bb_apply m hO c t (wAt_lt m hO hlt t) o) q).trans ?_
  refine (congrArg (fun e => cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e (rowAt m hO t r) q) (expert_eq m hO c hlt t).symm).trans ?_
  refine (GC_of_vals m c _ (pk m hO t) (rowAt m hO t r) q ?_ ?_ ?_).symm
  · show ((cfgM m hO).win 10).index t (0 : Fin 3) * 1 + 1 * u.val = ((cfgM m hO).grid.coords t 0).val
    have h0 : ((cfgM m hO).win 10).index t (0 : Fin 3) = ((cfgM m hO).grid.coords t 0).val := congrFun hi 0
    omega
  · show ((cfgM m hO).win 10).index t (1 : Fin 3) * 1024 + 1 * r.val = ((cfgM m hO).grid.coords t 1).val * 1024 + r.val
    have h1 : ((cfgM m hO).win 10).index t (1 : Fin 3) = ((cfgM m hO).grid.coords t 1).val := congrFun hi 1
    omega
  · show ((cfgM m hO).win 10).index t (2 : Fin 3) * 256 + 1 * q.val = q.val
    have h2 : ((cfgM m hO).win 10).index t (2 : Fin 3) = 0 := congrFun hi 2
    omega

include hlt in
/-- What point t writes back to output 11 is its block of the loss array's function. -/
theorem flushed11 (htv : ∀ p : Fin 65536, ((m ((c : Thread nD τ).loc main_arg10)) (ix1 p)).toNat < 512) (t : Fin (cfgM m hO).N) :
    (dats m hO 0 c).flushed 11 t = (((cfgM m hO).win 11).blk t).view.read (Elt Ideal) (GLs m c) := by
  show ((cfgM m hO).win 11).cut ((cfgM m hO).grid.coords t) ((dats m hO 0 c).after 11 t) = _
  rw [after0_11]
  unfold outsAt0
  dsimp only
  rw [Pieces.out11_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)]
  refine funext fun (j : S1x1x1024.Idx) => ?_
  obtain ⟨u, v, r, rfl⟩ : ∃ (u : Fin 1) (v : Fin 1) (r : Fin 1024), j = ix3 u v r := ⟨j 0, j 1, j 2, eq_ix3 j⟩
  have hu : u.val = 0 := by omega
  have hv : v.val = 0 := by omega
  have hx : (((cfgM m hO).win 11).xinj ((cfgM m hO).grid.coords t) (ix3 u v r) : S1x1x1024.Idx) = ix3 (0 : Fin 1) (0 : Fin 1) r :=
    funext fun a => Fin.ext (by
      match a with
      | ⟨0, _⟩ => exact hu
      | ⟨1, _⟩ => exact hv
      | ⟨2, _⟩ => rfl)
  have hi := tr11 ((cfgM m hO).grid.coords t)
  refine (congrArg (k0_pay6 (F := Ideal) (k0_pay3 (F := Ideal) (xb m hO c t) (hb m hO c t) (cb m hO c t) (wib m hO c t) (whb m hO c t) (bb m hO c t)) (wob m hO c t) (bob m hO c t) (tvb m hO c t)) hx).trans ?_
  refine (lrow_of_blocks (xb m hO c t) (hb m hO c t) (cb m hO c t) (wib m hO c t) (whb m hO c t) (bb m hO c t) (wob m hO c t) (bob m hO c t) (tvb m hO c t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨wAt m hO t, (wAt_lt m hO hlt t)⟩ (rowAt m hO t r) r
      (fun q => xb_apply m hO c t (wAt_lt m hO hlt t) r q) (fun q => hb_apply m hO c t (wAt_lt m hO hlt t) r q) (fun q => cb_apply m hO c t (wAt_lt m hO hlt t) r q)
      (fun o q => wib_apply m hO c t (wAt_lt m hO hlt t) o q) (fun o q => whb_apply m hO c t (wAt_lt m hO hlt t) o q) (fun o => bb_apply m hO c t (wAt_lt m hO hlt t) o)
      (fun n q => wob_apply m hO c t n q) (fun n => bob_apply m hO c t n)
      (labelOf (m ((c : Thread nD τ).loc main_arg10)) (flatAt m hO t r)) (label_eq m hO c t htv r)).trans ?_
  refine (congrArg (fun e => lossRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) e (rowAt m hO t r) (labelOf (m ((c : Thread nD τ).loc main_arg10)) (flatAt m hO t r))) (expert_eq m hO c hlt t).symm).trans ?_
  refine (GL_of_vals m c _ (pk m hO t) (rowAt m hO t r) (flatAt m hO t r) ?_ ?_ ?_).symm
  · show ((cfgM m hO).win 11).index t (0 : Fin 3) * 1 + 1 * u.val = ((cfgM m hO).grid.coords t 0).val
    have h0 : ((cfgM m hO).win 11).index t (0 : Fin 3) = ((cfgM m hO).grid.coords t 0).val := congrFun hi 0
    omega
  · show ((cfgM m hO).win 11).index t (2 : Fin 3) * 1024 + 1 * r.val = ((cfgM m hO).grid.coords t 1).val * 1024 + r.val
    have h2 : ((cfgM m hO).win 11).index t (2 : Fin 3) = ((cfgM m hO).grid.coords t 1).val := congrFun hi 2
    omega
  · show ((cfgM m hO).grid.coords t 0).val * 4096 + ((cfgM m hO).grid.coords t 1).val * 1024 + r.val
      = (((cfgM m hO).win 11).index t (0 : Fin 3) * 1 + 1 * u.val) * 4096 + (((cfgM m hO).win 11).index t (2 : Fin 3) * 1024 + 1 * r.val)
    have h0 : ((cfgM m hO).win 11).index t (0 : Fin 3) = ((cfgM m hO).grid.coords t 0).val := congrFun hi 0
    have h2 : ((cfgM m hO).win 11).index t (2 : Fin 3) = ((cfgM m hO).grid.coords t 1).val := congrFun hi 2
    omega

end Flushed

/-! ## The blocks tile the arrays -/

/-- Every position and row block is some grid point's. -/
theorem pt_onto : ∀ (k : Fin 16) (b : Fin 4), ∃ t : Fin grid0.N, (grid0.coords t 0).val = k.val ∧ (grid0.coords t 1).val = b.val := by
  decide +kernel

set_option backward.isDefEq.respectTransparency.types false in
/-- An index of array 9 is in point t's block iff each coordinate is in the block's range on its axis. -/
theorem mem_blk9 (t : Fin (cfgM m hO).N) (i : S16x4096x256.Idx) :
    i ∈ (((cfgM m hO).win 9).blk t).view.set ↔ ∀ a : Fin 3, ((cfgM m hO).win 9).index t a * S1x1024x256.size a ≤ (i a).val ∧ (i a).val < ((cfgM m hO).win 9).index t a * S1x1024x256.size a + S1x1024x256.size a := by
  show i ∈ ((View.whole main_v3_0).slice (((cfgM m hO).win 9).rect t)).set ↔ _
  rw [View.set_slice_whole]
  exact Rect.mem_set_unit

set_option backward.isDefEq.respectTransparency.types false in
theorem mem_blk10 (t : Fin (cfgM m hO).N) (i : S16x4096x256.Idx) :
    i ∈ (((cfgM m hO).win 10).blk t).view.set ↔ ∀ a : Fin 3, ((cfgM m hO).win 10).index t a * S1x1024x256.size a ≤ (i a).val ∧ (i a).val < ((cfgM m hO).win 10).index t a * S1x1024x256.size a + S1x1024x256.size a := by
  show i ∈ ((View.whole main_v3_1).slice (((cfgM m hO).win 10).rect t)).set ↔ _
  rw [View.set_slice_whole]
  exact Rect.mem_set_unit

set_option backward.isDefEq.respectTransparency.types false in
theorem mem_blk11 (t : Fin (cfgM m hO).N) (i : S16x1x4096.Idx) :
    i ∈ (((cfgM m hO).win 11).blk t).view.set ↔ ∀ a : Fin 3, ((cfgM m hO).win 11).index t a * S1x1x1024.size a ≤ (i a).val ∧ (i a).val < ((cfgM m hO).win 11).index t a * S1x1x1024.size a + S1x1x1024.size a := by
  show i ∈ ((View.whole main_v3_2).slice (((cfgM m hO).win 11).rect t)).set ↔ _
  rw [View.set_slice_whole]
  exact Rect.mem_set_unit

/-- Every index of array 9 is in the block of the point at its position and its row's block. -/
theorem cover9 (i : S16x4096x256.Idx) :
    ∃ t : Fin (cfgM m hO).N, ((cfgM m hO).win 9).flush t = true ∧ i ∈ (((cfgM m hO).win 9).blk t).view.set := by
  have hi0 : (i 0).val < 16 := (i 0).isLt
  have hi1 : (i 1).val < 4096 := (i 1).isLt
  have hi2 : (i 2).val < 256 := (i 2).isLt
  obtain ⟨t, ht0, ht1⟩ := pt_onto ⟨(i 0).val, hi0⟩ ⟨(i 1).val / 1024, by omega⟩
  have hidx := tr9 (grid0.coords t)
  have q0 : ((cfgM m hO).win 9).index t (0 : Fin 3) = (i 0).val := (congrFun hidx 0).trans ht0
  have q1 : ((cfgM m hO).win 9).index t (1 : Fin 3) = (i 1).val / 1024 := (congrFun hidx 1).trans ht1
  have q2 : ((cfgM m hO).win 9).index t (2 : Fin 3) = 0 := congrFun hidx 2
  refine ⟨t, flush0_9 (adm m hO) t, ?_⟩
  rw [mem_blk9]
  intro a
  match a with
  | ⟨0, _⟩ => show ((cfgM m hO).win 9).index t (0 : Fin 3) * 1 ≤ (i 0).val ∧ (i 0).val < ((cfgM m hO).win 9).index t (0 : Fin 3) * 1 + 1; omega
  | ⟨1, _⟩ => show ((cfgM m hO).win 9).index t (1 : Fin 3) * 1024 ≤ (i 1).val ∧ (i 1).val < ((cfgM m hO).win 9).index t (1 : Fin 3) * 1024 + 1024; omega
  | ⟨2, _⟩ => show ((cfgM m hO).win 9).index t (2 : Fin 3) * 256 ≤ (i 2).val ∧ (i 2).val < ((cfgM m hO).win 9).index t (2 : Fin 3) * 256 + 256; omega

theorem cover10 (i : S16x4096x256.Idx) :
    ∃ t : Fin (cfgM m hO).N, ((cfgM m hO).win 10).flush t = true ∧ i ∈ (((cfgM m hO).win 10).blk t).view.set := by
  have hi0 : (i 0).val < 16 := (i 0).isLt
  have hi1 : (i 1).val < 4096 := (i 1).isLt
  have hi2 : (i 2).val < 256 := (i 2).isLt
  obtain ⟨t, ht0, ht1⟩ := pt_onto ⟨(i 0).val, hi0⟩ ⟨(i 1).val / 1024, by omega⟩
  have hidx := tr10 (grid0.coords t)
  have q0 : ((cfgM m hO).win 10).index t (0 : Fin 3) = (i 0).val := (congrFun hidx 0).trans ht0
  have q1 : ((cfgM m hO).win 10).index t (1 : Fin 3) = (i 1).val / 1024 := (congrFun hidx 1).trans ht1
  have q2 : ((cfgM m hO).win 10).index t (2 : Fin 3) = 0 := congrFun hidx 2
  refine ⟨t, flush0_10 (adm m hO) t, ?_⟩
  rw [mem_blk10]
  intro a
  match a with
  | ⟨0, _⟩ => show ((cfgM m hO).win 10).index t (0 : Fin 3) * 1 ≤ (i 0).val ∧ (i 0).val < ((cfgM m hO).win 10).index t (0 : Fin 3) * 1 + 1; omega
  | ⟨1, _⟩ => show ((cfgM m hO).win 10).index t (1 : Fin 3) * 1024 ≤ (i 1).val ∧ (i 1).val < ((cfgM m hO).win 10).index t (1 : Fin 3) * 1024 + 1024; omega
  | ⟨2, _⟩ => show ((cfgM m hO).win 10).index t (2 : Fin 3) * 256 ≤ (i 2).val ∧ (i 2).val < ((cfgM m hO).win 10).index t (2 : Fin 3) * 256 + 256; omega

/-- Every index of the loss array is in the block of the point at its position and its row's block. -/
theorem cover11 (i : S16x1x4096.Idx) :
    ∃ t : Fin (cfgM m hO).N, ((cfgM m hO).win 11).flush t = true ∧ i ∈ (((cfgM m hO).win 11).blk t).view.set := by
  have hi0 : (i 0).val < 16 := (i 0).isLt
  have hi1 : (i 1).val < 1 := (i 1).isLt
  have hi2 : (i 2).val < 4096 := (i 2).isLt
  obtain ⟨t, ht0, ht1⟩ := pt_onto ⟨(i 0).val, hi0⟩ ⟨(i 2).val / 1024, by omega⟩
  have hidx := tr11 (grid0.coords t)
  have q0 : ((cfgM m hO).win 11).index t (0 : Fin 3) = (i 0).val := (congrFun hidx 0).trans ht0
  have q1 : ((cfgM m hO).win 11).index t (1 : Fin 3) = 0 := congrFun hidx 1
  have q2 : ((cfgM m hO).win 11).index t (2 : Fin 3) = (i 2).val / 1024 := (congrFun hidx 2).trans ht1
  refine ⟨t, flush0_11 (adm m hO) t, ?_⟩
  rw [mem_blk11]
  intro a
  match a with
  | ⟨0, _⟩ => show ((cfgM m hO).win 11).index t (0 : Fin 3) * 1 ≤ (i 0).val ∧ (i 0).val < ((cfgM m hO).win 11).index t (0 : Fin 3) * 1 + 1; omega
  | ⟨1, _⟩ => show ((cfgM m hO).win 11).index t (1 : Fin 3) * 1 ≤ (i 1).val ∧ (i 1).val < ((cfgM m hO).win 11).index t (1 : Fin 3) * 1 + 1; omega
  | ⟨2, _⟩ => show ((cfgM m hO).win 11).index t (2 : Fin 3) * 1024 ≤ (i 2).val ∧ (i 2).val < ((cfgM m hO).win 11).index t (2 : Fin 3) * 1024 + 1024; omega

/-! ## The arrays after the region -/

/-- After the region, output array 9 holds the next hidden state. -/
theorem arr9 (hlt : ∀ x, (tbl m 0 x).toNat < 16) :
    (dats m hO 0 c).arrAt 9 (cfgM m hO).N = GH m c :=
  (dats m hO 0 c).arrAt_eq_of_cover 9 (GH m c) (fun t _ => flushed9 m hO c hlt t) (cover9 m hO)

/-- After the region, output array 10 holds the next cell state. -/
theorem arr10 (hlt : ∀ x, (tbl m 0 x).toNat < 16) :
    (dats m hO 0 c).arrAt 10 (cfgM m hO).N = GC m c :=
  (dats m hO 0 c).arrAt_eq_of_cover 10 (GC m c) (fun t _ => flushed10 m hO c hlt t) (cover10 m hO)

/-- After the region, output array 11 holds the losses. -/
theorem arr11 (hlt : ∀ x, (tbl m 0 x).toNat < 16)
    (htv : ∀ p : Fin 65536, ((m ((c : Thread nD τ).loc main_arg10)) (ix1 p)).toNat < 512) :
    (dats m hO 0 c).arrAt 11 (cfgM m hO).N = GLs m c :=
  (dats m hO 0 c).arrAt_eq_of_cover 11 (GLs m c) (fun t _ => flushed11 m hO c hlt htv t) (cover11 m hO)

end Cert.KernelIdeal.KFlush

end
-- ==== Proof.KernelTail.lean ====
/-
  The kernel's three results.

  After the region the host reshapes the two `[16, 4096, 256]` state arrays to `[65536, 256]` and the `[16, 1, 4096]` loss
  array to `[65536]`: flat row `p` is row `p % 4096` of position `p / 4096`. So the results hold, at flat row `p`, the
  next hidden state, the next cell state and the loss of that row at the expert its position's word names.
-/
import proofs.«430817_j73091753443795_3_alg».proof.Proof.KernelFlush
import Idealize.ShloMosaic.Lib.StableHlo.Run
import Idealize.ShloMosaic.Lib.Pipeline.Value

set_option maxRecDepth 16384

noncomputable section

namespace Cert.KernelIdeal.KTail

open Cert.KernelIdeal Cert.KernelIdeal.Gen Cert.KernelIdeal.KFlush Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (hO : Ok m)

/-- The three results: the region's output arrays, reshaped flat. -/
def resH (c : Dev nD) : Buf (Elt Ideal) ((c : Thread nD τ).loc main_v4) :=
  shapeCast S65536x256 (GH m c) Facts₀.shapeCasts_S16x4096x256_S65536x256
def resC (c : Dev nD) : Buf (Elt Ideal) ((c : Thread nD τ).loc main_v5) :=
  shapeCast S65536x256 (GC m c) Facts₀.shapeCasts_S16x4096x256_S65536x256
def resL (c : Dev nD) : Buf (Elt Ideal) ((c : Thread nD τ).loc main_v6) :=
  shapeCast S65536 (GLs m c) Facts₀.shapeCasts_S16x1x4096_S65536

/-- What the host tail leaves in each result buffer. -/
theorem tail_v4 (c : Dev nD) (hlt : ∀ x, (tbl m 0 x).toNat < 16) :
    Pipeline.afterTail pcfgs (fun _ => adm m hO) (dats m hO) 0 (V0 m) [hostOps1] c main_v4 = resH m c := by
  have e := (Pipeline.withArrays_arr spec0 (launch0 (F := Ideal)).win.arr_inj c (V0 m c)
    (fun w => (dats m hO 0 c).arrAt w (cfgM m hO).N) 9).trans (arr9 m hO c hlt)
  unfold Pipeline.afterTail
  show StableHlo.after hostOps1 _ (Proc.devRef .tc main_v4) = _
  after_results
  funext i
  exact congrArg (fun a => shapeCast S65536x256 a Facts₀.shapeCasts_S16x4096x256_S65536x256 i) e

theorem tail_v5 (c : Dev nD) (hlt : ∀ x, (tbl m 0 x).toNat < 16) :
    Pipeline.afterTail pcfgs (fun _ => adm m hO) (dats m hO) 0 (V0 m) [hostOps1] c main_v5 = resC m c := by
  have e := (Pipeline.withArrays_arr spec0 (launch0 (F := Ideal)).win.arr_inj c (V0 m c)
    (fun w => (dats m hO 0 c).arrAt w (cfgM m hO).N) 10).trans (arr10 m hO c hlt)
  unfold Pipeline.afterTail
  show StableHlo.after hostOps1 _ (Proc.devRef .tc main_v5) = _
  after_results
  funext i
  exact congrArg (fun a => shapeCast S65536x256 a Facts₀.shapeCasts_S16x4096x256_S65536x256 i) e

theorem tail_v6 (c : Dev nD) (hlt : ∀ x, (tbl m 0 x).toNat < 16)
    (htv : ∀ p : Fin 65536, ((m ((c : Thread nD τ).loc main_arg10)) (ix1 p)).toNat < 512) :
    Pipeline.afterTail pcfgs (fun _ => adm m hO) (dats m hO) 0 (V0 m) [hostOps1] c main_v6 = resL m c := by
  have e := (Pipeline.withArrays_arr spec0 (launch0 (F := Ideal)).win.arr_inj c (V0 m c)
    (fun w => (dats m hO 0 c).arrAt w (cfgM m hO).N) 11).trans (arr11 m hO c hlt htv)
  unfold Pipeline.afterTail
  show StableHlo.after hostOps1 _ (Proc.devRef .tc main_v6) = _
  after_results
  funext i
  exact congrArg (fun a => shapeCast S65536 a Facts₀.shapeCasts_S16x1x4096_S65536 i) e

/-- The flat row `p` of a `[16, 4096, 256]` array is its row `p % 4096` at position `p / 4096`. -/
theorem flat3_apply (g : S16x4096x256.Idx → EReal) (p : Fin 65536) (j : Fin 256) :
    shapeCast S65536x256 g Facts₀.shapeCasts_S16x4096x256_S65536x256 (ix2 p j) = g (ix3 (posOf p) (rowOf p) j) := by
  refine shapeCast_apply g _ (ix2 p j) (ix3 (posOf p) (rowOf p) j) ?_
  rw [Shape.rowMajor_val_three, Shape.rowMajor_val_two]
  show ((posOf p).val * 4096 + (rowOf p).val) * 256 + j.val = p.val * 256 + j.val
  unfold posOf rowOf
  dsimp only
  omega

/-- The flat row `p` of the `[16, 1, 4096]` loss array. -/
theorem flat1_apply (g : S16x1x4096.Idx → EReal) (p : Fin 65536) :
    shapeCast S65536 g Facts₀.shapeCasts_S16x1x4096_S65536 (ix1 p) = g (ix3 (posOf p) (0 : Fin 1) (rowOf p)) := by
  refine shapeCast_apply g _ (ix1 p) (ix3 (posOf p) (0 : Fin 1) (rowOf p)) ?_
  rw [Shape.rowMajor_val_three, Shape.rowMajor_val_one]
  show ((posOf p).val * 1 + (0 : Fin 1).val) * 4096 + (rowOf p).val = p.val
  unfold posOf rowOf
  dsimp only
  omega

/-- The results at a flat row, as the row functions of the argument arrays. -/
theorem resH_apply (c : Dev nD) (p : Fin 65536) (j : Fin 256) :
    resH m c (ix2 p j) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) p j := by
  unfold resH
  rw [flat3_apply]
  rfl

theorem resC_apply (c : Dev nD) (p : Fin 65536) (j : Fin 256) :
    resC m c (ix2 p j) = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) p j := by
  unfold resC
  rw [flat3_apply]
  rfl

theorem resL_apply (c : Dev nD) (p : Fin 65536) :
    resL m c (ix1 p) = outLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p := by
  unfold resL
  rw [flat1_apply]
  have e : (⟨(posOf p).val * 4096 + (rowOf p).val, by
      have := (posOf p).isLt; have := (rowOf p).isLt; omega⟩ : Fin 65536) = p :=
    Fin.ext (by unfold posOf rowOf; dsimp only; omega)
  exact congrArg (fun q => lossRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (expertOf (m ((c : Thread nD τ).loc main_arg9)) (posOf p)) (rowOf p) (labelOf (m ((c : Thread nD τ).loc main_arg10)) q)) e

/-- The kernel's run, read: the three results at their functions, the eleven arguments unchanged. -/
theorem run (hO : Ok m) (hlt : ∀ x, (tbl m 0 x).toNat < 16)
    (htv : ∀ (c : Dev nD) (p : Fin 65536), ((m ((c : Thread nD τ).loc main_arg10)) (ix1 p)).toNat < 512) :
    θ_run defs (onTc (τ := τ) (main (F := Ideal))) ⟨m, fun _ => 0, ρ⟩ fun r => ∀ c : Dev nD,
      r.2.mem ((c.tc : Thread nD τ).loc main_v4) = resH m c
      ∧ r.2.mem ((c.tc : Thread nD τ).loc main_v5) = resC m c
      ∧ r.2.mem ((c.tc : Thread nD τ).loc main_v6) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v4 (by decide : main_v4 ∈ Pipeline.restRefs sig spec0)).trans (tail_v4 m hO c hlt),
      ((h c).2 main_v5 (by decide : main_v5 ∈ Pipeline.restRefs sig spec0)).trans (tail_v5 m hO c hlt),
      ((h c).2 main_v6 (by decide : main_v6 ∈ Pipeline.restRefs sig spec0)).trans (tail_v6 m hO c hlt (htv c)),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c))),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).1 6).trans (((dats m hO 0 c).arrAt_in 6 rfl _).trans ((A_eq m hO c 6).trans (V_main_arg7 m c))),
      ((h c).1 7).trans (((dats m hO 0 c).arrAt_in 7 rfl _).trans ((A_eq m hO c 7).trans (V_main_arg8 m c))),
      ((h c).2 main_arg9 (by decide : main_arg9 ∈ Pipeline.restRefs sig spec0)).trans (W_main_arg9 m hO (dats m hO) c),
      ((h c).2 main_arg10 (by decide : main_arg10 ∈ Pipeline.restRefs sig spec0)).trans (W_main_arg10 m hO (dats m hO) c)⟩)
    (run_main m ρ hO)

end Cert.KernelIdeal.KTail

end
-- ==== Proof.RefImports.lean ====
/- The reference's operations and its read-at-an-index lemmas, brought in for the modules that read the reference. -/
import proofs.«430817_j73091753443795_3_alg».proof.Proof.RefRunP
import proofs.«430817_j73091753443795_3_alg».proof.Proof.RefReadP
-- ==== Proof.RefGates.lean ====
/-
  The reference's gate pre-activations at an index.

  The reference first gathers, for each of the 16 positions, the inputs and the weights of the expert that position's
  `child_index` word names (a word in `[0, 16)` is read as itself: it is not negative, so nothing is added to it, and the
  gather's clamp leaves it). It then contracts the gathered input rows with the gathered weight rows and adds the two
  gathered biases one after the other; `((a + b) + bi) + bh` is `(a + b) + (bi + bh)` on the extended reals.

  The first part of the module is about `stablehlo.gather` alone: a gather of whole slabs along axis 0 of a rank-3 operand
  (and of whole rows of a rank-2 operand), whose start indices are an [N × 1] column, reads result slab `k` from the
  operand's slab at the column's word `k`, read signed and clamped into `[0, N − 1]`. The operand index is computed axis
  by axis: on axis 0 the clamped start (no batching or offset coordinate), on the other axes the result's own coordinate.
-/
import proofs.«430817_j73091753443795_3_alg».proof.Proof.RefImports
import proofs.«430817_j73091753443795_3_alg».proof.Proof.Final
import Idealize.ShloMosaic.Lib.ValueIdx
import Idealize.ShloMosaic.Lib.Pipeline.Value
import Idealize.ShloMosaic.Lib.StableHlo.Predicate
import Idealize.ShloMosaic.PureOps.Ideal.Laws

noncomputable section

namespace Cert.GatherRows

open Idealize.ShloMosaic Idealize.ShloMosaic.ValueIdx Idealize.ShloMosaic.StableHlo.Predicate

/-- A word below 16 is not negative, so "add 16 when negative" keeps it. -/
theorem select_inRange {w : BitVec 32} (hw : w.toNat < 16) :
    Scalar.select (IntOp.cmpi .slt w 0#32) (IntOp.addi w 16#32) w = w := by
  have h : ¬ IntOp.cmpi .slt w 0#32 = 1#1 := by
    rw [slt_iff_toNat (by omega) (by decide)]
    exact Nat.not_lt_zero _
  rw [eq_zero_of_ne_one h, select_zero]

/-- A word below 16, read signed and clamped into [0, 15], is its own value. -/
theorem clamp_inRange {w : BitVec 32} (hw : w.toNat < 16) : min w.toInt.toNat (16 - 1) = w.toNat := by
  rw [toInt_eq_toNat_of_lt (by omega), Int.toNat_natCast]
  omega

section Rank3
variable {N B C w : Nat} (ss : Fin 3 → Nat)
  (wf : GatherDims.WF ⟨3, ![N, B, C]⟩ ⟨2, ![N, 1]⟩ ⟨3, ![N, B, C]⟩ [1, 2] [0] [] [0] [] 1 ss)

/-- The dimension numbers of a gather of whole [B × C] slabs along axis 0 of an [N × B × C] operand: axis 0 collapsed and
    start-indexed, axes 1 and 2 offset axes, the start indices an [N × 1] column. -/
abbrev slabDims : GatherDims ⟨3, ![N, B, C]⟩ ⟨2, ![N, 1]⟩ ⟨3, ![N, B, C]⟩ :=
  { offsetDims := [1, 2], collapsedSliceDims := [0], operandBatchingDims := [], startIndicesBatchingDims := [],
    startIndexMap := [0], indexVectorDim := 1, sliceSizes := ss, wf := wf }

theorem slab_axis0 (idx : IVec ⟨2, ![N, 1]⟩ w) (k : Fin N) (r : Fin B) (j : Fin C) :
    ((slabDims ss wf).operandIdx (ix3 k r j) idx 0).val = min (idx (ixP k)).toInt.toNat (N - 1) := by
  show (slabDims ss wf).start (ix3 k r j) idx 0 + (slabDims ss wf).batchCoord (ix3 k r j) 0
    + (slabDims ss wf).offCoord (ix3 k r j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (slabDims ss wf).startIndexMap from List.mem_singleton.mpr rfl)]
  have hsi : (slabDims ss wf).siIdx (ix3 k r j) ⟨List.idxOf (0 : Fin 3) (slabDims ss wf).startIndexMap,
      List.idxOf_lt_length_iff.2 (List.mem_singleton.mpr rfl)⟩ = ixP k := by
    funext b; refine Fin.ext ?_
    match b with
    | ⟨0, _⟩ => rfl
    | ⟨1, _⟩ => rfl
  rw [hsi]
  have hsl : ss 0 = 1 := (slabDims ss wf).slice_collapsed 0 (List.mem_singleton.mpr rfl)
  show min _ (N - ss 0) = _
  rw [hsl]

theorem slab_axis1 (idx : IVec ⟨2, ![N, 1]⟩ w) (k : Fin N) (r : Fin B) (j : Fin C) :
    ((slabDims ss wf).operandIdx (ix3 k r j) idx 1).val = r.val := by
  show (slabDims ss wf).start (ix3 k r j) idx 1 + (slabDims ss wf).batchCoord (ix3 k r j) 1
    + (slabDims ss wf).offCoord (ix3 k r j) 1 = _
  rw [GatherDims.batchCoord_eq_zero _ _ _ List.not_mem_nil]
  unfold GatherDims.start GatherDims.offCoord
  rw [dif_neg (show ¬ (1 : Fin 3) ∈ [(0 : Fin 3)] by decide),
    dif_pos ((GatherDims.mem_sKept _ _).mpr ⟨(show ¬ (1 : Fin 3) ∈ [(0 : Fin 3)] by decide), List.not_mem_nil⟩)]
  simp only [Nat.add_zero, Nat.zero_add]
  rfl

theorem slab_axis2 (idx : IVec ⟨2, ![N, 1]⟩ w) (k : Fin N) (r : Fin B) (j : Fin C) :
    ((slabDims ss wf).operandIdx (ix3 k r j) idx 2).val = j.val := by
  show (slabDims ss wf).start (ix3 k r j) idx 2 + (slabDims ss wf).batchCoord (ix3 k r j) 2
    + (slabDims ss wf).offCoord (ix3 k r j) 2 = _
  rw [GatherDims.batchCoord_eq_zero _ _ _ List.not_mem_nil]
  unfold GatherDims.start GatherDims.offCoord
  rw [dif_neg (show ¬ (2 : Fin 3) ∈ [(0 : Fin 3)] by decide),
    dif_pos ((GatherDims.mem_sKept _ _).mpr ⟨(show ¬ (2 : Fin 3) ∈ [(0 : Fin 3)] by decide), List.not_mem_nil⟩)]
  simp only [Nat.add_zero, Nat.zero_add]
  rfl

end Rank3

/-- A GATHER OF SLABS ALONG AXIS 0, READ AT AN INDEX. Result slab `k` is the operand's slab at position `k`'s start index, read
    signed and clamped into `[0, N − 1]`; inside the slab the result's own coordinates are kept. -/
theorem gather_slab {α : Type} {N B C w : Nat} (d : GatherDims ⟨3, ![N, B, C]⟩ ⟨2, ![N, 1]⟩ ⟨3, ![N, B, C]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, B, C]⟩ : Shape).Idx → α) (idx : IVec ⟨2, ![N, 1]⟩ w) (k : Fin N) (r : Fin B) (j : Fin C) :
    Host.gather d x idx (ix3 k r j)
      = x (ix3 ⟨min (idx (ixP k)).toInt.toNat (N - 1), by have := k.isLt; omega⟩ r j) := by
  obtain ⟨od, cd, ob, sb, sm, iv, ss, wf⟩ := d
  dsimp only at hoff hcoll hob hsb hsim hivd
  subst hoff hcoll hob hsb hsim hivd
  unfold Host.gather
  congr 1
  funext a
  refine Fin.ext ?_
  match a with
  | ⟨0, _⟩ => exact slab_axis0 ss wf idx k r j
  | ⟨1, _⟩ => exact slab_axis1 ss wf idx k r j
  | ⟨2, _⟩ => exact slab_axis2 ss wf idx k r j

section Rank2
variable {N B w : Nat} (ss : Fin 2 → Nat)
  (wf : GatherDims.WF ⟨2, ![N, B]⟩ ⟨2, ![N, 1]⟩ ⟨2, ![N, B]⟩ [1] [0] [] [0] [] 1 ss)

/-- The dimension numbers of a gather of whole rows of an [N × B] operand: axis 0 collapsed and start-indexed, axis 1 the
    offset axis, the start indices an [N × 1] column. -/
abbrev rowDims : GatherDims ⟨2, ![N, B]⟩ ⟨2, ![N, 1]⟩ ⟨2, ![N, B]⟩ :=
  { offsetDims := [1], collapsedSliceDims := [0], operandBatchingDims := [], startIndicesBatchingDims := [],
    startIndexMap := [0], indexVectorDim := 1, sliceSizes := ss, wf := wf }

theorem row_axis0 (idx : IVec ⟨2, ![N, 1]⟩ w) (k : Fin N) (r : Fin B) :
    ((rowDims ss wf).operandIdx (ix2 k r) idx 0).val = min (idx (ixP k)).toInt.toNat (N - 1) := by
  show (rowDims ss wf).start (ix2 k r) idx 0 + (rowDims ss wf).batchCoord (ix2 k r) 0
    + (rowDims ss wf).offCoord (ix2 k r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims ss wf).startIndexMap from List.mem_singleton.mpr rfl)]
  have hsi : (rowDims ss wf).siIdx (ix2 k r) ⟨List.idxOf (0 : Fin 2) (rowDims ss wf).startIndexMap,
      List.idxOf_lt_length_iff.2 (List.mem_singleton.mpr rfl)⟩ = ixP k := by
    funext b; refine Fin.ext ?_
    match b with
    | ⟨0, _⟩ => rfl
    | ⟨1, _⟩ => rfl
  rw [hsi]
  have hsl : ss 0 = 1 := (rowDims ss wf).slice_collapsed 0 (List.mem_singleton.mpr rfl)
  show min _ (N - ss 0) = _
  rw [hsl]

theorem row_axis1 (idx : IVec ⟨2, ![N, 1]⟩ w) (k : Fin N) (r : Fin B) :
    ((rowDims ss wf).operandIdx (ix2 k r) idx 1).val = r.val := by
  show (rowDims ss wf).start (ix2 k r) idx 1 + (rowDims ss wf).batchCoord (ix2 k r) 1
    + (rowDims ss wf).offCoord (ix2 k r) 1 = _
  rw [GatherDims.batchCoord_eq_zero _ _ _ List.not_mem_nil]
  unfold GatherDims.start GatherDims.offCoord
  rw [dif_neg (show ¬ (1 : Fin 2) ∈ [(0 : Fin 2)] by decide),
    dif_pos ((GatherDims.mem_sKept _ _).mpr ⟨(show ¬ (1 : Fin 2) ∈ [(0 : Fin 2)] by decide), List.not_mem_nil⟩)]
  simp only [Nat.add_zero, Nat.zero_add]
  rfl

end Rank2

/-- A GATHER OF ROWS ALONG AXIS 0, READ AT AN INDEX: the rank-2 form of `gather_slab`. -/
theorem gather_row {α : Type} {N B w : Nat} (d : GatherDims ⟨2, ![N, B]⟩ ⟨2, ![N, 1]⟩ ⟨2, ![N, B]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, B]⟩ : Shape).Idx → α) (idx : IVec ⟨2, ![N, 1]⟩ w) (k : Fin N) (r : Fin B) :
    Host.gather d x idx (ix2 k r)
      = x (ix2 ⟨min (idx (ixP k)).toInt.toNat (N - 1), by have := k.isLt; omega⟩ r) := by
  obtain ⟨od, cd, ob, sb, sm, iv, ss, wf⟩ := d
  dsimp only at hoff hcoll hob hsb hsim hivd
  subst hoff hcoll hob hsb hsim hivd
  unfold Host.gather
  congr 1
  funext a
  refine Fin.ext ?_
  match a with
  | ⟨0, _⟩ => exact row_axis0 ss wf idx k r
  | ⟨1, _⟩ => exact row_axis1 ss wf idx k r

/-- With 16 slabs and position `k`'s start word the value of `e : Fin 16`, the gather reads slab `e`. -/
theorem gather_slab_at {α : Type} {B C : Nat} (d : GatherDims ⟨3, ![16, B, C]⟩ ⟨2, ![16, 1]⟩ ⟨3, ![16, B, C]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![16, B, C]⟩ : Shape).Idx → α) (idx : IVec ⟨2, ![16, 1]⟩ 32) (k : Fin 16) (r : Fin B) (j : Fin C)
    (e : Fin 16) (he : (idx (ixP k)).toNat = e.val) :
    Host.gather d x idx (ix3 k r j) = x (ix3 e r j) := by
  rw [gather_slab d hoff hcoll hob hsb hsim hivd x idx k r j]
  congr 2
  refine Fin.ext ?_
  show min (idx (ixP k)).toInt.toNat (16 - 1) = e.val
  rw [clamp_inRange (by rw [he]; exact e.isLt), he]

/-- The same for 16 rows. -/
theorem gather_row_at {α : Type} {B : Nat} (d : GatherDims ⟨2, ![16, B]⟩ ⟨2, ![16, 1]⟩ ⟨2, ![16, B]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![16, B]⟩ : Shape).Idx → α) (idx : IVec ⟨2, ![16, 1]⟩ 32) (k : Fin 16) (r : Fin B)
    (e : Fin 16) (he : (idx (ixP k)).toNat = e.val) :
    Host.gather d x idx (ix2 k r) = x (ix2 e r) := by
  rw [gather_row d hoff hcoll hob hsb hsim hivd x idx k r]
  congr 2
  refine Fin.ext ?_
  show min (idx (ixP k)).toInt.toNat (16 - 1) = e.val
  rw [clamp_inRange (by rw [he]; exact e.isLt), he]

end Cert.GatherRows

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Cert.Spec
open Idealize.ShloMosaic.StableHlo.Predicate (ixP)
open Cert.GatherRows

variable (x0 : (⟨S16x4096x512, .f32⟩ : BufTy).Contents (Elt Ideal)) (x1 x2 : (⟨S16x4096x256, .f32⟩ : BufTy).Contents (Elt Ideal))
  (x3 : (⟨S16x1024x512, .f32⟩ : BufTy).Contents (Elt Ideal)) (x4 : (⟨S16x1024x256, .f32⟩ : BufTy).Contents (Elt Ideal))
  (x5 x6 : (⟨S16x1024, .f32⟩ : BufTy).Contents (Elt Ideal)) (x7 : (⟨S512x256, .f32⟩ : BufTy).Contents (Elt Ideal))
  (x8 : (⟨S512, .f32⟩ : BufTy).Contents (Elt Ideal)) (x9 : (⟨S16, .i32⟩ : BufTy).Contents (Elt Ideal))
  (x10 : (⟨S65536, .i32⟩ : BufTy).Contents (Elt Ideal))

/-- Every word of the position table names one of the 16 experts. -/
def InRange16 (w : (⟨S16, .i32⟩ : BufTy).Contents (Elt Ideal)) : Prop := ∀ k : Fin 16, (w (ix1 k)).toNat < 16

namespace Gates

/-! ## The start-index columns

Each of the seven gathers builds its own [16 × 1] column of start indices from the position table by the same four steps
(compare with 0, add 16, select, lay out as a column); the seven columns are one term. -/

/-- Row `k` of the start-index column is position `k`'s word: a word below 16 is not negative, so the select keeps it. -/
theorem startCol_apply (h9 : InRange16 x9) (k : Fin 16) :
    val_main_v5 (F := Ideal) x9 (ixP k) = x9 (ix1 k) := by
  have e : idx_main_v5 (ixP k) = ix1 k := funext fun a => Fin.ext (by match a with | ⟨0, _⟩ => rfl)
  rw [val_main_v5_apply, e, val_main_v4_apply, val_main_v1_apply, val_main_v3_apply, val_main_v0_apply, val_main_v2_apply,
    val_main_c_apply, val_main_c_0_apply]
  exact select_inRange (h9 k)

/-- Its value is the number of the expert that serves position `k`. -/
theorem startCol_toNat (h9 : InRange16 x9) (k : Fin 16) :
    (val_main_v5 (F := Ideal) x9 (ixP k)).toNat = (expertOf x9 k).val := by
  rw [startCol_apply x9 h9 k]
  exact (Nat.mod_eq_of_lt (h9 k)).symm

theorem col_h : val_main_v12 (F := Ideal) x9 = val_main_v5 (F := Ideal) x9 := rfl
theorem col_c : val_main_v19 (F := Ideal) x9 = val_main_v5 (F := Ideal) x9 := rfl
theorem col_Wi : val_main_v26 (F := Ideal) x9 = val_main_v5 (F := Ideal) x9 := rfl
theorem col_Wh : val_main_v33 (F := Ideal) x9 = val_main_v5 (F := Ideal) x9 := rfl
theorem col_bi : val_main_v40 (F := Ideal) x9 = val_main_v5 (F := Ideal) x9 := rfl
theorem col_bh : val_main_v47 (F := Ideal) x9 = val_main_v5 (F := Ideal) x9 := rfl

/-! ## The seven gathered arrays: position `k` reads expert `expertOf x9 k` -/

/-- The gathered input. -/
theorem gathered_x (h9 : InRange16 x9) (k : Fin 16) (r : Fin 4096) (i : Fin 512) :
    val_main_v6 (F := Ideal) x0 x9 (ix3 k r i) = x0 (ix3 (expertOf x9 k) r i) := by
  unfold val_main_v6
  exact gather_slab_at gather_S16x4096x512_S16x1_S16x4096x512_12_0_n_n_0_1_14096512 rfl rfl rfl rfl rfl rfl x0 _ k r i _
    (startCol_toNat x9 h9 k)

/-- The gathered hidden state. -/
theorem gathered_h (h9 : InRange16 x9) (k : Fin 16) (r : Fin 4096) (j : Fin 256) :
    val_main_v13 (F := Ideal) x1 x9 (ix3 k r j) = x1 (ix3 (expertOf x9 k) r j) := by
  unfold val_main_v13
  exact gather_slab_at gather_S16x4096x256_S16x1_S16x4096x256_12_0_n_n_0_1_14096256 rfl rfl rfl rfl rfl rfl x1 _ k r j _
    (by rw [col_h]; exact startCol_toNat x9 h9 k)

/-- The gathered input weights. -/
theorem gathered_Wi (h9 : InRange16 x9) (k : Fin 16) (o : Fin 1024) (i : Fin 512) :
    val_main_v27 (F := Ideal) x3 x9 (ix3 k o i) = x3 (ix3 (expertOf x9 k) o i) := by
  unfold val_main_v27
  exact gather_slab_at gather_S16x1024x512_S16x1_S16x1024x512_12_0_n_n_0_1_11024512 rfl rfl rfl rfl rfl rfl x3 _ k o i _
    (by rw [col_Wi]; exact startCol_toNat x9 h9 k)

/-- The gathered hidden weights. -/
theorem gathered_Wh (h9 : InRange16 x9) (k : Fin 16) (o : Fin 1024) (j : Fin 256) :
    val_main_v34 (F := Ideal) x4 x9 (ix3 k o j) = x4 (ix3 (expertOf x9 k) o j) := by
  unfold val_main_v34
  exact gather_slab_at gather_S16x1024x256_S16x1_S16x1024x256_12_0_n_n_0_1_11024256 rfl rfl rfl rfl rfl rfl x4 _ k o j _
    (by rw [col_Wh]; exact startCol_toNat x9 h9 k)

/-- The gathered input bias. -/
theorem gathered_bi (h9 : InRange16 x9) (k : Fin 16) (o : Fin 1024) :
    val_main_v41 (F := Ideal) x5 x9 (ix2 k o) = x5 (ix2 (expertOf x9 k) o) := by
  unfold val_main_v41
  exact gather_row_at gather_S16x1024_S16x1_S16x1024_1_0_n_n_0_1_11024 rfl rfl rfl rfl rfl rfl x5 _ k o _
    (by rw [col_bi]; exact startCol_toNat x9 h9 k)

/-- The gathered hidden bias. -/
theorem gathered_bh (h9 : InRange16 x9) (k : Fin 16) (o : Fin 1024) :
    val_main_v48 (F := Ideal) x6 x9 (ix2 k o) = x6 (ix2 (expertOf x9 k) o) := by
  unfold val_main_v48
  exact gather_row_at gather_S16x1024_S16x1_S16x1024_1_0_n_n_0_1_11024 rfl rfl rfl rfl rfl rfl x6 _ k o _
    (by rw [col_bh]; exact startCol_toNat x9 h9 k)

end Gates

open Gates

/-- The gathered cell state: position `k` reads expert `expertOf x9 k`. -/
theorem gathered_c (h9 : InRange16 x9) (k : Fin 16) (r : Fin 4096) (j : Fin 256) :
    val_main_v20 (F := Ideal) x2 x9 (ix3 k r j) = x2 (ix3 (expertOf x9 k) r j) := by
  unfold val_main_v20
  exact gather_slab_at gather_S16x4096x256_S16x1_S16x4096x256_12_0_n_n_0_1_14096256 rfl rfl rfl rfl rfl rfl x2 _ k r j _
    (by rw [col_c]; exact startCol_toNat x9 h9 k)

/-! ## The gate pre-activations -/

/-- The gate pre-activations of position `k`, row `r`: those of the expert the position's word names. -/
theorem gates_apply (h9 : InRange16 x9) (k : Fin 16) (r : Fin 4096) (o : Fin 1024) :
    val_main_v57 (F := Ideal) x0 x1 x3 x4 x5 x6 x9 (ix3 k r o) = gatesAt x0 x1 x3 x4 x5 x6 (expertOf x9 k) r o := by
  have el49 : ∀ q : Fin 512, lidx_main_v49 (ix3 k r o) q = ix3 k r q := fun q => funext fun a => Fin.ext (by
    match a with | ⟨0, _⟩ => rfl | ⟨1, _⟩ => rfl | ⟨2, _⟩ => rfl)
  have er49 : ∀ q : Fin 512, ridx_main_v49 (ix3 k r o) q = ix3 k o q := fun q => funext fun a => Fin.ext (by
    match a with | ⟨0, _⟩ => rfl | ⟨1, _⟩ => rfl | ⟨2, _⟩ => rfl)
  have el50 : ∀ q : Fin 256, lidx_main_v50 (ix3 k r o) q = ix3 k r q := fun q => funext fun a => Fin.ext (by
    match a with | ⟨0, _⟩ => rfl | ⟨1, _⟩ => rfl | ⟨2, _⟩ => rfl)
  have er50 : ∀ q : Fin 256, ridx_main_v50 (ix3 k r o) q = ix3 k o q := fun q => funext fun a => Fin.ext (by
    match a with | ⟨0, _⟩ => rfl | ⟨1, _⟩ => rfl | ⟨2, _⟩ => rfl)
  have eb5 : idx_main_v52 (idx_main_v53 (ix3 k r o)) = ix2 k o := funext fun a => Fin.ext (by
    match a with | ⟨0, _⟩ => rfl | ⟨1, _⟩ => rfl)
  have eb6 : idx_main_v55 (idx_main_v56 (ix3 k r o)) = ix2 k o := funext fun a => Fin.ext (by
    match a with | ⟨0, _⟩ => rfl | ⟨1, _⟩ => rfl)
  rw [val_main_v57_apply, val_main_v54_apply, val_main_v51_apply, val_main_v49_apply, val_main_v50_apply,
    val_main_v53_apply, val_main_v52_apply, val_main_v56_apply, val_main_v55_apply, eb5, eb6]
  simp only [el49, er49, el50, er50, gathered_x x0 x9 h9, gathered_h x1 x9 h9, gathered_Wi x3 x9 h9, gathered_Wh x4 x9 h9,
    gathered_bi x5 x9 h9, gathered_bh x6 x9 h9, Ideal.addf_def]
  exact add_assoc _ _ _

end Cert.ReferenceIdeal.RefValue

end
-- ==== Proof.RefCell.lean ====
/-
  The reference's next hidden and cell state at a flat row.

  The four quarters of the gate columns go through the cell elementwise; the reference spells the sigmoid as
  `1 / (1 + exp (-x))`, which on the extended reals is the same function as the kernel's one operation. The two states
  are then laid out flat: flat row `p` is row `p % 4096` of position `p / 4096`.
-/
import proofs.«430817_j73091753443795_3_alg».proof.Proof.RefGates
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Cert.Spec

/-! ## Where the layout operations read -/

/-- Quarter `q` of the gate columns, read at column `j`, is gate column `q·256 + j`. -/
theorem slice_i (k : Fin 16) (r : Fin 4096) (j : Fin 256) : idx_main_v58 (ix3 k r j) = ix3 k r (qcol 0 j) := by
  funext a
  match a with
  | ⟨0, _⟩ => rfl
  | ⟨1, _⟩ => rfl
  | ⟨2, _⟩ => exact Fin.ext (by show j.val = 0 * 256 + j.val; omega)

theorem slice_f (k : Fin 16) (r : Fin 4096) (j : Fin 256) : idx_main_v59 (ix3 k r j) = ix3 k r (qcol 1 j) := by
  funext a
  match a with
  | ⟨0, _⟩ => rfl
  | ⟨1, _⟩ => rfl
  | ⟨2, _⟩ => exact Fin.ext (by show 256 + j.val = 1 * 256 + j.val; omega)

theorem slice_g (k : Fin 16) (r : Fin 4096) (j : Fin 256) : idx_main_v60 (ix3 k r j) = ix3 k r (qcol 2 j) := by
  funext a
  match a with
  | ⟨0, _⟩ => rfl
  | ⟨1, _⟩ => rfl
  | ⟨2, _⟩ => exact Fin.ext (by show 512 + j.val = 2 * 256 + j.val; omega)

theorem slice_o (k : Fin 16) (r : Fin 4096) (j : Fin 256) : idx_main_v61 (ix3 k r j) = ix3 k r (qcol 3 j) := by
  funext a
  match a with
  | ⟨0, _⟩ => rfl
  | ⟨1, _⟩ => rfl
  | ⟨2, _⟩ => exact Fin.ext (by show 768 + j.val = 3 * 256 + j.val; omega)

/-- Flat row `p`, column `j` of the flat layout is element `(p / 4096, p % 4096, j)` of the three-axis array: the
    row-major position `p·256 + j` splits as `((p / 4096)·4096 + p % 4096)·256 + j`. -/
theorem flat_h (p : Fin 65536) (j : Fin 256) : idx_main_v86 (ix2 p j) = ix3 (posOf p) (rowOf p) j := by
  have hp := p.isLt
  have hj := j.isLt
  funext a
  match a with
  | ⟨0, _⟩ => exact Fin.ext (by show (p.val * 256 + j.val) / 1048576 = p.val / 4096; omega)
  | ⟨1, _⟩ => exact Fin.ext (by show (p.val * 256 + j.val) / 256 % 4096 = p.val % 4096; omega)
  | ⟨2, _⟩ => exact Fin.ext (by show (p.val * 256 + j.val) % 256 = j.val; omega)

theorem flat_c (p : Fin 65536) (j : Fin 256) : idx_main_v87 (ix2 p j) = ix3 (posOf p) (rowOf p) j := by
  have hp := p.isLt
  have hj := j.isLt
  funext a
  match a with
  | ⟨0, _⟩ => exact Fin.ext (by show (p.val * 256 + j.val) / 1048576 = p.val / 4096; omega)
  | ⟨1, _⟩ => exact Fin.ext (by show (p.val * 256 + j.val) / 256 % 4096 = p.val % 4096; omega)
  | ⟨2, _⟩ => exact Fin.ext (by show (p.val * 256 + j.val) % 256 = j.val; omega)

variable (x0 : (⟨S16x4096x512, .f32⟩ : BufTy).Contents (Elt Ideal)) (x1 x2 : (⟨S16x4096x256, .f32⟩ : BufTy).Contents (Elt Ideal))
  (x3 : (⟨S16x1024x512, .f32⟩ : BufTy).Contents (Elt Ideal)) (x4 : (⟨S16x1024x256, .f32⟩ : BufTy).Contents (Elt Ideal))
  (x5 x6 : (⟨S16x1024, .f32⟩ : BufTy).Contents (Elt Ideal)) (x7 : (⟨S512x256, .f32⟩ : BufTy).Contents (Elt Ideal))
  (x8 : (⟨S512, .f32⟩ : BufTy).Contents (Elt Ideal)) (x9 : (⟨S16, .i32⟩ : BufTy).Contents (Elt Ideal))
  (x10 : (⟨S65536, .i32⟩ : BufTy).Contents (Elt Ideal))

/-! ## The cell at position `k`, row `r`, column `j` -/

/-- The next cell state before the flat layout: `σ(f)·c + σ(i)·tanh(g)` of the served expert's gates and cell row. The
    word `0x3F800000` is the number one, and `1 / (1 + exp (-x))` is the sigmoid by its definition. -/
theorem cell_c (h9 : InRange16 x9) (k : Fin 16) (r : Fin 4096) (j : Fin 256) :
    val_main_v77 (F := Ideal) x0 x1 x2 x3 x4 x5 x6 x9 (ix3 k r j)
      = cAt x0 x1 x2 x3 x4 x5 x6 (expertOf x9 k) r j := by
  rw [val_main_v77_apply, val_main_v68_apply, val_main_v67_apply, val_main_v66_apply, val_main_cst_13_apply,
    val_main_v65_apply, val_main_v64_apply, val_main_cst_apply, val_main_v63_apply, val_main_v62_apply,
    val_main_v59_apply, val_main_v76_apply, val_main_v74_apply, val_main_v73_apply, val_main_cst_15_apply,
    val_main_v72_apply, val_main_v71_apply, val_main_cst_14_apply, val_main_v70_apply, val_main_v69_apply,
    val_main_v58_apply, val_main_v75_apply, val_main_v60_apply, slice_f, slice_i, slice_g,
    gates_apply x0 x1 x3 x4 x5 x6 x9 h9, gates_apply x0 x1 x3 x4 x5 x6 x9 h9, gates_apply x0 x1 x3 x4 x5 x6 x9 h9,
    gathered_c x2 x9 h9]
  simp only [Ideal.ofBits_def, Ideal.ofBits_one_f32, Ideal.addf_def, Ideal.mulf_def, Ideal.hostDivf_def,
    Ideal.hostUnary_exp_def, Ideal.hostUnary_tanh_def, Ideal.hostNegf_def, Ideal.negf_def]
  rfl

/-- The next hidden state before the flat layout: `σ(o)·tanh(c')`. -/
theorem cell_h (h9 : InRange16 x9) (k : Fin 16) (r : Fin 4096) (j : Fin 256) :
    val_main_v85 (F := Ideal) x0 x1 x2 x3 x4 x5 x6 x9 (ix3 k r j)
      = hAt x0 x1 x2 x3 x4 x5 x6 (expertOf x9 k) r j := by
  rw [val_main_v85_apply, val_main_v84_apply, cell_c x0 x1 x2 x3 x4 x5 x6 x9 h9, val_main_v83_apply,
    val_main_v82_apply, val_main_cst_17_apply, val_main_v81_apply, val_main_v80_apply, val_main_cst_16_apply,
    val_main_v79_apply, val_main_v78_apply, val_main_v61_apply, slice_o, gates_apply x0 x1 x3 x4 x5 x6 x9 h9]
  simp only [Ideal.ofBits_def, Ideal.ofBits_one_f32, Ideal.addf_def, Ideal.mulf_def, Ideal.hostDivf_def,
    Ideal.hostUnary_exp_def, Ideal.hostUnary_tanh_def, Ideal.hostNegf_def, Ideal.negf_def]
  rfl

/-! ## The two flat results -/

theorem out_h (h9 : InRange16 x9) (p : Fin 65536) (j : Fin 256) :
    val_main_v86 (F := Ideal) x0 x1 x2 x3 x4 x5 x6 x9 (ix2 p j) = outH x0 x1 x2 x3 x4 x5 x6 x9 p j := by
  rw [val_main_v86_apply, flat_h, cell_h x0 x1 x2 x3 x4 x5 x6 x9 h9]
  rfl

theorem out_c (h9 : InRange16 x9) (p : Fin 65536) (j : Fin 256) :
    val_main_v87 (F := Ideal) x0 x1 x2 x3 x4 x5 x6 x9 (ix2 p j) = outC x0 x1 x2 x3 x4 x5 x6 x9 p j := by
  rw [val_main_v87_apply, flat_c, cell_c x0 x1 x2 x3 x4 x5 x6 x9 h9]
  rfl

end Cert.ReferenceIdeal.RefValue

end
-- ==== Proof.RefLoss.lean ====
/-
  The reference's loss at a flat row.

  The flat hidden rows go through the classifier (`h'·Woᵀ + bo`), the log-softmax by the shifted formula, and
  `take_along_axis` at the row's label: a label in `[0, 512)` is not negative, so nothing is added to it, it passes the
  range test, and the gather's clamp leaves it; the loss is the negated entry.
-/
import proofs.«430817_j73091753443795_3_alg».proof.Proof.RefCell

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Cert.Spec

/-! ## A row's maximum, the range test's reduction and the row-wise gather, at an index -/

/-- A fold by `and` from 1 over words that are all 1 is 1. -/
theorem andFold_one {ι : Type} [DecidableEq ι] (s : Finset ι) (f : ι → BitVec 1) (h : ∀ k ∈ s, f k = 1#1) :
    s.fold IntOp.andi 1#1 f = 1#1 := by
  induction s using Finset.induction_on with
  | empty => rfl
  | insert a s ha ih =>
    rw [Finset.fold_insert ha, h a (Finset.mem_insert_self _ _), ih (fun k hk => h k (Finset.mem_insert_of_mem hk))]
    rfl

/-- The row maximum: a reduce by `max` over the columns of a [65536, 512] array, at row `p`, is the fold of `max` from the
    initial value over that row. -/
theorem rowMax_read (x : (⟨2, ![65536, 512]⟩ : Shape).Idx → EReal) (init : (⟨0, ![]⟩ : Shape).Idx → EReal)
    (h' : (⟨2, ![65536, 512]⟩ : Shape).ReducesTo [1] ⟨1, ![65536]⟩) (hu : 0 < (⟨0, ![]⟩ : Shape).numel) (p : Fin 65536) :
    Host.reduce (FloatOps.maximumf (F := Ideal) (φ := .f32)) x init h' hu (ix1 p)
      = Finset.univ.fold max (init (Shape.Idx.first hu)) (fun n : Fin 512 => x (ix2 p n)) := by
  have h : (⟨2, ![65536, 512]⟩ : Shape).Reduces [1] ⟨1, ![65536]⟩ := by decide
  rw [Host.reduce_eq_fold_single _ x init h' h hu (ix1 p)]
  show (Finset.univ : Finset (Fin 512)).fold max (init (Shape.Idx.first hu)) (x ∘ h.lift (ix1 p)) = _
  refine congrArg (Finset.univ.fold max (init (Shape.Idx.first hu))) (funext fun n => ?_)
  exact congrArg x (funext fun a => Fin.ext (by match a with | ⟨0, _⟩ => rfl | ⟨1, _⟩ => rfl))

/-- The range test's reduce by `and` over the last, size-one axis of a [65536, 1, 1] array of bits: 1 at row `p` when it
    starts from 1 and the row's one bit is 1. -/
theorem rangeTest_read (x : (⟨3, ![65536, 1, 1]⟩ : Shape).Idx → BitVec 1) (init : (⟨0, ![]⟩ : Shape).Idx → BitVec 1)
    (h' : (⟨3, ![65536, 1, 1]⟩ : Shape).ReducesTo [2] ⟨2, ![65536, 1]⟩) (hu : 0 < (⟨0, ![]⟩ : Shape).numel) (p : Fin 65536)
    (hinit : init (Shape.Idx.first hu) = 1#1) (hx : x (ix3 p 0 0) = 1#1) :
    Host.reduce IntOp.andi x init h' hu (ix2 p 0) = 1#1 := by
  have h : (⟨3, ![65536, 1, 1]⟩ : Shape).Reduces [2] ⟨2, ![65536, 1]⟩ := by decide
  rw [Host.reduce_eq_fold_single _ x init h' h hu (ix2 p 0), hinit]
  refine andFold_one _ _ fun k _ => ?_
  show x (h.lift (ix2 p 0) k) = 1#1
  rw [← hx]
  exact congrArg x (funext fun a => Fin.ext (by
    match a with
    | ⟨0, _⟩ => rfl
    | ⟨1, _⟩ => rfl
    | ⟨2, _⟩ => exact Nat.lt_one_iff.mp k.isLt))

/-- The dimension numbers of `take_along_axis` along the columns of a [65536, 512] array, one column per row: the rows
    are a batching axis, the column is the gathered (collapsed) axis. -/
abbrev rowTakeDims (wf : GatherDims.WF ⟨2, ![65536, 512]⟩ ⟨3, ![65536, 1, 1]⟩ ⟨2, ![65536, 1]⟩ [] [1] [0] [1] [0] 2 ![1, 1]) :
    GatherDims ⟨2, ![65536, 512]⟩ ⟨3, ![65536, 1, 1]⟩ ⟨2, ![65536, 1]⟩ where
  offsetDims := []
  collapsedSliceDims := [1]
  operandBatchingDims := [0]
  startIndicesBatchingDims := [0]
  startIndexMap := [1]
  indexVectorDim := 2
  sliceSizes := ![1, 1]
  wf := wf

section RowTake
variable {w : Nat} (wf : GatherDims.WF ⟨2, ![65536, 512]⟩ ⟨3, ![65536, 1, 1]⟩ ⟨2, ![65536, 1]⟩ [] [1] [0] [1] [0] 2 ![1, 1])
  (idx : IVec ⟨3, ![65536, 1, 1]⟩ w) (p : Fin 65536)

/-- The row read is the result's own row. -/
theorem rowTake_row : ((rowTakeDims wf).operandIdx (ix2 p 0) idx 0).val = p.val := by
  show (rowTakeDims wf).start (ix2 p 0) idx 0 + (rowTakeDims wf).batchCoord (ix2 p 0) 0 + (rowTakeDims wf).offCoord (ix2 p 0) 0 = p.val
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (rowTakeDims wf).operandBatchingDims from List.mem_singleton.mpr rfl)]
  rfl

/-- The column read is the start index at the row, read signed and clamped into [0, 511]. -/
theorem rowTake_col : ((rowTakeDims wf).operandIdx (ix2 p 0) idx 1).val = min (idx (ix3 p 0 0)).toInt.toNat 511 := by
  show (rowTakeDims wf).start (ix2 p 0) idx 1 + (rowTakeDims wf).batchCoord (ix2 p 0) 1 + (rowTakeDims wf).offCoord (ix2 p 0) 1 = _
  rw [GatherDims.batchCoord_eq_zero _ _ _ (fun h => absurd (List.mem_singleton.mp h) (by decide)),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowTakeDims wf).startIndexMap from List.mem_singleton.mpr rfl)]
  have hsi : (rowTakeDims wf).siIdx (ix2 p 0) ⟨List.idxOf (1 : Fin 2) (rowTakeDims wf).startIndexMap,
      List.idxOf_lt_length_iff.2 (List.mem_singleton.mpr rfl)⟩ = ix3 p 0 0 := by
    funext b; refine Fin.ext ?_
    match b with
    | ⟨0, _⟩ => rfl
    | ⟨1, _⟩ => rfl
    | ⟨2, _⟩ => rfl
  rw [hsi]
  rfl

/-- The gather read at row `p`: the operand's row `p` at the column the start index names, read signed and clamped. -/
theorem rowTake_apply {α : Type} (x : (⟨2, ![65536, 512]⟩ : Shape).Idx → α) :
    Host.gather (rowTakeDims wf) x idx (ix2 p 0) = x (ix2 p ⟨min (idx (ix3 p 0 0)).toInt.toNat 511, by omega⟩) := by
  unfold Host.gather
  refine congrArg x (funext fun a => Fin.ext ?_)
  match a with
  | ⟨0, _⟩ => exact rowTake_row wf idx p
  | ⟨1, _⟩ => exact rowTake_col wf idx p

end RowTake

/-! ## Words and constants -/

/-- The pattern of `-∞` is the bottom of the extended reals. -/
theorem negInf_bits : Ideal.ofBits .f32 0xFF800000#32 = (⊥ : EReal) := by simp [Ideal.ofBits, Ideal.ieee]

/-- A word below 512 is not negative, ... -/
theorem label_not_neg {w : BitVec 32} (h : w.toNat < 512) : IntOp.cmpi .slt w 0#32 = 0#1 := by
  refine eq_zero_of_ne_one fun e => ?_
  have h0 : (0#32 : BitVec 32).toNat = 0 := rfl
  have := (Predicate.slt_iff_toNat (by omega) (by decide)).mp e
  omega

/-- ... is at least 0 ... -/
theorem label_ge_zero {w : BitVec 32} (h : w.toNat < 512) : IntOp.cmpi .sge w 0#32 = 1#1 := by
  have h0 : (0#32 : BitVec 32).toNat = 0 := rfl
  exact (Predicate.sge_iff_toNat (by omega) (by decide)).mpr (by omega)

/-- ... and at most 511. -/
theorem label_le_last {w : BitVec 32} (h : w.toNat < 512) : IntOp.cmpi .sle w 511#32 = 1#1 := by
  have h0 : (511#32 : BitVec 32).toNat = 511 := rfl
  exact (Predicate.sle_iff_toNat (by omega) (by decide)).mpr (by omega)

/-- Read signed and clamped into [0, 511], a word below 512 is its own value. -/
theorem label_clamp {w : BitVec 32} (h : w.toNat < 512) : min w.toInt.toNat 511 = w.toNat % 512 := by
  rw [Predicate.toInt_eq_toNat_of_lt (by omega), Int.toNat_natCast, Nat.mod_eq_of_lt h]
  omega

/-! ## The generated index maps at coordinates -/

theorem lidx89_ix (p : Fin 65536) (n : Fin 512) (k : Fin 256) : lidx_main_v89 (ix2 p n) k = ix2 p k := funext fun a => Fin.ext (by match a with | ⟨0, _⟩ => rfl | ⟨1, _⟩ => rfl)
theorem ridx89_ix (p : Fin 65536) (n : Fin 512) (k : Fin 256) : ridx_main_v89 (ix2 p n) k = ix2 k n := funext fun a => Fin.ext (by match a with | ⟨0, _⟩ => rfl | ⟨1, _⟩ => rfl)
theorem idx88_ix (k : Fin 256) (n : Fin 512) : idx_main_v88 (ix2 k n) = ix2 n k := funext fun a => Fin.ext (by match a with | ⟨0, _⟩ => rfl | ⟨1, _⟩ => rfl)
theorem idx91_ix (p : Fin 65536) (n : Fin 512) : idx_main_v91 (ix2 p n) = ix2 (0 : Fin 1) n := funext fun a => Fin.ext (by match a with | ⟨0, _⟩ => rfl | ⟨1, _⟩ => rfl)
theorem idx90_ix (n : Fin 512) : idx_main_v90 (ix2 (0 : Fin 1) n) = ix1 n := funext fun a => Fin.ext (by match a with | ⟨0, _⟩ => rfl)
theorem rowOfEntry_ix (p : Fin 65536) (n : Fin 512) : idx_main_call0_v4 (ix2 p n) = ix2 p (0 : Fin 1) := funext fun a => Fin.ext (by match a with | ⟨0, _⟩ => rfl | ⟨1, _⟩ => rfl)
theorem rowOfColumn_ix (p : Fin 65536) : idx_main_call0_v3 (ix2 p (0 : Fin 1)) = ix1 p := funext fun a => Fin.ext (by match a with | ⟨0, _⟩ => rfl)
theorem rowOfEntry'_ix (p : Fin 65536) (n : Fin 512) : idx_main_call0_v10 (ix2 p n) = ix2 p (0 : Fin 1) := funext fun a => Fin.ext (by match a with | ⟨0, _⟩ => rfl | ⟨1, _⟩ => rfl)
theorem rowOfColumn'_ix (p : Fin 65536) : idx_main_call0_v8 (ix2 p (0 : Fin 1)) = ix1 p := funext fun a => Fin.ext (by match a with | ⟨0, _⟩ => rfl)
theorem entryOfRow_ix (p : Fin 65536) (k : Fin 512) : idx_main_call0_v7 (ix1 p) k = ix2 p k := funext fun a => Fin.ext (by match a with | ⟨0, _⟩ => rfl | ⟨1, _⟩ => rfl)
theorem labelCell_ix (p : Fin 65536) : idx_main_call1_v5 (ix3 p (0 : Fin 1) (0 : Fin 1)) = ix2 p (0 : Fin 1) :=
  funext fun a => Fin.ext (by
    match a with
    | ⟨0, _⟩ => show ((p.val * 1 + 0) * 1 + 0) / 1 = p.val; omega
    | ⟨1, _⟩ => rfl)
theorem labelOfColumn_ix (p : Fin 65536) : idx_main_v94 (ix2 p (0 : Fin 1)) = ix1 p := funext fun a => Fin.ext (by match a with | ⟨0, _⟩ => rfl)
theorem columnOfFlat_ix (p : Fin 65536) : idx_main_v96 (ix1 p) = ix2 p (0 : Fin 1) :=
  funext fun a => Fin.ext (by
    match a with
    | ⟨0, _⟩ => show p.val / 1 = p.val; omega
    | ⟨1, _⟩ => rfl)

variable (x0 : (⟨S16x4096x512, .f32⟩ : BufTy).Contents (Elt Ideal)) (x1 x2 : (⟨S16x4096x256, .f32⟩ : BufTy).Contents (Elt Ideal))
  (x3 : (⟨S16x1024x512, .f32⟩ : BufTy).Contents (Elt Ideal)) (x4 : (⟨S16x1024x256, .f32⟩ : BufTy).Contents (Elt Ideal))
  (x5 x6 : (⟨S16x1024, .f32⟩ : BufTy).Contents (Elt Ideal)) (x7 : (⟨S512x256, .f32⟩ : BufTy).Contents (Elt Ideal))
  (x8 : (⟨S512, .f32⟩ : BufTy).Contents (Elt Ideal)) (x9 : (⟨S16, .i32⟩ : BufTy).Contents (Elt Ideal))
  (x10 : (⟨S65536, .i32⟩ : BufTy).Contents (Elt Ideal))

/-- Every label is a class index below 512. -/
def InRange512 (w : (⟨S65536, .i32⟩ : BufTy).Contents (Elt Ideal)) : Prop := ∀ p : Fin 65536, (w (ix1 p)).toNat < 512

/-! ## The classifier -/

/-- The logits of flat row `p`: the row's next hidden state against the classifier's weights, plus its bias. -/
theorem logits_apply (h9 : InRange16 x9) (p : Fin 65536) (n : Fin 512) :
    val_main_v92 (F := Ideal) x0 x1 x2 x3 x4 x5 x6 x7 x8 x9 (ix2 p n)
      = logit (hAt x0 x1 x2 x3 x4 x5 x6 (expertOf x9 (posOf p)) (rowOf p)) (fun n j => x7 (ix2 n j)) (fun n => x8 (ix1 n)) n := by
  rw [val_main_v92_apply, val_main_v89_apply, val_main_v91_apply, idx91_ix, val_main_v90_apply, idx90_ix, Ideal.addf_def]
  unfold logit
  refine congrArg₂ (· + ·) (Finset.sum_congr rfl fun k _ => ?_) rfl
  rw [lidx89_ix, ridx89_ix, val_main_v88_apply, idx88_ix, out_h x0 x1 x2 x3 x4 x5 x6 x9 h9 p k]
  rfl

/-! ## The log-softmax -/

/-- The shift of row `p`: the maximum with `-∞` of the row's maximum taken from `-∞`. -/
theorem rowMax_apply (p : Fin 65536) :
    val_main_call0_v2 (F := Ideal) x0 x1 x2 x3 x4 x5 x6 x7 x8 x9 (ix1 p) = rowMax (fun n => val_main_v92 (F := Ideal) x0 x1 x2 x3 x4 x5 x6 x7 x8 x9 (ix2 p n)) := by
  rw [val_main_call0_v2_apply, val_main_call0_v1_apply, val_main_call0_cst_0_apply]
  unfold val_main_call0_v0
  generalize val_main_v92 (F := Ideal) x0 x1 x2 x3 x4 x5 x6 x7 x8 x9 = y
  rw [rowMax_read y _ _ _ p, val_main_call0_cst_apply, Ideal.ofBits_def, negInf_bits]
  rfl

/-- A shifted logit. -/
theorem shifted_apply (p : Fin 65536) (n : Fin 512) :
    val_main_call0_v5 (F := Ideal) x0 x1 x2 x3 x4 x5 x6 x7 x8 x9 (ix2 p n)
      = val_main_v92 (F := Ideal) x0 x1 x2 x3 x4 x5 x6 x7 x8 x9 (ix2 p n) - rowMax (fun n' => val_main_v92 (F := Ideal) x0 x1 x2 x3 x4 x5 x6 x7 x8 x9 (ix2 p n')) := by
  rw [val_main_call0_v5_apply, val_main_call0_v4_apply, rowOfEntry_ix, val_main_call0_v3_apply, rowOfColumn_ix,
    rowMax_apply x0 x1 x2 x3 x4 x5 x6 x7 x8 x9 p, Ideal.subf_def]

/-- The log-probabilities of row `p`. -/
theorem logp_apply (p : Fin 65536) (n : Fin 512) :
    val_main_v93 (F := Ideal) x0 x1 x2 x3 x4 x5 x6 x7 x8 x9 (ix2 p n) = logp (fun n' => val_main_v92 (F := Ideal) x0 x1 x2 x3 x4 x5 x6 x7 x8 x9 (ix2 p n')) n := by
  have hs : ∀ k : Fin 512, val_main_call0_v6 (F := Ideal) x0 x1 x2 x3 x4 x5 x6 x7 x8 x9 (idx_main_call0_v7 (ix1 p) k)
      = Ideal.exp (val_main_v92 (F := Ideal) x0 x1 x2 x3 x4 x5 x6 x7 x8 x9 (ix2 p k) - rowMax (fun n' => val_main_v92 (F := Ideal) x0 x1 x2 x3 x4 x5 x6 x7 x8 x9 (ix2 p n'))) := by
    intro k
    rw [entryOfRow_ix, val_main_call0_v6_apply, shifted_apply x0 x1 x2 x3 x4 x5 x6 x7 x8 x9 p k, Ideal.hostUnary_exp_def]
  rw [val_main_v93_apply, val_main_call0_v10_apply, rowOfEntry'_ix, val_main_call0_v9_apply, val_main_call0_v8_apply, rowOfColumn'_ix,
    val_main_call0_v7_apply, val_main_call0_cst_1_apply, shifted_apply x0 x1 x2 x3 x4 x5 x6 x7 x8 x9 p n, Ideal.ofBits_def, Ideal.ofBits_zero_f32, zero_add,
    Ideal.subf_def, Ideal.hostUnary_log_def]
  simp only [hs]
  generalize val_main_v92 (F := Ideal) x0 x1 x2 x3 x4 x5 x6 x7 x8 x9 = y
  rfl

/-! ## `take_along_axis` at the label -/

/-- The start index of row `p` is the row's label: the word is not negative, so nothing is added to it. -/
theorem label_apply (h10 : InRange512 x10) (p : Fin 65536) :
    val_main_call1_v5 (F := Ideal) x10 (ix3 p (0 : Fin 1) (0 : Fin 1)) = x10 (ix1 p) := by
  rw [val_main_call1_v5_apply, labelCell_ix, val_main_call1_v4_apply, val_main_call1_v1_apply, val_main_v94_apply, labelOfColumn_ix,
    val_main_call1_v0_apply, val_main_call1_c_apply, label_not_neg (h10 p), select_zero]

/-- The label passes the range test `0 ≤ · ≤ 511`. -/
theorem rangeTest_apply (h10 : InRange512 x10) (p : Fin 65536) :
    val_main_call1_v12 (F := Ideal) x10 (ix2 p (0 : Fin 1)) = 1#1 := by
  unfold val_main_call1_v12
  refine rangeTest_read _ _ _ _ p (val_main_call1_c_3_apply _) ?_
  rw [val_main_call1_v11_apply, val_main_call1_v7_apply, val_main_call1_v10_apply, label_apply x10 h10 p,
    val_main_call1_v6_apply, val_main_call1_c_2_apply, val_main_call1_v9_apply, val_main_call1_v8_apply, val_main_call1_c_1_apply,
    label_ge_zero (h10 p), label_le_last (h10 p)]
  rfl

/-- The gathered entry of row `p` is the row's log-probability at its label. -/
theorem taken_apply (h10 : InRange512 x10) (p : Fin 65536) :
    val_main_call1_v13 (F := Ideal) x0 x1 x2 x3 x4 x5 x6 x7 x8 x9 x10 (ix2 p (0 : Fin 1))
      = val_main_v93 (F := Ideal) x0 x1 x2 x3 x4 x5 x6 x7 x8 x9 (ix2 p (labelOf x10 p)) := by
  unfold val_main_call1_v13
  generalize val_main_v93 (F := Ideal) x0 x1 x2 x3 x4 x5 x6 x7 x8 x9 = y
  refine (rowTake_apply _ (val_main_call1_v5 (F := Ideal) x10) p y).trans ?_
  refine congrArg y (congrArg (ix2 p) (Fin.ext ?_))
  show min (val_main_call1_v5 (F := Ideal) x10 (ix3 p (0 : Fin 1) (0 : Fin 1))).toInt.toNat 511 = (x10 (ix1 p)).toNat % 512
  rw [label_apply x10 h10 p]
  exact label_clamp (h10 p)

/-! ## The loss -/

theorem out_loss (h9 : InRange16 x9) (h10 : InRange512 x10) (p : Fin 65536) :
    val_main_v97 (F := Ideal) x0 x1 x2 x3 x4 x5 x6 x7 x8 x9 x10 (ix1 p) = outLoss x0 x1 x2 x3 x4 x5 x6 x7 x8 x9 x10 p := by
  have hl : (fun n' => val_main_v92 (F := Ideal) x0 x1 x2 x3 x4 x5 x6 x7 x8 x9 (ix2 p n'))
      = logit (hAt x0 x1 x2 x3 x4 x5 x6 (expertOf x9 (posOf p)) (rowOf p)) (fun n j => x7 (ix2 n j)) (fun n => x8 (ix1 n)) :=
    funext fun n' => logits_apply x0 x1 x2 x3 x4 x5 x6 x7 x8 x9 h9 p n'
  rw [val_main_v97_apply, val_main_v96_apply, columnOfFlat_ix, val_main_v95_apply, rangeTest_apply x10 h10 p, select_one,
    taken_apply x0 x1 x2 x3 x4 x5 x6 x7 x8 x9 x10 h10 p, logp_apply x0 x1 x2 x3 x4 x5 x6 x7 x8 x9 p (labelOf x10 p), hl, Ideal.hostNegf_def, Ideal.negf_def]
  rfl

end Cert.ReferenceIdeal.RefValue

end
-- ==== Proof.lean ====
/-
  The kernel and its reference compute the same three arrays.

  Both programs take sixteen positions of 4096 rows. Position `k` is served by the expert its `child_index` word names:
  that expert's LSTM cell maps the position's rows of `x`, `h`, `c` to a next hidden and a next cell state, a shared
  linear head maps the hidden state to 512 logits, and the loss of a row is minus the log-softmax of its logits at the
  row's label. The kernel does this block by block — 1024 rows of one position per grid point, the expert's weights
  found through the prefetched table — and the reference for all rows at once, after gathering every position's expert.

  Under the precondition (finite floats, every `child_index` word in `[0, 16)`, every label in `[0, 512)`) the two agree
  on the extended reals: the word is the expert's number on both sides; the matrix products are the same finite sums;
  the reference's `((a + b) + bi) + bh` is the kernel's `(a + b) + (bi + bh)`; its `1 / (1 + exp (-x))` is the kernel's
  logistic; the two log-softmaxes are the same shifted formula; and the kernel's sum of the one selected entry,
  subtracted from zero, is the reference's negated entry.

  The frames of the two kernels hold where every table-indexed block lies inside its array, which the range of the
  `child_index` words gives; the reference's frame is its run; the idealization rewrote nothing.
-/
import proofs.«430817_j73091753443795_3_alg».proof.Defs
import proofs.«430817_j73091753443795_3_alg».proof.Proof.Gen.Kernel
import proofs.«430817_j73091753443795_3_alg».proof.Proof.Gen.Kernel.Skeleton
import proofs.«430817_j73091753443795_3_alg».proof.Proof.Gen.Kernel.Launch
import proofs.«430817_j73091753443795_3_alg».proof.Proof.Gen.Kernel.Points
import proofs.«430817_j73091753443795_3_alg».proof.Proof.Gen.Kernel.Frame
import proofs.«430817_j73091753443795_3_alg».proof.Proof.Gen.KernelIdeal
import proofs.«430817_j73091753443795_3_alg».proof.Proof.Gen.KernelIdeal.Skeleton
import proofs.«430817_j73091753443795_3_alg».proof.Proof.Gen.KernelIdeal.Launch
import proofs.«430817_j73091753443795_3_alg».proof.Proof.Gen.KernelIdeal.Points
import proofs.«430817_j73091753443795_3_alg».proof.Proof.Gen.KernelIdeal.Frame
import proofs.«430817_j73091753443795_3_alg».proof.Proof.Gen.ReferenceIdeal
import proofs.«430817_j73091753443795_3_alg».proof.Proof.Gen.Pre_finite_inputs
import proofs.«430817_j73091753443795_3_alg».proof.Proof.OkKernel
import proofs.«430817_j73091753443795_3_alg».proof.Proof.OkKernelIdeal
import proofs.«430817_j73091753443795_3_alg».proof.Proof.KernelTail
import proofs.«430817_j73091753443795_3_alg».proof.Proof.RefLoss
import proofs.«430817_j73091753443795_3_alg».proof.Proof.RefRunLight
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel's frame: the generated frame, its side condition from the precondition. -/
theorem frame_k : Cert.frame_Kernel := fun m ρ h => Cert.Kernel.Gen.frame m ρ (Cert.Kernel.OkOfPre.ok_of_pre m h)

/-- The idealized kernel's frame, likewise. -/
theorem frame_ki : Cert.frame_KernelIdeal := fun m ρ h =>
  Cert.KernelIdeal.Gen.frame m ρ (Cert.KernelIdeal.OkOfPre.ok_of_pre m h)

/-- The reference's frame: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The two idealized programs end with equal results. -/
theorem algebraic : Cert.algebraic_KernelIdeal_ReferenceIdeal := by
  intro m ρ m' ρ' hpre hagree
  have hO := Cert.KernelIdeal.OkOfPre.ok_of_pre m hpre
  have hlt := Cert.KernelIdeal.OkOfPre.tbl_lt m hpre
  have hr := fun c : Dev Cert.KernelIdeal.nD => Cert.PreDecode.ranges _ _ _ _ _ _ _ _ _ _ _ (hpre c)
  refine ⟨fun c => Cert.KernelIdeal.KTail.resH m c, fun c => Cert.KernelIdeal.KTail.resC m c,
    fun c => Cert.KernelIdeal.KTail.resL m c, Cert.KernelIdeal.KTail.run m ρ hO hlt (fun c => (hr c).2), ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10⟩ := hagree c
    rw [Cert.ReferenceIdeal.Read.val_main_v86_eq, a0, a1, a2, a3, a4, a5, a6, a9]
    funext i
    obtain ⟨p, j, rfl⟩ : ∃ (p : Fin 65536) (j : Fin 256), i = ix2 p j := ⟨i 0, i 1, eq_ix2 i⟩
    exact (Cert.ReferenceIdeal.RefValue.out_h _ _ _ _ _ _ _ _ (hr c).1 p j).trans
      (Cert.KernelIdeal.KTail.resH_apply m c p j).symm
  · obtain ⟨a0, a1, a2, a3, a4, a5, a6, a7, a8, a9, a10⟩ := hagree c
    rw [Cert.ReferenceIdeal.Read.val_main_v87_eq, a0, a1, a2, a3, a4, a5, a6, a9]
    funext i
    obtain ⟨p, j, rfl⟩ : ∃ (p : Fin 65536) (j : Fin 256), i = ix2 p j := ⟨i 0, i 1, eq_ix2 i⟩
    exact (Cert.ReferenceIdeal.RefValue.out_c _ _ _ _ _ _ _ _ (hr c).1 p j).trans
      (Cert.KernelIdeal.KTail.resC_apply m c p j).symm
  · obtain ⟨a0, a1, a2, a3, a4, a5, a6, a7, a8, a9, a10⟩ := hagree c
    rw [Cert.ReferenceIdeal.Read.val_main_v97_eq, a0, a1, a2, a3, a4, a5, a6, a7, a8, a9, a10]
    funext i
    obtain ⟨p, rfl⟩ : ∃ p : Fin 65536, i = ix1 p := ⟨i 0, eq_ix1 i⟩
    exact (Cert.ReferenceIdeal.RefValue.out_loss _ _ _ _ _ _ _ _ _ _ _ (hr c).1 (hr c).2 p).trans
      (Cert.KernelIdeal.KTail.resL_apply m c p).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
